-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10000 : Shape := ⟨2, ![256, 10000]⟩
abbrev S1 : Shape := ⟨1, ![1]⟩
abbrev S10000x1024 : Shape := ⟨2, ![10000, 1024]⟩
abbrev S1024 : Shape := ⟨1, ![1024]⟩
abbrev S1024x128 : Shape := ⟨2, ![1024, 128]⟩
abbrev S128 : Shape := ⟨1, ![128]⟩
abbrev S2x160000 : Shape := ⟨2, ![2, 160000]⟩
abbrev S_ : Shape := ⟨0, ![]⟩

class Facts : Prop where
  bcast_S_S256x10000 : S_.BroadcastsInDim S256x10000 (![] : Fin 0 → Fin S256x10000.rank)
  reducesTo_S256x10000_S_d0_1 : S256x10000.ReducesTo [0, 1] S_
  h_S_ : 0 < S_.numel
  bcast_S_S1 : S_.BroadcastsInDim S1 (![] : Fin 0 → Fin S1.rank)
  reducesTo_S1_S_d0 : S1.ReducesTo [0] S_
  bcast_S_S10000x1024 : S_.BroadcastsInDim S10000x1024 (![] : Fin 0 → Fin S10000x1024.rank)
  reducesTo_S10000x1024_S_d0_1 : S10000x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg7 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg7 main_v34
  let main_c_13 : IVec S_ 1 := constantI S_ 1 1#1
  let main_v36 : IVec S_ 1 := (fun x v => Host.reduce IntOp.andi x v reducesTo_S2x160000_S_d0_1 h_S_) main_v35 main_c_13
  let main_v37 : IVec S_ 1 := andi main_v33 main_v36
  let main_c_14 : IVec S_ 32 := constantI S_ 32 10000#32
  let main_v38 : IVec S2x160000 32 := broadcastInDim S2x160000 ![] bcast_S_S2x160000 main_c_14
  let main_v39 : IVec S2x160000 1 := cmpi .slt main_arg7 main_v38
  let main_c_15 : IVec S_ 1 := constantI S_ 1 1#1
  let main_v40 : IVec S_ 1 := (fun x v => Host.reduce IntOp.andi x v reducesTo_S2x160000_S_d0_1 h_S_) main_v39 main_c_15
  let main_v41 : IVec S_ 1 := andi main_v37 main_v40
  main_v41

def fn_part1 {F : FTy → Type} [FloatOps F] (main_arg4 : FVec F S1024 .f32) (main_arg5 : FVec F S1024x128 .f32) (main_arg6 : FVec F S128 .f32) (main_arg7 : IVec S2x160000 32) (main_v13 : IVec S_ 1) (main_v16 : IVec S10000x1024 1) : IVec S_ 1 :=
  let main_c_5 : IVec S_ 1 := constantI S_ 1 1#1
  let main_v17 : IVec S_ 1 := (fun x v => Host.reduce IntOp.andi x v reducesTo_S10000x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S256x10000 .f32) (main_arg1 : FVec F S1 .f32) (main_arg2 : FVec F S1 .f32) (main_arg3 : FVec F S10000x1024 .f32) (main_arg4 : FVec F S1024 .f32) (main_arg5 : FVec F S1024x128 .f32) (main_arg6 : FVec F S128 .f32) (main_arg7 : IVec S2x160000 32) : IVec S_ 1 :=
  let main_v0 : FVec F S256x10000 .f32 := Host.absf main_arg0
  let main_cst : FVec F S_ .f32 := constant S_ .f32 0x7F800000#32
  let main_v1 : FVec F S256x10000 .f32 := broadcastInDim S256x10000 ![] bcast_S_S256x10000 main_cst
  let main_v2 : IVec S256x10000 1 := cmpf .olt main_v0 main_v1
  let main_c : IVec S_ 1 := constantI S_ 1 1#1
  let main_v3 : IVec S_ 1 := (fun x v => Host.reduce IntOp.andi x v reducesTo_S256x10000_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S10000x1024 .f32 := Host.absf main_arg3
  let main_cst_4 : FVec F S_ .f32 := constant S_ .f32 0x7F800000#32
  let main_v15 : FVec F S10000x1024 .f32 := broadcastInDim S10000x1024 ![] bcast_S_S10000x1024 main_cst_4
  let main_v16 : IVec S10000x1024 1 := cmpf .olt main_v14 main_v15
  fn_part1 (F := F) main_arg4 main_arg5 main_arg6 main_arg7 main_v13 main_v16
-- ==== Kernel.lean ====
abbrev S256x10000 : Shape := ⟨2, ![256, 10000]⟩
abbrev S1 : Shape := ⟨1, ![1]⟩
abbrev S10000x1024 : Shape := ⟨2, ![10000, 1024]⟩
abbrev S1024 : Shape := ⟨1, ![1024]⟩
abbrev S1024x128 : Shape := ⟨2, ![1024, 128]⟩
abbrev S128 : Shape := ⟨1, ![128]⟩
abbrev S2x160000 : Shape := ⟨2, ![2, 160000]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S256x10240 : Shape := ⟨2, ![256, 10240]⟩
abbrev S1x1 : Shape := ⟨2, ![1, 1]⟩
abbrev S256x2048 : Shape := ⟨2, ![256, 2048]⟩
abbrev S2048x2048 : Shape := ⟨2, ![2048, 2048]⟩
abbrev S10240x1024 : Shape := ⟨2, ![10240, 1024]⟩
abbrev S1x1024 : Shape := ⟨2, ![1, 1024]⟩
abbrev S1x128 : Shape := ⟨2, ![1, 128]⟩
abbrev S256x128 : Shape := ⟨2, ![256, 128]⟩
abbrev S2048x1024 : Shape := ⟨2, ![2048, 1024]⟩
abbrev S256x1024 : Shape := ⟨2, ![256, 1024]⟩

abbrev nBuf : Space → Nat
  | .hbm => 79
  | .vmem => 17
  | .smem => 0
  | _ => 0

abbrev bufTy : (tb : Table) → Fin (tcTables nBuf tb) → BufTy
  | .hbm, ⟨0, _⟩ => ⟨S256x10000, .f32⟩
  | .hbm, ⟨1, _⟩ => ⟨S1, .f32⟩
  | .hbm, ⟨2, _⟩ => ⟨S1, .f32⟩
  | .hbm, ⟨3, _⟩ => ⟨S10000x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S2x160000, .i32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S170000, .f32⟩
  | .hbm, ⟨17, _⟩ => ⟨S_, .f32⟩
  | .hbm, ⟨18, _⟩ => ⟨S10000, .f32⟩
  | .hbm, ⟨19, _⟩ => ⟨S170000x1, .i32⟩
  | .hbm, ⟨20, _⟩ => ⟨S10000, .f32⟩
  | .hbm, ⟨21, _⟩ => ⟨S10000, .f32⟩
  | .hbm, ⟨22, _⟩ => ⟨S_, .i32⟩
  | .hbm, ⟨23, _⟩ => ⟨S170000, .i32⟩
  | .hbm, ⟨24, _⟩ => ⟨S170000, .i1⟩
  | .hbm, ⟨25, _⟩ => ⟨S_, .i32⟩
  | .hbm, ⟨26, _⟩ => ⟨S170000, .i32⟩
  | .hbm, ⟨27, _⟩ => ⟨S170000, .i32⟩
  | .hbm, ⟨28, _⟩ => ⟨S170000, .i32⟩
  | .hbm, ⟨29, _⟩ => ⟨S170000x1, .i32⟩
  | .hbm, ⟨30, _⟩ => ⟨S170000, .f32⟩
  | .hbm, ⟨31, _⟩ => ⟨S_, .i32⟩
  | .hbm, ⟨32, _⟩ => ⟨S170000, .i32⟩
  | .hbm, ⟨33, _⟩ => ⟨S170000, .i1⟩
  | .hbm, ⟨34, _⟩ => ⟨S_, .i32⟩
  | .hbm, ⟨35, _⟩ => ⟨S170000, .i32⟩
  | .hbm, ⟨36, _⟩ => ⟨S170000, .i32⟩
  | .hbm, ⟨37, _⟩ => ⟨S170000, .i32⟩
  | .hbm, ⟨38, _⟩ => ⟨S170000x1, .i32⟩
  | .hbm, ⟨39, _⟩ => ⟨S170000, .f32⟩
  | .hbm, ⟨40, _⟩ => ⟨S170000, .f32⟩
  | .hbm, ⟨41, _⟩ => ⟨S_, .f32⟩
  | .hbm, ⟨42, _⟩ => ⟨S10240x10240, .f32⟩
  | .hbm, ⟨43, _⟩ => ⟨S_, .i32⟩
  | .hbm, ⟨44, _⟩ => ⟨S170000, .i32⟩
  | .hbm, ⟨45, _⟩ => ⟨S170000, .i1⟩
  | .hbm, ⟨46, _⟩ => ⟨S_, .i32⟩
  | .hbm, ⟨47, _⟩ => ⟨S170000, .i32⟩
  | .hbm, ⟨48, _⟩ => ⟨S170000, .i32⟩
  | .hbm, ⟨49, _⟩ => ⟨S170000, .i32⟩
  | .hbm, ⟨50, _⟩ => ⟨S_, .i32⟩
  | .hbm, ⟨51, _⟩ => ⟨S170000, .i32⟩
  | .hbm, ⟨52, _⟩ => ⟨S170000, .i1⟩
  | .hbm, ⟨53, _⟩ => ⟨S_, .i32⟩
  | .hbm, ⟨54, _⟩ => ⟨S170000, .i32⟩
  | .hbm, ⟨55, _⟩ => ⟨S170000, .i32⟩
  | .hbm, ⟨56, _⟩ => ⟨S170000, .i32⟩
  | .hbm, ⟨57, _⟩ => ⟨S170000x1, .i32⟩
  | .hbm, ⟨58, _⟩ => ⟨S170000x1, .i32⟩
  | .hbm, ⟨59, _⟩ => ⟨S170000x2, .i32⟩
  | .hbm, ⟨60, _⟩ => ⟨S10240x10240, .f32⟩
  | .hbm, ⟨61, _⟩ => ⟨S_, .f32⟩
  | .hbm, ⟨62, _⟩ => ⟨S10240x10240, .f32⟩
  | .hbm, ⟨63, _⟩ => ⟨S10240x10240, .f32⟩
  | .hbm, ⟨64, _⟩ => ⟨S10240x10240, .bf16⟩
  | .hbm, ⟨65, _⟩ => ⟨S_, .i32⟩
  | .hbm, ⟨66, _⟩ => ⟨S_, .f32⟩
  | .hbm, ⟨67, _⟩ => ⟨S256x10240, .f32⟩
  | .hbm, ⟨68, _⟩ => ⟨S256x10240, .bf16⟩
  | .hbm, ⟨69, _⟩ => ⟨S1x1, .f32⟩
  | .hbm, ⟨70, _⟩ => ⟨S256x10240, .bf16⟩
  | .hbm, ⟨71, _⟩ => ⟨S_, .i32⟩
  | .hbm, ⟨72, _⟩ => ⟨S_, .f32⟩
  | .hbm, ⟨73, _⟩ => ⟨S10240x1024, .f32⟩
  | .hbm, ⟨74, _⟩ => ⟨S10240x1024, .bf16⟩
  | .hbm, ⟨75, _⟩ => ⟨S1024x128, .bf16⟩
  | .hbm, ⟨76, _⟩ => ⟨S1x1024, .f32⟩
  | .hbm, ⟨77, _⟩ => ⟨S1x128, .f32⟩
  | .hbm, ⟨78, _⟩ => ⟨S256x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S256x128, .f32⟩
  | .local _ .vmem, ⟨16, _⟩ => ⟨S256x1024, .f32⟩
  | _, _ => ⟨S256x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨2, ![5, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v13 : BitVec 1 := Scalar.cmpi .eq arg0 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  shapeCasts_S1_S_ : S1.ShapeCasts S_
  bitsLt_bf16_f32 : FTy.bits .bf16 < FTy.bits .f32
  pads_S256x10000_S256x10240_000_02400 : S256x10000.Pads (![0, 0] : Fin 2 → Nat) ![0, 240] ![0, 0] S256x10240
  h_S_ : 0 < S_.numel
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  packedbf16_S256x2048_S256x2048_0_0 : (Rect.unit (s := S256x2048) ![0, 0] S256x2048.size inb_S256x2048_S256x2048_0_0).PackedRows (EltTy.packing .bf16)
  pads_S10000x1024_S10240x1024_02400_000 : S10000x1024.Pads (![0, 0] : Fin 2 → Nat) ![240, 0] ![0, 0] S10240x1024
  shapeCasts_S1024_S1x1024 : S1024.ShapeCasts S1x1024
  shapeCasts_S128_S1x128 : S128.ShapeCasts S1x128
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x10240.size a
  hwx0_0 : ∀ i : grid0.Coords, EltTy.bits .bf16 = 32 ∨ (Rect.block (s := S256x10240) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S10240x10240.size a
  hwx0_1 : ∀ i : grid0.Coords, EltTy.bits .bf16 = 32 ∨ (Rect.block (s := S10240x10240) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x10240.size a
  hwx0_3 : ∀ i : grid0.Coords, EltTy.bits .bf16 = 32 ∨ (Rect.block (s := S256x10240) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S256x10240.size a
  hwx1_0 : ∀ i : grid1.Coords, EltTy.bits .bf16 = 32 ∨ (Rect.block (s := S256x10240) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S10240x1024.size a
  hwx1_1 : ∀ i : grid1.Coords, EltTy.bits .bf16 = 32 ∨ (Rect.block (s := S10240x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x128.size a
  hwx1_3 : ∀ i : grid1.Coords, EltTy.bits .bf16 = 32 ∨ (Rect.block (s := S1024x128) S1024x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v47) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v49) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S256x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x10000 : Shape := ⟨2, ![256, 10000]⟩
abbrev S1 : Shape := ⟨1, ![1]⟩
abbrev S10000x1024 : Shape := ⟨2, ![10000, 1024]⟩
abbrev S1024 : Shape := ⟨1, ![1024]⟩
abbrev S1024x128 : Shape := ⟨2, ![1024, 128]⟩
abbrev S128 : Shape := ⟨1, ![128]⟩
abbrev S2x160000 : Shape := ⟨2, ![2, 160000]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S256x170000 : Shape := ⟨2, ![256, 170000]⟩
abbrev S1x170000 : Shape := ⟨2, ![1, 170000]⟩
abbrev S170000x256 : Shape := ⟨2, ![170000, 256]⟩
abbrev S10000x256 : Shape := ⟨2, ![10000, 256]⟩
abbrev S256x1024 : Shape := ⟨2, ![256, 1024]⟩
abbrev S1x1024 : Shape := ⟨2, ![1, 1024]⟩
abbrev S256x128 : Shape := ⟨2, ![256, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S256x10000, .f32⟩
  | .hbm, ⟨1, _⟩ => ⟨S1, .f32⟩
  | .hbm, ⟨2, _⟩ => ⟨S1, .f32⟩
  | .hbm, ⟨3, _⟩ => ⟨S10000x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S2x160000, .i32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S170000, .f32⟩
  | .hbm, ⟨17, _⟩ => ⟨S_, .f32⟩
  | .hbm, ⟨18, _⟩ => ⟨S10000, .f32⟩
  | .hbm, ⟨19, _⟩ => ⟨S170000x1, .i32⟩
  | .hbm, ⟨20, _⟩ => ⟨S10000, .f32⟩
  | .hbm, ⟨21, _⟩ => ⟨S10000, .f32⟩
  | .hbm, ⟨22, _⟩ => ⟨S_, .i32⟩
  | .hbm, ⟨23, _⟩ => ⟨S170000, .i32⟩
  | .hbm, ⟨24, _⟩ => ⟨S170000, .i1⟩
  | .hbm, ⟨25, _⟩ => ⟨S_, .i32⟩
  | .hbm, ⟨26, _⟩ => ⟨S170000, .i32⟩
  | .hbm, ⟨27, _⟩ => ⟨S170000, .i32⟩
  | .hbm, ⟨28, _⟩ => ⟨S170000, .i32⟩
  | .hbm, ⟨29, _⟩ => ⟨S170000x1, .i32⟩
  | .hbm, ⟨30, _⟩ => ⟨S170000, .f32⟩
  | .hbm, ⟨31, _⟩ => ⟨S_, .i32⟩
  | .hbm, ⟨32, _⟩ => ⟨S170000, .i32⟩
  | .hbm, ⟨33, _⟩ => ⟨S170000, .i1⟩
  | .hbm, ⟨34, _⟩ => ⟨S_, .i32⟩
  | .hbm, ⟨35, _⟩ => ⟨S170000, .i32⟩
  | .hbm, ⟨36, _⟩ => ⟨S170000, .i32⟩
  | .hbm, ⟨37, _⟩ => ⟨S170000, .i32⟩
  | .hbm, ⟨38, _⟩ => ⟨S170000x1, .i32⟩
  | .hbm, ⟨39, _⟩ => ⟨S170000, .f32⟩
  | .hbm, ⟨40, _⟩ => ⟨S170000, .f32⟩
  | .hbm, ⟨41, _⟩ => ⟨S_, .f32⟩
  | .hbm, ⟨42, _⟩ => ⟨S256x10000, .f32⟩
  | .hbm, ⟨43, _⟩ => ⟨S256x10000, .f32⟩
  | .hbm, ⟨44, _⟩ => ⟨S_, .i32⟩
  | .hbm, ⟨45, _⟩ => ⟨S170000, .i32⟩
  | .hbm, ⟨46, _⟩ => ⟨S170000, .i1⟩
  | .hbm, ⟨47, _⟩ => ⟨S_, .i32⟩
  | .hbm, ⟨48, _⟩ => ⟨S170000, .i32⟩
  | .hbm, ⟨49, _⟩ => ⟨S170000, .i32⟩
  | .hbm, ⟨50, _⟩ => ⟨S170000, .i32⟩
  | .hbm, ⟨51, _⟩ => ⟨S170000x1, .i32⟩
  | .hbm, ⟨52, _⟩ => ⟨S256x170000, .f32⟩
  | .hbm, ⟨53, _⟩ => ⟨S1x170000, .f32⟩
  | .hbm, ⟨54, _⟩ => ⟨S256x170000, .f32⟩
  | .hbm, ⟨55, _⟩ => ⟨S256x170000, .f32⟩
  | .hbm, ⟨56, _⟩ => ⟨S170000x256, .f32⟩
  | .hbm, ⟨57, _⟩ => ⟨S_, .f32⟩
  | .hbm, ⟨58, _⟩ => ⟨S10000x256, .f32⟩
  | .hbm, ⟨59, _⟩ => ⟨S170000x1, .i32⟩
  | .hbm, ⟨60, _⟩ => ⟨S10000x256, .f32⟩
  | .hbm, ⟨61, _⟩ => ⟨S256x10000, .f32⟩
  | .hbm, ⟨62, _⟩ => ⟨S_, .f32⟩
  | .hbm, ⟨63, _⟩ => ⟨S256x10000, .f32⟩
  | .hbm, ⟨64, _⟩ => ⟨S256x10000, .f32⟩
  | .hbm, ⟨65, _⟩ => ⟨S_, .f32⟩
  | .hbm, ⟨66, _⟩ => ⟨S256x10000, .f32⟩
  | .hbm, ⟨67, _⟩ => ⟨S256x10000, .f32⟩
  | .hbm, ⟨68, _⟩ => ⟨S256x1024, .f32⟩
  | .hbm, ⟨69, _⟩ => ⟨S1x1024, .f32⟩
  | .hbm, ⟨70, _⟩ => ⟨S256x1024, .f32⟩
  | .hbm, ⟨71, _⟩ => ⟨S256x1024, .f32⟩
  | .hbm, ⟨72, _⟩ => ⟨S_, .f32⟩
  | .hbm, ⟨73, _⟩ => ⟨S256x1024, .f32⟩
  | .hbm, ⟨74, _⟩ => ⟨S256x1024, .f32⟩
  | .hbm, ⟨75, _⟩ => ⟨S256x128, .f32⟩
  | .hbm, ⟨76, _⟩ => ⟨S1x128, .f32⟩
  | .hbm, ⟨77, _⟩ => ⟨S256x128, .f32⟩
  | .hbm, ⟨78, _⟩ => ⟨S256x128, .f32⟩
  | .hbm, ⟨79, _⟩ => ⟨S_, .f32⟩
  | .hbm, ⟨80, _⟩ => ⟨S256x128, .f32⟩
  | .hbm, ⟨81, _⟩ => ⟨S256x128, .f32⟩
  | _, _ => ⟨S256x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call1_cst : Ref sig .tc := ⟨.hbm, 72, rfl⟩
abbrev main_call1_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call2_cst : Ref sig .tc := ⟨.hbm, 79, rfl⟩
abbrev main_call2_v0 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  shapeCasts_S1_S_ : S1.ShapeCasts S_
  bcast_S_S256x10000 : S_.BroadcastsInDim S256x10000 (![] : Fin 0 → Fin S256x10000.rank)
  bcast_S170000_S1x170000_1 : S170000.BroadcastsInDim S1x170000 (![1] : Fin 1 → Fin S1x170000.rank)
  bcast_S1x170000_S256x170000_0_1 : S1x170000.BroadcastsInDim S256x170000 (![0, 1] : Fin 2 → Fin S256x170000.rank)
  transposes_S256x170000_S170000x256_1_0 : S256x170000.Transposes [1, 0] S170000x256
  bcast_S_S10000x256 : S_.BroadcastsInDim S10000x256 (![] : Fin 0 → Fin S10000x256.rank)
  transposes_S10000x256_S256x10000_1_0 : S10000x256.Transposes [1, 0] S256x10000
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S256x10000_S170000x1_S256x170000_0_1_n_n_1_1_2561_wf : GatherDims.WF S256x10000 S170000x1 S256x170000 [0] [1] [] [1] [] 1 ![256, 1]
  scatter_S10000x256_S170000x1_S170000x256_1_0_0_1_wf : ScatterDims.WF S10000x256 S170000x1 S170000x256 [1] [0] [0] 1
  dot_S256x10000_S10000x1024_S256x1024_1_0_0_1_n_n_wf : DotDims.WF S256x10000 S10000x1024 S256x1024 [1] [0] [0] [1] [] []
  dot_S256x1024_S1024x128_S256x128_1_0_0_1_n_n_wf : DotDims.WF S256x1024 S1024x128 S256x128 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S256x10000_S170000x1_S256x170000_0_1_n_n_1_1_2561 : GatherDims S256x10000 S170000x1 S256x170000 where
  offsetDims := [0]
  collapsedSliceDims := [1]
  operandBatchingDims := []
  startIndicesBatchingDims := []
  startIndexMap := [1]
  indexVectorDim := 1
  sliceSizes := ![256, 1]
  wf := gather_S256x10000_S170000x1_S256x170000_0_1_n_n_1_1_2561_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S256x10000_S10000x1024_S256x1024_1_0_0_1_n_n : DotDims S256x10000 S10000x1024 S256x1024 where
  lhsContracting := [1]
  rhsContracting := [0]
  lhsNonContracting := [0]
  rhsNonContracting := [1]
  lhsBatch := []
  rhsBatch := []
  wf := dot_S256x10000_S10000x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

class Facts : Prop extends Facts₀ where

variable [Facts]
-- ==== Proof.R0Defs.lean ====
/- The first kernel region (the graph-convolution product, grid 5 × 5, the contraction tile the fast axis): what its
   staging buffers, its accumulator and its output block hold at every grid point, and the proof data of its pipeline.

   At a point t the body adds the product of the point's feature block (256 × 2048) and weight block (2048 × 2048) to an
   accumulator that it zeroes first when the contraction tile t mod 5 is 0; when t mod 5 is 4 it writes the output block,
   the accumulator plus the bias, rectified. The accumulator lives in a scratch buffer the kernel keeps between points,
   so the region's invariant says what that buffer holds after each point. -/
import proofs.«426459_j40699110097621_1_alg».proof.Proof.Gen.KernelIdeal.Regions
import proofs.«426459_j40699110097621_1_alg».proof.Proof.Gen.KernelIdeal.Skeleton
import proofs.«426459_j40699110097621_1_alg».proof.Proof.Gen.KernelIdeal.Points
import Idealize.ShloMosaic.Lib.Pipeline.Kit
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- `V c b`: core `c`'s unscoped buffer `b` when the region is entered.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block, the weight block and the bias at point `t`, at their literal types. -/
abbrev xblk0 (c : Dev nD) (t : Fin cfg0.N) : Vec F S256x2048 .bf16 := iblk0 V c 0 t
abbrev mblk0 (c : Dev nD) (t : Fin cfg0.N) : Vec F S2048x2048 .bf16 := iblk0 V c 1 t
abbrev bblk0 (c : Dev nD) (t : Fin cfg0.N) : Vec F S1x1 .f32 := iblk0 V c 2 t

/-- THE ACCUMULATOR after the body at position `n`: the block product added to zero where the contraction tile is the
    first (`n mod 5 = 0`), to what the point before left otherwise. -/
def acc0 (c : Dev nD) : (n : ℕ) → n < cfg0.N → Vec F S256x2048 .f32
  | 0, hn => k0_pay2 (k0_pay1 (F := F)) (xblk0 V c ⟨0, hn⟩) (mblk0 V c ⟨0, hn⟩)
  | n + 1, hn =>
    if (n + 1) % 5 = 0 then k0_pay2 (k0_pay1 (F := F)) (xblk0 V c ⟨n + 1, hn⟩) (mblk0 V c ⟨n + 1, hn⟩)
    else k0_pay2 (acc0 c n (Nat.lt_of_succ_lt hn)) (xblk0 V c ⟨n + 1, hn⟩) (mblk0 V c ⟨n + 1, hn⟩)

theorem acc0_first (c : Dev nD) (t : Fin cfg0.N) (h : t.val % 5 = 0) :
    acc0 V c t.val t.isLt = k0_pay2 (k0_pay1 (F := F)) (xblk0 V c t) (mblk0 V c t) := by
  obtain ⟨n, hn⟩ := t
  cases n with
  | zero => rfl
  | succ n => exact (if_pos h).trans rfl

theorem acc0_next (c : Dev nD) (t : Fin cfg0.N) (h : ¬t.val % 5 = 0) :
    acc0 V c t.val t.isLt
      = k0_pay2 (acc0 V c (t.val - 1) (Nat.lt_of_le_of_lt (Nat.sub_le _ _) t.isLt)) (xblk0 V c t) (mblk0 V c t) := by
  obtain ⟨n, hn⟩ := t
  cases n with
  | zero => exact absurd (Nat.zero_mod _) h
  | succ n => exact (if_neg h).trans rfl

/-- The output block the body writes where the contraction tile is the last: the accumulator plus the bias, rectified. -/
def outb0 (c : Dev nD) (t : Fin cfg0.N) : Vec F S256x2048 .bf16 := k0_pay3 (acc0 V c t.val t.isLt) (bblk0 V c t)

/-- The scratch buffer that holds the accumulator. -/
abbrev scM0 : Memref sig .tc .vmem S256x2048 .f32 := Memref.whole cc0_scratch0

/-- The core's other scoped buffers (the other region's staging buffers and scratch), at some contents each. -/
abbrev rest0 (c : Dev nD) : sProp 𝕄 :=
  Pipeline.scopedRestBut (Ix := Unit) (Name := ℕ) (U := UR sig nD τ) (Lvl := ℕ) (Val := Elt F) spec0 c [cc0_scratch0]

/-- The region's invariant before position `n`: before the first point the scratch holds anything; afterwards it holds
    the accumulator the point before left, every other scoped buffer at some contents. The generator register is at some
    state throughout. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of the region's pipeline on core `c`: the arrays as the region finds them; after the body at point
    `t` each input's buffer at its block and the output's at `outb0` (consulted only where the block is written back);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outb0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outb0 V c t := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.R0Runs.lean ====
/- The first kernel region's body, run: its two branch conditions in closed form over the grid, where its output window
   is idle, the invariant with the scratch opened, and the body's run in each of its three control cases with the
   contents of every buffer named. -/
import proofs.«426459_j40699110097621_1_alg».proof.Proof.R0Defs
import Idealize.ShloMosaic.Lib.Pipeline.Value
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form over the grid -/

/-- The first conditional's condition: the contraction tile (grid coordinate 1) is 0. -/
abbrev cond0_0 (i : grid0.Coords) : Prop :=
  (Scalar.cmpi .ne (Scalar.extui (Scalar.cmpi .eq (BitVec.ofNat 32 (i 1).val) 0#32)) 0#32) = 1#1
/-- It holds exactly at the points whose position is 0 modulo 5. -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition: the contraction tile is 4, the last. -/
abbrev cond0_1 (i : grid0.Coords) : Prop := k0_cond2 i = 1#1
/-- It holds exactly at the points whose position is 4 modulo 5. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last contraction tile the output is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On the last contraction tile the output is live. -/
theorem liveAt0_3 : ∀ t : Fin cfg0.N, cond0_1 (grid0.coords t) → cfg0.idle 3 (grid0.coords t) = false := by decide +kernel

/-! ## The staging memrefs at a point -/

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)

/-! ## The class's invariant with the scratch opened -/

/-- The invariant the launch hands the region: the scratch at some contents, the core's other scoped buffers, the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

/-! ## Whole loads and whole stores read back -/

theorem hz2 : (![0, 0] : Fin 2 → ℕ) = fun _ => 0 := funext fun a => by fin_cases a <;> rfl

/-- After stores of which the last fills the whole buffer, the buffer reads as that store's payload. -/
theorem read_store_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb]

/-- A whole load of a whole buffer reads its contents. -/
theorem load_whole {S : Shape} {e : EltTy} (m : Memref sig .tc .vmem S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-! ## The body's run, case by case

Every load and store is of a whole buffer, so each case is stated with the contents named: the inputs stay, the
accumulator is the block product added to what it held (to zero where the first conditional runs), the output is
handed back untouched, or holds the rectified sum where the second conditional runs. -/

set_option maxHeartbeats 1000000 in
/-- A middle contraction tile: neither conditional runs. -/
theorem kernelRun0_B (c : Dev nD) (i : grid0.Coords)
    (arg2 : Memref sig .tc .vmem S256x2048 .bf16) (harg2 : arg2.IsWhole)
    (arg3 : Memref sig .tc .vmem S2048x2048 .bf16) (harg3 : arg3.IsWhole)
    (arg4 : Memref sig .tc .vmem S1x1 .f32) (harg4 : arg4.IsWhole)
    (arg5 : Memref sig .tc .vmem S256x2048 .bf16) (harg5 : arg5.IsWhole)
    (arg6 : Memref sig .tc .vmem S256x2048 .f32) (harg6 : arg6.IsWhole)
    (hc0 : ¬cond0_0 i) (hc1 : ¬cond0_1 i)
    (x0 : Vec F S256x2048 .bf16) (x1 : Vec F S2048x2048 .bf16) (x2 : Vec F S1x1 .f32) (xi3 : Vec F S256x2048 .bf16)
    (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [read_store_whole _ _ hz2, load_whole _ harg6 hz2, load_whole _ harg2 hz2, load_whole _ harg3 hz2]

set_option maxHeartbeats 1000000 in
/-- The first contraction tile: the first conditional zeroes the accumulator, the second does not run. -/
theorem kernelRun0_A (c : Dev nD) (i : grid0.Coords)
    (arg2 : Memref sig .tc .vmem S256x2048 .bf16) (harg2 : arg2.IsWhole)
    (arg3 : Memref sig .tc .vmem S2048x2048 .bf16) (harg3 : arg3.IsWhole)
    (arg4 : Memref sig .tc .vmem S1x1 .f32) (harg4 : arg4.IsWhole)
    (arg5 : Memref sig .tc .vmem S256x2048 .bf16) (harg5 : arg5.IsWhole)
    (arg6 : Memref sig .tc .vmem S256x2048 .f32) (harg6 : arg6.IsWhole)
    (hc0 : cond0_0 i) (hc1 : ¬cond0_1 i)
    (x0 : Vec F S256x2048 .bf16) (x1 : Vec F S2048x2048 .bf16) (x2 : Vec F S1x1 .f32) (xi3 : Vec F S256x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 (k0_pay1 (F := F)) x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [read_store_whole _ _ hz2]
  sl_unfold_words
  rw [View.readCov_unit_zero _ hz2, load_whole _ harg2 hz2, load_whole _ harg3 hz2]

set_option maxHeartbeats 1000000 in
/-- The last contraction tile: the first conditional does not run, the second writes the output block. -/
theorem kernelRun0_C (c : Dev nD) (i : grid0.Coords)
    (arg2 : Memref sig .tc .vmem S256x2048 .bf16) (harg2 : arg2.IsWhole)
    (arg3 : Memref sig .tc .vmem S2048x2048 .bf16) (harg3 : arg3.IsWhole)
    (arg4 : Memref sig .tc .vmem S1x1 .f32) (harg4 : arg4.IsWhole)
    (arg5 : Memref sig .tc .vmem S256x2048 .bf16) (harg5 : arg5.IsWhole)
    (arg6 : Memref sig .tc .vmem S256x2048 .f32) (harg6 : arg6.IsWhole)
    (hc0 : ¬cond0_0 i) (hc1 : cond0_1 i)
    (x0 : Vec F S256x2048 .bf16) (x1 : Vec F S2048x2048 .bf16) (x2 : Vec F S1x1 .f32)
    (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_store_whole _ _ hz2]
    sl_unfold_words
    rw [View.readCov_unit_zero _ hz2, load_whole _ harg6 hz2, load_whole _ harg2 hz2, load_whole _ harg3 hz2, load_whole _ harg4 hz2]
  iexists _; isplitr
  swap; · iexact HS
  ipureintro
  sl_unfold_words
  rw [read_store_whole _ _ hz2, load_whole _ harg6 hz2, load_whole _ harg2 hz2, load_whole _ harg3 hz2]

end Cert.KernelIdeal.Hand

end
-- ==== Proof.R0Body.lean ====
/- The first kernel region's body obligation: at every grid point the body, handed the inputs' blocks, the output's buffer
   and the accumulator the point before left, runs to the same with the accumulator advanced by the point's block
   product (restarted from zero where the contraction tile is the first) and, where the contraction tile is the last,
   the output's buffer at the rectified sum; and the invariant's entry from, and exit to, what the launch hands over. -/
import proofs.«426459_j40699110097621_1_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The inputs' staging buffers hold their blocks at every point -/

/-- The feature window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window's current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias window's staging buffer, fetched at the first point only, holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (xblk0 V c t) := by
  unfold Dat.leavesExact; rw [liveAt0_0 t, after0_0]
theorem leaves0_1 (c : Dev nD) (t : Fin cfg0.N) :
    (dat0 V c).leavesExact 1 t = owns (c : Thread nD τ) (ms0_1 t) fullShare (mblk0 V c t) := by
  unfold Dat.leavesExact; rw [liveAt0_1 t, after0_1]
theorem leaves0_2 (c : Dev nD) (t : Fin cfg0.N) :
    (dat0 V c).leavesExact 2 t = owns (c : Thread nD τ) (ms0_2 t) fullShare (bblk0 V c t) := by
  unfold Dat.leavesExact; rw [liveAt0_2 t, after0_2]
/-- Off the last contraction tile the output's buffer is handed back as found. -/
theorem leaves0_3_idle (c : Dev nD) (t : Fin cfg0.N) (h : ¬t.val % 5 = 4) :
    (dat0 V c).leavesExact 3 t = iprop(∃ d, owns (c : Thread nD τ) (ms0_3 t) fullShare ((dat0 V c).before 3 t d)) :=
  Dat.leavesExact_idle (dat0 V c) 3 t (idleAt0_3 t (fun hc => h ((hcond0_1 t).mp hc))) (noFlush0_3 t (fun hc => h ((hcond0_1 t).mp hc)))
/-- On it the buffer holds the output block. -/
theorem leaves0_3_live (c : Dev nD) (t : Fin cfg0.N) (h : t.val % 5 = 4) :
    (dat0 V c).leavesExact 3 t = owns (c : Thread nD τ) (ms0_3 t) fullShare (outb0 V c t) := by
  unfold Dat.leavesExact; rw [liveAt0_3 t ((hcond0_1 t).mpr h), after0_3]

set_option maxHeartbeats 4800000 in
/-- The body at any point. The inputs' buffers hold their blocks; the position modulo 5 says which case the point is in;
    the invariant hands the body the scratch at what the point before left (at anything before the first point) and takes
    it back at this point's accumulator; the other scoped buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, Phi0_castSucc]
  have hN : t.val < 25 := lt_of_lt_of_eq t.isLt (show cfg0.N = 25 from N_0)
  by_cases h0 : t.val % 5 = 0
  · -- the first contraction tile
    have h1 : ¬t.val % 5 = 4 := by omega
    rw [leaves0_3_idle V c t h1, acc0_first V c t h0]
    by_cases hz : t.val = 0
    · rw [PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (kernelRun0_A c (grid0.coords t) _ _ _ _ _ _ _ _ _ _ ((hcond0_0 t).mpr h0) (fun h => h1 ((hcond0_1 t).mp h))
        (xblk0 V c t) (mblk0 V c t) (bblk0 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_pos V c _ _ hz]
      iintro ⟨⟨⟨HS, HR⟩, Hg⟩, Ho, ⟨%d0, H0⟩, ⟨%d1, H1⟩, ⟨%d2, H2⟩, ⟨%d3, H3⟩⟩
      iapply (kernelRun0_A c (grid0.coords t) _ _ _ _ _ _ _ _ _ _ ((hcond0_0 t).mpr h0) (fun h => h1 ((hcond0_1 t).mp h))
        (xblk0 V c t) (mblk0 V c t) (bblk0 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS0_pos V c _ _ hz]
    by_cases h1 : t.val % 5 = 4
    · -- the last contraction tile
      rw [leaves0_3_live V c t h1]
      unfold outb0
      rw [acc0_next V c t h0]
      iintro ⟨⟨⟨HS, HR⟩, Hg⟩, Ho, ⟨%d0, H0⟩, ⟨%d1, H1⟩, ⟨%d2, H2⟩, ⟨%d3, H3⟩⟩
      iapply (kernelRun0_C c (grid0.coords t) _ _ _ _ _ _ _ _ _ _ (fun h => h0 ((hcond0_0 t).mp h)) ((hcond0_1 t).mpr h1)
        (xblk0 V c t) (mblk0 V c t) (bblk0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle contraction tile
      rw [leaves0_3_idle V c t h1, acc0_next V c t h0]
      iintro ⟨⟨⟨HS, HR⟩, Hg⟩, Ho, ⟨%d0, H0⟩, ⟨%d1, H1⟩, ⟨%d2, H2⟩, ⟨%d3, H3⟩⟩
      iapply (kernelRun0_B c (grid0.coords t) _ _ _ _ _ _ _ _ _ _ (fun h => h0 ((hcond0_0 t).mp h)) (fun h => h1 ((hcond0_1 t).mp h))
        (xblk0 V c t) (mblk0 V c t) (bblk0 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 25 := N_0; omega)

end Cert.KernelIdeal.Hand

end
-- ==== Proof.R1Defs.lean ====
/- The second kernel region (the two dense layers, grid 5 over the contraction tiles of the first): what its staging
   buffers, its accumulator and its output block hold at every grid point, and the proof data of its pipeline.

   At point t the body adds the product of the point's node-feature block (256 × 2048) and first-layer weight block
   (2048 × 1024) to an accumulator zeroed first at t = 0; at t = 4 it writes the output block: the accumulator plus the
   first bias, rectified, times the second layer's weights, plus the second bias, rectified. The accumulator lives in
   a scratch buffer the kernel keeps between points. -/
import proofs.«426459_j40699110097621_1_alg».proof.Proof.Gen.KernelIdeal.Regions
import proofs.«426459_j40699110097621_1_alg».proof.Proof.Gen.KernelIdeal.Skeleton
import proofs.«426459_j40699110097621_1_alg».proof.Proof.Gen.KernelIdeal.Points
import Idealize.ShloMosaic.Lib.Pipeline.Kit
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- `V c b`: core `c`'s unscoped buffer `b` when the region is entered.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node-feature block, the first layer's weight block, its bias, the second layer's weights and bias at point `t`. -/
abbrev gblk1 (c : Dev nD) (t : Fin cfg1.N) : Vec F S256x2048 .bf16 := iblk1 V c 0 t
abbrev wblk1 (c : Dev nD) (t : Fin cfg1.N) : Vec F S2048x1024 .bf16 := iblk1 V c 1 t
abbrev b1blk1 (c : Dev nD) (t : Fin cfg1.N) : Vec F S1x1024 .f32 := iblk1 V c 2 t
abbrev w2blk1 (c : Dev nD) (t : Fin cfg1.N) : Vec F S1024x128 .bf16 := iblk1 V c 3 t
abbrev b2blk1 (c : Dev nD) (t : Fin cfg1.N) : Vec F S1x128 .f32 := iblk1 V c 4 t

/-- THE ACCUMULATOR after the body at position `n`: the block product added to zero at the first point, to what the
    point before left otherwise. -/
def acc1 (c : Dev nD) : (n : ℕ) → n < cfg1.N → Vec F S256x1024 .f32
  | 0, hn => k1_pay2 (k1_pay1 (F := F)) (gblk1 V c ⟨0, hn⟩) (wblk1 V c ⟨0, hn⟩)
  | n + 1, hn =>
    if (n + 1) % 5 = 0 then k1_pay2 (k1_pay1 (F := F)) (gblk1 V c ⟨n + 1, hn⟩) (wblk1 V c ⟨n + 1, hn⟩)
    else k1_pay2 (acc1 c n (Nat.lt_of_succ_lt hn)) (gblk1 V c ⟨n + 1, hn⟩) (wblk1 V c ⟨n + 1, hn⟩)

theorem acc1_first (c : Dev nD) (t : Fin cfg1.N) (h : t.val % 5 = 0) :
    acc1 V c t.val t.isLt = k1_pay2 (k1_pay1 (F := F)) (gblk1 V c t) (wblk1 V c t) := by
  obtain ⟨n, hn⟩ := t
  cases n with
  | zero => rfl
  | succ n => exact (if_pos h).trans rfl

theorem acc1_next (c : Dev nD) (t : Fin cfg1.N) (h : ¬t.val % 5 = 0) :
    acc1 V c t.val t.isLt
      = k1_pay2 (acc1 V c (t.val - 1) (Nat.lt_of_le_of_lt (Nat.sub_le _ _) t.isLt)) (gblk1 V c t) (wblk1 V c t) := by
  obtain ⟨n, hn⟩ := t
  cases n with
  | zero => exact absurd (Nat.zero_mod _) h
  | succ n => exact (if_neg h).trans rfl

/-- The output block the body writes at the last point. -/
def outb1 (c : Dev nD) (t : Fin cfg1.N) : Vec F S256x128 .f32 :=
  k1_pay3 (acc1 V c t.val t.isLt) (b1blk1 V c t) (w2blk1 V c t) (b2blk1 V c t)

/-- The scratch buffer that holds the accumulator. -/
abbrev scM1 : Memref sig .tc .vmem S256x1024 .f32 := Memref.whole cc1_scratch0

/-- The core's other scoped buffers (the other region's staging buffers and scratch), at some contents each. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scratch holds anything; afterwards it holds
    the accumulator the point before left, every other scoped buffer at some contents. The generator register is at some
    state throughout. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-- The proof data of the region's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outb1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outb1 V c t := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.R1Runs.lean ====
/- The second kernel region's body, run whole in each of its three control cases (the first contraction step, a middle
   one, the last), over the payloads that name what it stores; the conditions in closed form over the grid; where its
   windows are idle; the class invariant opened at the accumulator's buffer. -/
import proofs.«426459_j40699110097621_1_alg».proof.Proof.R1Defs
import Idealize.ShloMosaic.Lib.Pipeline.Value
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's condition (the contraction step is the first), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's condition (the contraction step is the last), from the grid coordinates. -/
abbrev cond1_1 (i : grid1.Coords) : Prop := k1_cond2 i = 1#1
/-- It holds at the last point only. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional is not taken the output window is idle: nothing is stored into it, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- Where it is taken the output window is live. -/
theorem liveAt1_5 : ∀ t : Fin cfg1.N, cond1_1 (grid1.coords t) → cfg1.idle 5 (grid1.coords t) = false := by decide +kernel

/-! ## The staging memrefs at a point -/

/-- Each window's current staging memref at point `t`, as the body is called with it, and its wholeness. -/
abbrev ms1_0 (t : Fin cfg1.N) : Memref sig .tc .vmem S256x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x128 .f32 := win1_5.stage (cfg1.slots t 5)
abbrev hs1_5 (t : Fin cfg1.N) : (ms1_5 t).IsWhole := hstage1_5 ((cfg1.slots t 5).cast nbuf1_5)

/-- The class's invariant with the accumulator's buffer as a memref owned at some contents, beside the core's other
    scoped buffers and the generator register: what the body is handed at the first point and what the region gives
    back. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole, rest1]
  rfl

/-- The zero offsets of a whole-buffer rectangle, however spelt. -/
theorem hz1 : (![0, 0] : Fin 2 → Nat) = fun _ => 0 := funext fun a => by fin_cases a <;> rfl

set_option maxHeartbeats 1000000 in
/-- THE BODY AT A MIDDLE STEP (neither conditional taken): on whole memrefs, the node-feature block at `x0`, the weight
    block at `x1` and the accumulator at `xs`, the body runs to the continuation with the two blocks as they were and the
    accumulator at `xs` plus the blocks' product; it touches nothing else. -/
theorem kernelRun1_B (c : Dev nD) (i : grid1.Coords) (arg1 : Memref sig .tc .vmem S256x2048 .bf16) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (xs : Vec F S256x1024 .f32)
    (E : Set ℕ) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1 ∗ owns (c : Thread nD τ) arg7 fullShare (k1_pay2 xs x0 x1)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  refine (View.read_writes_eq_canon _ _ _ (fun y => ⟨_, List.mem_singleton_self _, View.mem_set_unit_zero hz1 (by exact inb_S256x1024_S256x1024_0_0) y⟩)).trans ?_
  rw [View.canon_unit_zero hz1]
  simp only [View.readAt_eq_ld, harg1.read_unread, harg2.read_unread, harg7.read_unread, View.ld_unit_zero (S := S256x2048) hz1, View.ld_unit_zero (S := S2048x1024) hz1, View.ld_unit_zero (S := S256x1024) hz1]

set_option maxHeartbeats 1000000 in
/-- THE BODY AT THE FIRST STEP (the first conditional taken, the second not): the accumulator at anything; it is zeroed,
    then holds zero plus the blocks' product. -/
theorem kernelRun1_A (c : Dev nD) (i : grid1.Coords) (arg1 : Memref sig .tc .vmem S256x2048 .bf16) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16)
    (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1 ∗ owns (c : Thread nD τ) arg7 fullShare (k1_pay2 (k1_pay1 (F := F)) x0 x1)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  refine (View.read_writes_eq_canon _ _ _ (fun y => ⟨_, List.mem_cons_self, View.mem_set_unit_zero hz1 (by exact inb_S256x1024_S256x1024_0_0) y⟩)).trans ?_
  rw [View.canon_cons_unit_zero hz1]
  simp only [View.readAt_eq_ld, harg1.read_unread, harg2.read_unread, harg3.read_unread, harg4.read_unread, harg5.read_unread, harg7.read_unread, View.ld_unit_zero (S := S256x2048) hz1, View.ld_unit_zero (S := S2048x1024) hz1, View.ld_unit_zero (S := S256x1024) hz1, View.ld_unit_zero (S := S1x1024) hz1, View.ld_unit_zero (S := S1024x128) hz1, View.ld_unit_zero (S := S1x128) hz1, View.readCov_unit_zero (S := S256x1024) _ hz1]

set_option maxHeartbeats 1000000 in
/-- THE BODY AT THE LAST STEP (the second conditional taken, the first not): as a middle step, and then the output
    block (at anything before) holds the two dense layers of the new accumulator. -/
theorem kernelRun1_C (c : Dev nD) (i : grid1.Coords) (arg1 : Memref sig .tc .vmem S256x2048 .bf16) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (x3 : Vec F S1024x128 .bf16) (x4 : Vec F S1x128 .f32) (xs : Vec F S256x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay3 (k1_pay2 xs x0 x1) x2 x3 x4) ∗ owns (c : Thread nD τ) arg7 fullShare (k1_pay2 xs x0 x1)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    refine (View.read_writes_eq_canon _ _ _ (fun y => ⟨_, List.mem_singleton_self _, View.mem_set_unit_zero hz1 (by exact inb_S256x128_S256x128_0_0) y⟩)).trans ?_
    rw [View.canon_unit_zero hz1]
    simp only [View.readAt_eq_ld, harg1.read_unread, harg2.read_unread, harg3.read_unread, harg4.read_unread, harg5.read_unread, harg7.read_unread, View.ld_unit_zero (S := S256x2048) hz1, View.ld_unit_zero (S := S2048x1024) hz1, View.ld_unit_zero (S := S256x1024) hz1, View.ld_unit_zero (S := S1x1024) hz1, View.ld_unit_zero (S := S1024x128) hz1, View.ld_unit_zero (S := S1x128) hz1, View.readCov_unit_zero (S := S256x1024) _ hz1]
  iexists _; isplitr
  swap; · iexact HS
  ipureintro
  sl_unfold_words
  refine (View.read_writes_eq_canon _ _ _ (fun y => ⟨_, List.mem_singleton_self _, View.mem_set_unit_zero hz1 (by exact inb_S256x1024_S256x1024_0_0) y⟩)).trans ?_
  rw [View.canon_unit_zero hz1]
  simp only [View.readAt_eq_ld, harg1.read_unread, harg2.read_unread, harg3.read_unread, harg4.read_unread, harg5.read_unread, harg7.read_unread, View.ld_unit_zero (S := S256x2048) hz1, View.ld_unit_zero (S := S2048x1024) hz1, View.ld_unit_zero (S := S256x1024) hz1, View.ld_unit_zero (S := S1x1024) hz1, View.ld_unit_zero (S := S1024x128) hz1, View.ld_unit_zero (S := S1x128) hz1, View.readCov_unit_zero (S := S256x1024) _ hz1]

end Cert.KernelIdeal.Hand

end
-- ==== Proof.R1Body.lean ====
/- The second kernel region's body obligation: at every grid point the body, from the invariant and the windows' staging
   buffers at what they then hold, runs to the invariant at the next point and the buffers at what the proof data says
   the body leaves; and the invariant's entry from and exit to the class's. -/
import proofs.«426459_j40699110097621_1_alg».proof.Proof.R1Runs
import proofs.«426459_j40699110097621_1_alg».proof.Proof.Gen.KernelIdeal.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Each input window's current staging buffer holds its block at every point, whether fetched there or not (where it is
    not, the block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's contraction step says which control case
    it is in; the invariant hands the body the accumulator at what the point before left (at anything at the first point)
    and takes it back at this point's; the other scoped buffers, the generator register and what the core owes pass
    through untouched; the output's buffer is handed back as found except at the last step, where it holds the output
    block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 5 = 0
  · have h1 : ¬t.val % 5 = 4 := by omega
    have hz : t.val = 0 := by omega
    rw [Dat.leavesExact_idle (dat1 V c) 5 t (idleAt1_5 t (fun h => h1 ((hcond1_1 t).mp h))) (noFlush1_5 t (fun h => h1 ((hcond1_1 t).mp h)))]
    rw [acc1_first V c t h0]
    rw [Phi1_castSucc V c t, PhiS1_zero V c _ _ hz, PhiA1_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (kernelRun1_A c (grid1.coords t) _ _ _ _ _ _ _ _ _ _ _ _ _ _ ((hcond1_0 t).mpr h0) (fun h => h1 ((hcond1_1 t).mp h)) (iblk1 V c 0 t) (iblk1 V c 1 t) Set.univ _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 5 = 4
    · rw [show (dat1 V c).leavesExact 5 t = owns (c : Thread nD τ) (ms1_5 t) fullShare ((dat1 V c).after 5 t) from by
        unfold Dat.leavesExact; rw [liveAt1_5 t ((hcond1_1 t).mpr h1)], after1_5]
      unfold outb1
      rw [acc1_next V c t h0]
      rw [Phi1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [acc1_next V c t h0]
      rw [Phi1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ (fun h => h0 ((hcond1_0 t).mp h)) (fun h => h1 ((hcond1_1 t).mp h)) (iblk1 V c 0 t) (iblk1 V c 1 t) _ Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi1_out V c _ (by rw [Fin.val_last]; have : cfg1.N = 5 := N_1; omega)

end Cert.KernelIdeal.Hand

end
-- ==== Proof.RunCond.lean ====
/- The kernel program's run with its result in the post: every weakly fair execution of @main terminates, and in every
   final memory the result array holds what the second kernel region left in it while each of the eight argument arrays
   holds its launch contents. Proved from one segment record per kernel region, as the conditional frame is, over the
   same list of segments; the end reads one more buffer off the last valuation. -/
import proofs.«426459_j40699110097621_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- The last valuation holds, in the result array, what the second kernel region left there: the valuation is the one
    before it updated at exactly that array. -/
theorem V8_main_v55 (outs : Outs (F := F)) (c : Dev nD) : V8 m outs c main_v55 = outs 8 main_v55 c := by
  simp only [V8, Function.update_self]

set_option backward.isDefEq.respectTransparency.types false in
/-- THE RUN, GIVEN THE REGIONS' RECORDS. For any user algebra, level assignment, launch dues and ghost resources, any
    rest states `E` the launch makes on every core at once (`hE0`) and that end owing nothing (`hE2`), any contents the
    regions leave (`outs`) and any proof data: given, per kernel region K, a segment record entered from the thread state
    before it and left at the one after it (`RK`, `hpreK`, `hpostK`), every weakly fair execution of @main from memory `m`
    with zero counters terminates, and every final memory holds in the result array `main_v55` the contents
    `outs 8 main_v55 c` the second region left there and in each argument array its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v55) = outs 8 main_v55 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, hpre0 c, hpost0 c, .rfl, .rfl, hpre1 c, (hpost1 c).trans (sep_mono .rfl (hE2 c))⟩)
    (hinit := ?_) (QY := fun c s => s.mem ((c.tc : Thread nD τ).loc main_v55) = outs 8 main_v55 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- at the launch every core holds its unscoped buffers at their launch contents, and what remains of the launch state
    -- becomes the first rest state on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation: the result array there is what the second region
    -- left, and no item wrote an argument array
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v55) (Finset.mem_filter.mpr ⟨StableHlo.devRef_mem_tcRefs main_v55, by decide⟩)).trans (V8_main_v55 m outs c),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c)⟩
    · iexact HSI

end Cert.KernelIdeal.Hand

end
-- ==== Proof.Launch.lean ====
/- The launch: the program's run assembled from its two kernel regions.

   Between two items of the program every core holds each of its unscoped buffers whole, at contents that follow the
   program: the launch memory, then each host stretch applied, then — after a region — the region's output array
   replaced by what the region's write-backs leave in it. This module names those two arrays (`outsH`), gives each
   region's record over that thread state (its arrays split out of the unscoped buffers at entry and put back at exit,
   an array the region only reads coming back as it went in, the generator register lent to the region's invariant and
   returned, nothing owed), and concludes: every weakly fair execution terminates, every argument array ends as
   launched (`frame`), and the result array ends at the second region's output (`run_value`). -/
import proofs.«426459_j40699110097621_1_alg».proof.Proof.R0Body
import proofs.«426459_j40699110097621_1_alg».proof.Proof.R1Body
import proofs.«426459_j40699110097621_1_alg».proof.Proof.RunCond
import proofs.«426459_j40699110097621_1_alg».proof.Proof.Gen.KernelIdeal.Regions
import Idealize.ShloMosaic.Lib.Pipeline.FrameBody
import Idealize.ShloMosaic.Lib.Pipeline.RegionsLoop
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave -/

namespace Launch

/-- The first region's entry contents, read at the core's references. -/
abbrev Vin0 : (c : Dev nD) → (b : Ref sig .tc) → Buf (Elt F) ((c : Thread nD τ).loc b) := fun c b => Gen.V3 m c b

/-- What the first region leaves in its output array: the entry array with every block written back. -/
def out49 (c : Dev nD) : Buf (Elt F) ((c : Thread nD τ).loc main_v49) :=
  (dat0 (F := F) (Vin0 m) c).arrAt 3 cfg0.N

/-- The regions' outputs with only the first region's filled in (elsewhere the launch contents: never read). -/
def outs4 : Gen.Outs (F := F) := fun _ r c =>
  if h : r = main_v49 then h ▸ out49 m c else m ((c : Thread nD τ).loc r)

theorem outs4_v49 (n : ℕ) (c : Dev nD) : outs4 m n main_v49 c = out49 m c := by
  unfold outs4; rw [dif_pos rfl]

/-- The second region's entry contents, read at the core's references: the first region's output is among them. -/
abbrev Vin1 : (c : Dev nD) → (b : Ref sig .tc) → Buf (Elt F) ((c : Thread nD τ).loc b) := fun c b => Gen.V7 m (outs4 m) c b

/-- What the second region leaves in its output array. -/
def out55 (c : Dev nD) : Buf (Elt F) ((c : Thread nD τ).loc main_v55) :=
  (dat1 (F := F) (Vin1 m) c).arrAt 5 cfg1.N

end Launch

/-- THE REGIONS' OUTPUTS: after the first region `main_v49` holds what its write-backs leave, after the second
    `main_v55` does; nothing else is read. -/
def outsH : Gen.Outs (F := F) := fun n r c =>
  if n = 8 then (if h : r = main_v55 then h ▸ Launch.out55 m c else Launch.outs4 m n r c) else Launch.outs4 m n r c

theorem outsH_4 (r : Ref sig .tc) (c : Dev nD) : outsH m 4 r c = Launch.outs4 m 4 r c := by
  unfold outsH; rw [if_neg (by decide)]

/-- The contents after the first region depend on the outputs only through the first region's. -/
theorem V4_outsH (c : Dev nD) : Gen.V4 m (outsH m) c = Gen.V4 m (Launch.outs4 m) c := by
  simp only [Gen.V4, outsH_4]

theorem V7_outsH (c : Dev nD) : Gen.V7 m (outsH m) c = Gen.V7 m (Launch.outs4 m) c :=
  congrArg (fun v => StableHlo.after hostOps1_2 (StableHlo.after hostOps1_1 (StableHlo.after hostOps1 v))) (V4_outsH m c)

/-- After the first region its output array holds the fold of its write-backs over the entry array. -/
theorem outsH_v49 (c : Dev nD) : outsH m 4 main_v49 c = (dat0 (F := F) (fun c b => Gen.V3 m c b) c).arrAt 3 cfg0.N := by
  rw [outsH_4, Launch.outs4_v49]; rfl

theorem outsH_8_v55 (c : Dev nD) : outsH m 8 main_v55 c = Launch.out55 m c := by
  unfold outsH; rw [if_pos rfl, dif_pos rfl]

/-- After the second region its output array holds the fold of its write-backs over the entry array. -/
theorem outsH_v55 (c : Dev nD) : outsH m 8 main_v55 c = (dat1 (F := F) (fun c b => Gen.V7 m (outsH m) c b) c).arrAt 5 cfg1.N := by
  have h : (fun (c : Dev nD) (b : Ref sig .tc) => Gen.V7 m (outsH m) c b) = Launch.Vin1 m := by
    funext c b; rw [V7_outsH]
  rw [h, outsH_8_v55]; rfl

namespace Launch

/-! ## The proof data family and the thread state -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c

abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the core's generator register at some state and its dues, at
    nothing. -/
abbrev Ride (c : Dev nD) : sProp 𝕄 := iprop((∃ r, prngReg c r) ∗ ∃ W, owes (c : Thread nD τ) (0 : CellTallies nD τ sig Unit) W)

/-- The first region's exit contents, read at the core's references. -/
abbrev Vout0 : (c : Dev nD) → (b : Ref sig .tc) → Buf (Elt F) ((c : Thread nD τ).loc b) := fun c b => Gen.V4 m (outsH m) c b

/-- At the first region's exit each of its arrays holds what the pipeline leaves: an input its entry contents (it is
    never written), the output the write-backs' fold. -/
theorem hF0 (c : Dev nD) (w : Fin cfg0.W) : (pdats m 0 c).arrAt w cfg0.N = Vout0 m c (Pipeline.arrRef spec0 w) := by
  fin_cases w
  · exact ((dat0 (Vin0 m) c).arrAt_in 0 rfl _).trans ((A_eq0 (Vin0 m) c 0).trans (Gen.V4_of m (outsH m) c main_v47 (by decide)).symm)
  · exact ((dat0 (Vin0 m) c).arrAt_in 1 rfl _).trans ((A_eq0 (Vin0 m) c 1).trans (Gen.V4_of m (outsH m) c main_v45 (by decide)).symm)
  · exact ((dat0 (Vin0 m) c).arrAt_in 2 rfl _).trans ((A_eq0 (Vin0 m) c 2).trans (Gen.V4_of m (outsH m) c main_v48 (by decide)).symm)
  · exact (outsH_v49 m c).symm.trans
      (Function.update_self (Proc.devRef .tc main_v49 : DevRef τ sig) (outsH m 4 main_v49 c) (Gen.V3 m c)).symm

/-- Every other buffer holds what it held at entry. -/
theorem hrest0 (c : Dev nD) : ∀ b, b ∉ Finset.univ.image (Pipeline.arrRef spec0) → Vout0 m c b = Vin0 m c b :=
  fun b hb => Gen.V4_of m (outsH m) c b fun h => hb (by
    rw [List.mem_singleton] at h; subst h
    exact Finset.mem_image.mpr ⟨3, Finset.mem_univ _, rfl⟩)

/-- The second region's exit contents, read at the core's references. -/
abbrev Vout1 : (c : Dev nD) → (b : Ref sig .tc) → Buf (Elt F) ((c : Thread nD τ).loc b) := fun c b => Gen.V8 m (outsH m) c b

/-- An array the second region only reads holds at its exit what it held at its entry. -/
theorem Vout1_in (c : Dev nD) (r : Ref sig .tc) (h : r ∉ ([main_v55] : List (Ref sig .tc))) : Vin1 m c r = Vout1 m c r :=
  ((Gen.V8_of m (outsH m) c r h).trans (congrFun (V7_outsH m c) _)).symm

theorem hF1_0 (c : Dev nD) : (pdats m 1 c).arrAt 0 cfg1.N = Vout1 m c (Pipeline.arrRef spec1 0) :=
  ((dat1 (Vin1 m) c).arrAt_in 0 rfl _).trans ((A_eq1 (Vin1 m) c 0).trans (Vout1_in m c main_v49 (by decide)))
theorem hF1_1 (c : Dev nD) : (pdats m 1 c).arrAt 1 cfg1.N = Vout1 m c (Pipeline.arrRef spec1 1) :=
  ((dat1 (Vin1 m) c).arrAt_in 1 rfl _).trans ((A_eq1 (Vin1 m) c 1).trans (Vout1_in m c main_v51 (by decide)))
theorem hF1_2 (c : Dev nD) : (pdats m 1 c).arrAt 2 cfg1.N = Vout1 m c (Pipeline.arrRef spec1 2) :=
  ((dat1 (Vin1 m) c).arrAt_in 2 rfl _).trans ((A_eq1 (Vin1 m) c 2).trans (Vout1_in m c main_v53 (by decide)))
theorem hF1_3 (c : Dev nD) : (pdats m 1 c).arrAt 3 cfg1.N = Vout1 m c (Pipeline.arrRef spec1 3) :=
  ((dat1 (Vin1 m) c).arrAt_in 3 rfl _).trans ((A_eq1 (Vin1 m) c 3).trans (Vout1_in m c main_v52 (by decide)))
theorem hF1_4 (c : Dev nD) : (pdats m 1 c).arrAt 4 cfg1.N = Vout1 m c (Pipeline.arrRef spec1 4) :=
  ((dat1 (Vin1 m) c).arrAt_in 4 rfl _).trans ((A_eq1 (Vin1 m) c 4).trans (Vout1_in m c main_v54 (by decide)))
theorem hF1_5 (c : Dev nD) : (pdats m 1 c).arrAt 5 cfg1.N = Vout1 m c (Pipeline.arrRef spec1 5) :=
  (outsH_8_v55 m c).symm.trans
    (Function.update_self (Proc.devRef .tc main_v55 : DevRef τ sig) (outsH m 8 main_v55 c) (Gen.V7 m (outsH m) c)).symm

/-- At the second region's exit each of its arrays holds what the pipeline leaves. -/
theorem hF1 (c : Dev nD) (w : Fin cfg1.W) : (pdats m 1 c).arrAt w cfg1.N = Vout1 m c (Pipeline.arrRef spec1 w) := by
  fin_cases w
  · exact hF1_0 m c
  · exact hF1_1 m c
  · exact hF1_2 m c
  · exact hF1_3 m c
  · exact hF1_4 m c
  · exact hF1_5 m c

/-- Every other buffer holds what it held at entry. -/
theorem hrest1 (c : Dev nD) : ∀ b, b ∉ Finset.univ.image (Pipeline.arrRef spec1) → Vout1 m c b = Vin1 m c b :=
  fun b hb => (Vout1_in m c b fun h => hb (by
    rw [List.mem_singleton] at h; subst h
    exact Finset.mem_image.mpr ⟨5, Finset.mem_univ _, rfl⟩)).symm

set_option backward.isDefEq.respectTransparency.types false in
/-- THE FIRST REGION over the thread state: entered from every unscoped buffer at the contents after the third host
    stretch, left with its output array at what its write-backs leave. Its arrays are split out of the unscoped buffers
    and put back at the exit contents; the generator register goes into the invariant and comes back; nothing is owed. -/
def reg0 : Pipeline.RegionSeg (pcfgs (F := F)) Gen.adm (pdats m) () defs₀ noVar noL noLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noL noLv 0 fun _ _ => rfl
  pre c := iprop(StableHlo.held (c : Thread nD τ) (Pipeline.ucRefs τ sig) (Gen.V3 m c) ∗ Ride c)
  post c := iprop(StableHlo.held (c : Thread nD τ) (Pipeline.ucRefs τ sig) (Gen.V4 m (outsH m) c) ∗ Ride c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vin0 m) c)
    unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the contents after the sixth host
    stretch, left with its output array at what its write-backs leave. -/
def reg1 : Pipeline.RegionSeg (pcfgs (F := F)) Gen.adm (pdats m) () defs₀ noVar noL noLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noL noLv 1 fun _ _ => rfl
  pre c := iprop(StableHlo.held (c : Thread nD τ) (Pipeline.ucRefs τ sig) (Gen.V7 m (outs4 m) c) ∗ Ride c)
  post c := iprop(StableHlo.held (c : Thread nD τ) (Pipeline.ucRefs τ sig) (Gen.V8 m (outsH m) c) ∗ Ride c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (ρ : Dev nD → PrngReg)

/-- The launch's ghost element: the pipeline library's, at every staging cell of both regions. -/
abbrev u0 : UR sig nD τ := initOf (Pipeline.cells cfgs cellOf_inj) (Pipeline.launchToks cfgs cellOf_inj)

theorem hu0 : (ownU (u0) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the riding state on every core: the generator register at its launch state, nothing owed. -/
theorem hRide0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts noL noLv)
    ⊢ (|={Set.univ}=> bigSep Finset.univ (fun c : Dev nD => Ride (F := F) c) : sProp 𝕄) := by
  refine Pipeline.initEach noL noLv fun c => ?_
  iintro ⟨⟨-, HO, -, Hp, -⟩, -⟩
  imodintro
  isplitl [Hp]; · iexists _; iexact Hp
  iexists ∅; iexact HO

/-- The riding state ends owing nothing. -/
theorem hRide2 (c : Dev nD) : Ride (F := F) c ⊢ (iprop(∃ W, owes (c : Thread nD τ) (0 : CellTallies nD τ sig Unit) W) : sProp 𝕄) := by
  iintro ⟨-, HO⟩; iexact HO

end Launch

/-! ## The run -/

variable (ρ : Dev nD → PrngReg)

set_option backward.isDefEq.respectTransparency.types false in
/-- THE FRAME: from any memory with zero counters every weakly fair execution of the program terminates and every
    final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m (Ix := Unit) (U := UR sig nD τ) (Lvl := ℕ) emb₁ () Launch.noVar Launch.noL Launch.noLv (fun _ _ => rfl) ρ (outsH m) (Launch.pdats m)
    0 (fun _ => (BI.emp : sProp 𝕄)) Launch.u0 Launch.hu0 (fun _ c => Launch.Ride c) (Launch.hRide0 ρ) Launch.hRide2
    (Launch.reg0 m) (fun c => .rfl) (fun c => .rfl)
    (Launch.reg1 m) (fun c => by rw [V7_outsH]; exact .rfl) (fun c => .rfl)

set_option backward.isDefEq.respectTransparency.types false in
/-- THE RUN'S VALUE: the same run, with what the result array holds at the end — the second region's output — beside
    the arguments as launched. -/
theorem run_value : θ_run defs (onTc (τ := τ) (main (F := F))) ⟨m, fun _ => 0, ρ⟩ (fun r => ∀ c : Dev nD,
      r.2.mem ((c.tc : Thread nD τ).loc main_v55) = outsH m 8 main_v55 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m (Ix := Unit) (U := UR sig nD τ) (Lvl := ℕ) emb₁ () Launch.noVar Launch.noL Launch.noLv (fun _ _ => rfl) ρ (outsH m) (Launch.pdats m)
    0 (fun _ => (BI.emp : sProp 𝕄)) Launch.u0 Launch.hu0 (fun _ c => Launch.Ride c) (Launch.hRide0 ρ) Launch.hRide2
    (Launch.reg0 m) (fun c => .rfl) (fun c => .rfl)
    (Launch.reg1 m) (fun c => by rw [V7_outsH]; exact .rfl) (fun c => .rfl)

end Cert.KernelIdeal.Hand

end
-- ==== Proof.Bits.R0Defs.lean ====
/- The first kernel region (the graph-convolution product, grid 5 × 5, the contraction tile the fast axis): what its
   staging buffers, its accumulator and its output block hold at every grid point, and the proof data of its pipeline.

   At a point t the body adds the product of the point's feature block (256 × 2048) and weight block (2048 × 2048) to an
   accumulator that it zeroes first when the contraction tile t mod 5 is 0; when t mod 5 is 4 it writes the output block,
   the accumulator plus the bias, rectified. The accumulator lives in a scratch buffer the kernel keeps between points,
   so the region's invariant says what that buffer holds after each point. -/
import proofs.«426459_j40699110097621_1_alg».proof.Proof.Gen.Kernel.Regions
import proofs.«426459_j40699110097621_1_alg».proof.Proof.Gen.Kernel.Skeleton
import proofs.«426459_j40699110097621_1_alg».proof.Proof.Gen.Kernel.Points
import Idealize.ShloMosaic.Lib.Pipeline.Kit
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- `V c b`: core `c`'s unscoped buffer `b` when the region is entered.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block, the weight block and the bias at point `t`, at their literal types. -/
abbrev xblk0 (c : Dev nD) (t : Fin cfg0.N) : Vec F S256x2048 .bf16 := iblk0 V c 0 t
abbrev mblk0 (c : Dev nD) (t : Fin cfg0.N) : Vec F S2048x2048 .bf16 := iblk0 V c 1 t
abbrev bblk0 (c : Dev nD) (t : Fin cfg0.N) : Vec F S1x1 .f32 := iblk0 V c 2 t

/-- THE ACCUMULATOR after the body at position `n`: the block product added to zero where the contraction tile is the
    first (`n mod 5 = 0`), to what the point before left otherwise. -/
def acc0 (c : Dev nD) : (n : ℕ) → n < cfg0.N → Vec F S256x2048 .f32
  | 0, hn => k0_pay2 (k0_pay1 (F := F)) (xblk0 V c ⟨0, hn⟩) (mblk0 V c ⟨0, hn⟩)
  | n + 1, hn =>
    if (n + 1) % 5 = 0 then k0_pay2 (k0_pay1 (F := F)) (xblk0 V c ⟨n + 1, hn⟩) (mblk0 V c ⟨n + 1, hn⟩)
    else k0_pay2 (acc0 c n (Nat.lt_of_succ_lt hn)) (xblk0 V c ⟨n + 1, hn⟩) (mblk0 V c ⟨n + 1, hn⟩)

theorem acc0_first (c : Dev nD) (t : Fin cfg0.N) (h : t.val % 5 = 0) :
    acc0 V c t.val t.isLt = k0_pay2 (k0_pay1 (F := F)) (xblk0 V c t) (mblk0 V c t) := by
  obtain ⟨n, hn⟩ := t
  cases n with
  | zero => rfl
  | succ n => exact (if_pos h).trans rfl

theorem acc0_next (c : Dev nD) (t : Fin cfg0.N) (h : ¬t.val % 5 = 0) :
    acc0 V c t.val t.isLt
      = k0_pay2 (acc0 V c (t.val - 1) (Nat.lt_of_le_of_lt (Nat.sub_le _ _) t.isLt)) (xblk0 V c t) (mblk0 V c t) := by
  obtain ⟨n, hn⟩ := t
  cases n with
  | zero => exact absurd (Nat.zero_mod _) h
  | succ n => exact (if_neg h).trans rfl

/-- The output block the body writes where the contraction tile is the last: the accumulator plus the bias, rectified. -/
def outb0 (c : Dev nD) (t : Fin cfg0.N) : Vec F S256x2048 .bf16 := k0_pay3 (acc0 V c t.val t.isLt) (bblk0 V c t)

/-- The scratch buffer that holds the accumulator. -/
abbrev scM0 : Memref sig .tc .vmem S256x2048 .f32 := Memref.whole cc0_scratch0

/-- The core's other scoped buffers (the other region's staging buffers and scratch), at some contents each. -/
abbrev rest0 (c : Dev nD) : sProp 𝕄 :=
  Pipeline.scopedRestBut (Ix := Unit) (Name := ℕ) (U := UR sig nD τ) (Lvl := ℕ) (Val := Elt F) spec0 c [cc0_scratch0]

/-- The region's invariant before position `n`: before the first point the scratch holds anything; afterwards it holds
    the accumulator the point before left, every other scoped buffer at some contents. The generator register is at some
    state throughout. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The proof data of the region's pipeline on core `c`: the arrays as the region finds them; after the body at point
    `t` each input's buffer at its block and the output's at `outb0` (consulted only where the block is written back);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outb0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outb0 V c t := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.Bits.R0Runs.lean ====
/- The first kernel region's body, run: its two branch conditions in closed form over the grid, where its output window
   is idle, the invariant with the scratch opened, and the body's run in each of its three control cases with the
   contents of every buffer named. -/
import proofs.«426459_j40699110097621_1_alg».proof.Proof.Bits.R0Defs
import Idealize.ShloMosaic.Lib.Pipeline.Value
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, in closed form over the grid -/

/-- The first conditional's condition: the contraction tile (grid coordinate 1) is 0. -/
abbrev cond0_0 (i : grid0.Coords) : Prop :=
  (Scalar.cmpi .ne (Scalar.extui (Scalar.cmpi .eq (BitVec.ofNat 32 (i 1).val) 0#32)) 0#32) = 1#1
/-- It holds exactly at the points whose position is 0 modulo 5. -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition: the contraction tile is 4, the last. -/
abbrev cond0_1 (i : grid0.Coords) : Prop := k0_cond2 i = 1#1
/-- It holds exactly at the points whose position is 4 modulo 5. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last contraction tile the output is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On the last contraction tile the output is live. -/
theorem liveAt0_3 : ∀ t : Fin cfg0.N, cond0_1 (grid0.coords t) → cfg0.idle 3 (grid0.coords t) = false := by decide +kernel

/-! ## The staging memrefs at a point -/

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)

/-! ## The class's invariant with the scratch opened -/

/-- The invariant the launch hands the region: the scratch at some contents, the core's other scoped buffers, the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

/-! ## Whole loads and whole stores read back -/

theorem hz2 : (![0, 0] : Fin 2 → ℕ) = fun _ => 0 := funext fun a => by fin_cases a <;> rfl

/-- After stores of which the last fills the whole buffer, the buffer reads as that store's payload. -/
theorem read_store_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb]

/-- A whole load of a whole buffer reads its contents. -/
theorem load_whole {S : Shape} {e : EltTy} (m : Memref sig .tc .vmem S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-! ## The body's run, case by case

Every load and store is of a whole buffer, so each case is stated with the contents named: the inputs stay, the
accumulator is the block product added to what it held (to zero where the first conditional runs), the output is
handed back untouched, or holds the rectified sum where the second conditional runs. -/

set_option maxHeartbeats 1000000 in
/-- A middle contraction tile: neither conditional runs. -/
theorem kernelRun0_B (c : Dev nD) (i : grid0.Coords)
    (arg2 : Memref sig .tc .vmem S256x2048 .bf16) (harg2 : arg2.IsWhole)
    (arg3 : Memref sig .tc .vmem S2048x2048 .bf16) (harg3 : arg3.IsWhole)
    (arg4 : Memref sig .tc .vmem S1x1 .f32) (harg4 : arg4.IsWhole)
    (arg5 : Memref sig .tc .vmem S256x2048 .bf16) (harg5 : arg5.IsWhole)
    (arg6 : Memref sig .tc .vmem S256x2048 .f32) (harg6 : arg6.IsWhole)
    (hc0 : ¬cond0_0 i) (hc1 : ¬cond0_1 i)
    (x0 : Vec F S256x2048 .bf16) (x1 : Vec F S2048x2048 .bf16) (x2 : Vec F S1x1 .f32) (xi3 : Vec F S256x2048 .bf16)
    (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [read_store_whole _ _ hz2, load_whole _ harg6 hz2, load_whole _ harg2 hz2, load_whole _ harg3 hz2]

set_option maxHeartbeats 1000000 in
/-- The first contraction tile: the first conditional zeroes the accumulator, the second does not run. -/
theorem kernelRun0_A (c : Dev nD) (i : grid0.Coords)
    (arg2 : Memref sig .tc .vmem S256x2048 .bf16) (harg2 : arg2.IsWhole)
    (arg3 : Memref sig .tc .vmem S2048x2048 .bf16) (harg3 : arg3.IsWhole)
    (arg4 : Memref sig .tc .vmem S1x1 .f32) (harg4 : arg4.IsWhole)
    (arg5 : Memref sig .tc .vmem S256x2048 .bf16) (harg5 : arg5.IsWhole)
    (arg6 : Memref sig .tc .vmem S256x2048 .f32) (harg6 : arg6.IsWhole)
    (hc0 : cond0_0 i) (hc1 : ¬cond0_1 i)
    (x0 : Vec F S256x2048 .bf16) (x1 : Vec F S2048x2048 .bf16) (x2 : Vec F S1x1 .f32) (xi3 : Vec F S256x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 (k0_pay1 (F := F)) x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [read_store_whole _ _ hz2]
  sl_unfold_words
  rw [View.readCov_unit_zero _ hz2, load_whole _ harg2 hz2, load_whole _ harg3 hz2]

set_option maxHeartbeats 1000000 in
/-- The last contraction tile: the first conditional does not run, the second writes the output block. -/
theorem kernelRun0_C (c : Dev nD) (i : grid0.Coords)
    (arg2 : Memref sig .tc .vmem S256x2048 .bf16) (harg2 : arg2.IsWhole)
    (arg3 : Memref sig .tc .vmem S2048x2048 .bf16) (harg3 : arg3.IsWhole)
    (arg4 : Memref sig .tc .vmem S1x1 .f32) (harg4 : arg4.IsWhole)
    (arg5 : Memref sig .tc .vmem S256x2048 .bf16) (harg5 : arg5.IsWhole)
    (arg6 : Memref sig .tc .vmem S256x2048 .f32) (harg6 : arg6.IsWhole)
    (hc0 : ¬cond0_0 i) (hc1 : cond0_1 i)
    (x0 : Vec F S256x2048 .bf16) (x1 : Vec F S2048x2048 .bf16) (x2 : Vec F S1x1 .f32)
    (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_store_whole _ _ hz2]
    sl_unfold_words
    rw [View.readCov_unit_zero _ hz2, load_whole _ harg6 hz2, load_whole _ harg2 hz2, load_whole _ harg3 hz2, load_whole _ harg4 hz2]
  iexists _; isplitr
  swap; · iexact HS
  ipureintro
  sl_unfold_words
  rw [read_store_whole _ _ hz2, load_whole _ harg6 hz2, load_whole _ harg2 hz2, load_whole _ harg3 hz2]

end Cert.Kernel.Hand

end
-- ==== Proof.Bits.R0Body.lean ====
/- The first kernel region's body obligation: at every grid point the body, handed the inputs' blocks, the output's buffer
   and the accumulator the point before left, runs to the same with the accumulator advanced by the point's block
   product (restarted from zero where the contraction tile is the first) and, where the contraction tile is the last,
   the output's buffer at the rectified sum; and the invariant's entry from, and exit to, what the launch hands over. -/
import proofs.«426459_j40699110097621_1_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The inputs' staging buffers hold their blocks at every point -/

/-- The feature window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window's current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The bias window's staging buffer, fetched at the first point only, holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (xblk0 V c t) := by
  unfold Dat.leavesExact; rw [liveAt0_0 t, after0_0]
theorem leaves0_1 (c : Dev nD) (t : Fin cfg0.N) :
    (dat0 V c).leavesExact 1 t = owns (c : Thread nD τ) (ms0_1 t) fullShare (mblk0 V c t) := by
  unfold Dat.leavesExact; rw [liveAt0_1 t, after0_1]
theorem leaves0_2 (c : Dev nD) (t : Fin cfg0.N) :
    (dat0 V c).leavesExact 2 t = owns (c : Thread nD τ) (ms0_2 t) fullShare (bblk0 V c t) := by
  unfold Dat.leavesExact; rw [liveAt0_2 t, after0_2]
/-- Off the last contraction tile the output's buffer is handed back as found. -/
theorem leaves0_3_idle (c : Dev nD) (t : Fin cfg0.N) (h : ¬t.val % 5 = 4) :
    (dat0 V c).leavesExact 3 t = iprop(∃ d, owns (c : Thread nD τ) (ms0_3 t) fullShare ((dat0 V c).before 3 t d)) :=
  Dat.leavesExact_idle (dat0 V c) 3 t (idleAt0_3 t (fun hc => h ((hcond0_1 t).mp hc))) (noFlush0_3 t (fun hc => h ((hcond0_1 t).mp hc)))
/-- On it the buffer holds the output block. -/
theorem leaves0_3_live (c : Dev nD) (t : Fin cfg0.N) (h : t.val % 5 = 4) :
    (dat0 V c).leavesExact 3 t = owns (c : Thread nD τ) (ms0_3 t) fullShare (outb0 V c t) := by
  unfold Dat.leavesExact; rw [liveAt0_3 t ((hcond0_1 t).mpr h), after0_3]

set_option maxHeartbeats 4800000 in
/-- The body at any point. The inputs' buffers hold their blocks; the position modulo 5 says which case the point is in;
    the invariant hands the body the scratch at what the point before left (at anything before the first point) and takes
    it back at this point's accumulator; the other scoped buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, Phi0_castSucc]
  have hN : t.val < 25 := lt_of_lt_of_eq t.isLt (show cfg0.N = 25 from N_0)
  by_cases h0 : t.val % 5 = 0
  · -- the first contraction tile
    have h1 : ¬t.val % 5 = 4 := by omega
    rw [leaves0_3_idle V c t h1, acc0_first V c t h0]
    by_cases hz : t.val = 0
    · rw [PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (kernelRun0_A c (grid0.coords t) _ _ _ _ _ _ _ _ _ _ ((hcond0_0 t).mpr h0) (fun h => h1 ((hcond0_1 t).mp h))
        (xblk0 V c t) (mblk0 V c t) (bblk0 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_pos V c _ _ hz]
      iintro ⟨⟨⟨HS, HR⟩, Hg⟩, Ho, ⟨%d0, H0⟩, ⟨%d1, H1⟩, ⟨%d2, H2⟩, ⟨%d3, H3⟩⟩
      iapply (kernelRun0_A c (grid0.coords t) _ _ _ _ _ _ _ _ _ _ ((hcond0_0 t).mpr h0) (fun h => h1 ((hcond0_1 t).mp h))
        (xblk0 V c t) (mblk0 V c t) (bblk0 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [PhiS0_pos V c _ _ hz]
    by_cases h1 : t.val % 5 = 4
    · -- the last contraction tile
      rw [leaves0_3_live V c t h1]
      unfold outb0
      rw [acc0_next V c t h0]
      iintro ⟨⟨⟨HS, HR⟩, Hg⟩, Ho, ⟨%d0, H0⟩, ⟨%d1, H1⟩, ⟨%d2, H2⟩, ⟨%d3, H3⟩⟩
      iapply (kernelRun0_C c (grid0.coords t) _ _ _ _ _ _ _ _ _ _ (fun h => h0 ((hcond0_0 t).mp h)) ((hcond0_1 t).mpr h1)
        (xblk0 V c t) (mblk0 V c t) (bblk0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle contraction tile
      rw [leaves0_3_idle V c t h1, acc0_next V c t h0]
      iintro ⟨⟨⟨HS, HR⟩, Hg⟩, Ho, ⟨%d0, H0⟩, ⟨%d1, H1⟩, ⟨%d2, H2⟩, ⟨%d3, H3⟩⟩
      iapply (kernelRun0_B c (grid0.coords t) _ _ _ _ _ _ _ _ _ _ (fun h => h0 ((hcond0_0 t).mp h)) (fun h => h1 ((hcond0_1 t).mp h))
        (xblk0 V c t) (mblk0 V c t) (bblk0 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 25 := N_0; omega)

end Cert.Kernel.Hand

end
-- ==== Proof.Bits.R1Defs.lean ====
/- The second kernel region (the two dense layers, grid 5 over the contraction tiles of the first): what its staging
   buffers, its accumulator and its output block hold at every grid point, and the proof data of its pipeline.

   At point t the body adds the product of the point's node-feature block (256 × 2048) and first-layer weight block
   (2048 × 1024) to an accumulator zeroed first at t = 0; at t = 4 it writes the output block: the accumulator plus the
   first bias, rectified, times the second layer's weights, plus the second bias, rectified. The accumulator lives in
   a scratch buffer the kernel keeps between points. -/
import proofs.«426459_j40699110097621_1_alg».proof.Proof.Gen.Kernel.Regions
import proofs.«426459_j40699110097621_1_alg».proof.Proof.Gen.Kernel.Skeleton
import proofs.«426459_j40699110097621_1_alg».proof.Proof.Gen.Kernel.Points
import Idealize.ShloMosaic.Lib.Pipeline.Kit
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- `V c b`: core `c`'s unscoped buffer `b` when the region is entered.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node-feature block, the first layer's weight block, its bias, the second layer's weights and bias at point `t`. -/
abbrev gblk1 (c : Dev nD) (t : Fin cfg1.N) : Vec F S256x2048 .bf16 := iblk1 V c 0 t
abbrev wblk1 (c : Dev nD) (t : Fin cfg1.N) : Vec F S2048x1024 .bf16 := iblk1 V c 1 t
abbrev b1blk1 (c : Dev nD) (t : Fin cfg1.N) : Vec F S1x1024 .f32 := iblk1 V c 2 t
abbrev w2blk1 (c : Dev nD) (t : Fin cfg1.N) : Vec F S1024x128 .bf16 := iblk1 V c 3 t
abbrev b2blk1 (c : Dev nD) (t : Fin cfg1.N) : Vec F S1x128 .f32 := iblk1 V c 4 t

/-- THE ACCUMULATOR after the body at position `n`: the block product added to zero at the first point, to what the
    point before left otherwise. -/
def acc1 (c : Dev nD) : (n : ℕ) → n < cfg1.N → Vec F S256x1024 .f32
  | 0, hn => k1_pay2 (k1_pay1 (F := F)) (gblk1 V c ⟨0, hn⟩) (wblk1 V c ⟨0, hn⟩)
  | n + 1, hn =>
    if (n + 1) % 5 = 0 then k1_pay2 (k1_pay1 (F := F)) (gblk1 V c ⟨n + 1, hn⟩) (wblk1 V c ⟨n + 1, hn⟩)
    else k1_pay2 (acc1 c n (Nat.lt_of_succ_lt hn)) (gblk1 V c ⟨n + 1, hn⟩) (wblk1 V c ⟨n + 1, hn⟩)

theorem acc1_first (c : Dev nD) (t : Fin cfg1.N) (h : t.val % 5 = 0) :
    acc1 V c t.val t.isLt = k1_pay2 (k1_pay1 (F := F)) (gblk1 V c t) (wblk1 V c t) := by
  obtain ⟨n, hn⟩ := t
  cases n with
  | zero => rfl
  | succ n => exact (if_pos h).trans rfl

theorem acc1_next (c : Dev nD) (t : Fin cfg1.N) (h : ¬t.val % 5 = 0) :
    acc1 V c t.val t.isLt
      = k1_pay2 (acc1 V c (t.val - 1) (Nat.lt_of_le_of_lt (Nat.sub_le _ _) t.isLt)) (gblk1 V c t) (wblk1 V c t) := by
  obtain ⟨n, hn⟩ := t
  cases n with
  | zero => exact absurd (Nat.zero_mod _) h
  | succ n => exact (if_neg h).trans rfl

/-- The output block the body writes at the last point. -/
def outb1 (c : Dev nD) (t : Fin cfg1.N) : Vec F S256x128 .f32 :=
  k1_pay3 (acc1 V c t.val t.isLt) (b1blk1 V c t) (w2blk1 V c t) (b2blk1 V c t)

/-- The scratch buffer that holds the accumulator. -/
abbrev scM1 : Memref sig .tc .vmem S256x1024 .f32 := Memref.whole cc1_scratch0

/-- The core's other scoped buffers (the other region's staging buffers and scratch), at some contents each. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scratch holds anything; afterwards it holds
    the accumulator the point before left, every other scoped buffer at some contents. The generator register is at some
    state throughout. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-- The proof data of the region's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outb1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outb1 V c t := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.Bits.R1Runs.lean ====
/- The second kernel region's body, run whole in each of its three control cases (the first contraction step, a middle
   one, the last), over the payloads that name what it stores; the conditions in closed form over the grid; where its
   windows are idle; the class invariant opened at the accumulator's buffer. -/
import proofs.«426459_j40699110097621_1_alg».proof.Proof.Bits.R1Defs
import Idealize.ShloMosaic.Lib.Pipeline.Value
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's condition (the contraction step is the first), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's condition (the contraction step is the last), from the grid coordinates. -/
abbrev cond1_1 (i : grid1.Coords) : Prop := k1_cond2 i = 1#1
/-- It holds at the last point only. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional is not taken the output window is idle: nothing is stored into it, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- Where it is taken the output window is live. -/
theorem liveAt1_5 : ∀ t : Fin cfg1.N, cond1_1 (grid1.coords t) → cfg1.idle 5 (grid1.coords t) = false := by decide +kernel

/-! ## The staging memrefs at a point -/

/-- Each window's current staging memref at point `t`, as the body is called with it, and its wholeness. -/
abbrev ms1_0 (t : Fin cfg1.N) : Memref sig .tc .vmem S256x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x128 .f32 := win1_5.stage (cfg1.slots t 5)
abbrev hs1_5 (t : Fin cfg1.N) : (ms1_5 t).IsWhole := hstage1_5 ((cfg1.slots t 5).cast nbuf1_5)

/-- The class's invariant with the accumulator's buffer as a memref owned at some contents, beside the core's other
    scoped buffers and the generator register: what the body is handed at the first point and what the region gives
    back. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole, rest1]
  rfl

/-- The zero offsets of a whole-buffer rectangle, however spelt. -/
theorem hz1 : (![0, 0] : Fin 2 → Nat) = fun _ => 0 := funext fun a => by fin_cases a <;> rfl

set_option maxHeartbeats 1000000 in
/-- THE BODY AT A MIDDLE STEP (neither conditional taken): on whole memrefs, the node-feature block at `x0`, the weight
    block at `x1` and the accumulator at `xs`, the body runs to the continuation with the two blocks as they were and the
    accumulator at `xs` plus the blocks' product; it touches nothing else. -/
theorem kernelRun1_B (c : Dev nD) (i : grid1.Coords) (arg1 : Memref sig .tc .vmem S256x2048 .bf16) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x1024 .f32) (harg7 : arg7.IsWhole) (hc0 : ¬cond1_0 i) (hc1 : ¬cond1_1 i)
    (x0 : Vec F S256x2048 .bf16) (x1 : Vec F S2048x1024 .bf16) (xs : Vec F S256x1024 .f32)
    (E : Set ℕ) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1 ∗ owns (c : Thread nD τ) arg7 fullShare (k1_pay2 xs x0 x1)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  refine (View.read_writes_eq_canon _ _ _ (fun y => ⟨_, List.mem_singleton_self _, View.mem_set_unit_zero hz1 (by exact inb_S256x1024_S256x1024_0_0) y⟩)).trans ?_
  rw [View.canon_unit_zero hz1]
  simp only [View.readAt_eq_ld, harg1.read_unread, harg2.read_unread, harg7.read_unread, View.ld_unit_zero (S := S256x2048) hz1, View.ld_unit_zero (S := S2048x1024) hz1, View.ld_unit_zero (S := S256x1024) hz1]

set_option maxHeartbeats 1000000 in
/-- THE BODY AT THE FIRST STEP (the first conditional taken, the second not): the accumulator at anything; it is zeroed,
    then holds zero plus the blocks' product. -/
theorem kernelRun1_A (c : Dev nD) (i : grid1.Coords) (arg1 : Memref sig .tc .vmem S256x2048 .bf16) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x1024 .f32) (harg7 : arg7.IsWhole) (hc0 : cond1_0 i) (hc1 : ¬cond1_1 i)
    (x0 : Vec F S256x2048 .bf16) (x1 : Vec F S2048x1024 .bf16)
    (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1 ∗ owns (c : Thread nD τ) arg7 fullShare (k1_pay2 (k1_pay1 (F := F)) x0 x1)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  refine (View.read_writes_eq_canon _ _ _ (fun y => ⟨_, List.mem_cons_self, View.mem_set_unit_zero hz1 (by exact inb_S256x1024_S256x1024_0_0) y⟩)).trans ?_
  rw [View.canon_cons_unit_zero hz1]
  simp only [View.readAt_eq_ld, harg1.read_unread, harg2.read_unread, harg3.read_unread, harg4.read_unread, harg5.read_unread, harg7.read_unread, View.ld_unit_zero (S := S256x2048) hz1, View.ld_unit_zero (S := S2048x1024) hz1, View.ld_unit_zero (S := S256x1024) hz1, View.ld_unit_zero (S := S1x1024) hz1, View.ld_unit_zero (S := S1024x128) hz1, View.ld_unit_zero (S := S1x128) hz1, View.readCov_unit_zero (S := S256x1024) _ hz1]

set_option maxHeartbeats 1000000 in
/-- THE BODY AT THE LAST STEP (the second conditional taken, the first not): as a middle step, and then the output
    block (at anything before) holds the two dense layers of the new accumulator. -/
theorem kernelRun1_C (c : Dev nD) (i : grid1.Coords) (arg1 : Memref sig .tc .vmem S256x2048 .bf16) (harg1 : arg1.IsWhole) (arg2 : Memref sig .tc .vmem S2048x1024 .bf16) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x1024 .f32) (harg7 : arg7.IsWhole) (hc0 : ¬cond1_0 i) (hc1 : cond1_1 i)
    (x0 : Vec F S256x2048 .bf16) (x1 : Vec F S2048x1024 .bf16) (x2 : Vec F S1x1024 .f32) (x3 : Vec F S1024x128 .bf16) (x4 : Vec F S1x128 .f32) (xs : Vec F S256x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay3 (k1_pay2 xs x0 x1) x2 x3 x4) ∗ owns (c : Thread nD τ) arg7 fullShare (k1_pay2 xs x0 x1)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    refine (View.read_writes_eq_canon _ _ _ (fun y => ⟨_, List.mem_singleton_self _, View.mem_set_unit_zero hz1 (by exact inb_S256x128_S256x128_0_0) y⟩)).trans ?_
    rw [View.canon_unit_zero hz1]
    simp only [View.readAt_eq_ld, harg1.read_unread, harg2.read_unread, harg3.read_unread, harg4.read_unread, harg5.read_unread, harg7.read_unread, View.ld_unit_zero (S := S256x2048) hz1, View.ld_unit_zero (S := S2048x1024) hz1, View.ld_unit_zero (S := S256x1024) hz1, View.ld_unit_zero (S := S1x1024) hz1, View.ld_unit_zero (S := S1024x128) hz1, View.ld_unit_zero (S := S1x128) hz1, View.readCov_unit_zero (S := S256x1024) _ hz1]
  iexists _; isplitr
  swap; · iexact HS
  ipureintro
  sl_unfold_words
  refine (View.read_writes_eq_canon _ _ _ (fun y => ⟨_, List.mem_singleton_self _, View.mem_set_unit_zero hz1 (by exact inb_S256x1024_S256x1024_0_0) y⟩)).trans ?_
  rw [View.canon_unit_zero hz1]
  simp only [View.readAt_eq_ld, harg1.read_unread, harg2.read_unread, harg3.read_unread, harg4.read_unread, harg5.read_unread, harg7.read_unread, View.ld_unit_zero (S := S256x2048) hz1, View.ld_unit_zero (S := S2048x1024) hz1, View.ld_unit_zero (S := S256x1024) hz1, View.ld_unit_zero (S := S1x1024) hz1, View.ld_unit_zero (S := S1024x128) hz1, View.ld_unit_zero (S := S1x128) hz1, View.readCov_unit_zero (S := S256x1024) _ hz1]

end Cert.Kernel.Hand

end
-- ==== Proof.Bits.R1Body.lean ====
/- The second kernel region's body obligation: at every grid point the body, from the invariant and the windows' staging
   buffers at what they then hold, runs to the invariant at the next point and the buffers at what the proof data says
   the body leaves; and the invariant's entry from and exit to the class's. -/
import proofs.«426459_j40699110097621_1_alg».proof.Proof.Bits.R1Runs
import proofs.«426459_j40699110097621_1_alg».proof.Proof.Gen.Kernel.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Each input window's current staging buffer holds its block at every point, whether fetched there or not (where it is
    not, the block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's contraction step says which control case
    it is in; the invariant hands the body the accumulator at what the point before left (at anything at the first point)
    and takes it back at this point's; the other scoped buffers, the generator register and what the core owes pass
    through untouched; the output's buffer is handed back as found except at the last step, where it holds the output
    block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 5 = 0
  · have h1 : ¬t.val % 5 = 4 := by omega
    have hz : t.val = 0 := by omega
    rw [Dat.leavesExact_idle (dat1 V c) 5 t (idleAt1_5 t (fun h => h1 ((hcond1_1 t).mp h))) (noFlush1_5 t (fun h => h1 ((hcond1_1 t).mp h)))]
    rw [acc1_first V c t h0]
    rw [Phi1_castSucc V c t, PhiS1_zero V c _ _ hz, PhiA1_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (kernelRun1_A c (grid1.coords t) _ _ _ _ _ _ _ _ _ _ _ _ _ _ ((hcond1_0 t).mpr h0) (fun h => h1 ((hcond1_1 t).mp h)) (iblk1 V c 0 t) (iblk1 V c 1 t) Set.univ _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 5 = 4
    · rw [show (dat1 V c).leavesExact 5 t = owns (c : Thread nD τ) (ms1_5 t) fullShare ((dat1 V c).after 5 t) from by
        unfold Dat.leavesExact; rw [liveAt1_5 t ((hcond1_1 t).mpr h1)], after1_5]
      unfold outb1
      rw [acc1_next V c t h0]
      rw [Phi1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [acc1_next V c t h0]
      rw [Phi1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ (fun h => h0 ((hcond1_0 t).mp h)) (fun h => h1 ((hcond1_1 t).mp h)) (iblk1 V c 0 t) (iblk1 V c 1 t) _ Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the accumulator holds is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi1_out V c _ (by rw [Fin.val_last]; have : cfg1.N = 5 := N_1; omega)

end Cert.Kernel.Hand

end
-- ==== Proof.Bits.RunCond.lean ====
/- The kernel program's run with its result in the post: every weakly fair execution of @main terminates, and in every
   final memory the result array holds what the second kernel region left in it while each of the eight argument arrays
   holds its launch contents. Proved from one segment record per kernel region, as the conditional frame is, over the
   same list of segments; the end reads one more buffer off the last valuation. -/
import proofs.«426459_j40699110097621_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- The last valuation holds, in the result array, what the second kernel region left there: the valuation is the one
    before it updated at exactly that array. -/
theorem V8_main_v55 (outs : Outs (F := F)) (c : Dev nD) : V8 m outs c main_v55 = outs 8 main_v55 c := by
  simp only [V8, Function.update_self]

set_option backward.isDefEq.respectTransparency.types false in
/-- THE RUN, GIVEN THE REGIONS' RECORDS. For any user algebra, level assignment, launch dues and ghost resources, any
    rest states `E` the launch makes on every core at once (`hE0`) and that end owing nothing (`hE2`), any contents the
    regions leave (`outs`) and any proof data: given, per kernel region K, a segment record entered from the thread state
    before it and left at the one after it (`RK`, `hpreK`, `hpostK`), every weakly fair execution of @main from memory `m`
    with zero counters terminates, and every final memory holds in the result array `main_v55` the contents
    `outs 8 main_v55 c` the second region left there and in each argument array its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v55) = outs 8 main_v55 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, hpre0 c, hpost0 c, .rfl, .rfl, hpre1 c, (hpost1 c).trans (sep_mono .rfl (hE2 c))⟩)
    (hinit := ?_) (QY := fun c s => s.mem ((c.tc : Thread nD τ).loc main_v55) = outs 8 main_v55 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- at the launch every core holds its unscoped buffers at their launch contents, and what remains of the launch state
    -- becomes the first rest state on all cores together
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every unscoped buffer is read off the last valuation: the result array there is what the second region
    -- left, and no item wrote an argument array
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v55) (Finset.mem_filter.mpr ⟨StableHlo.devRef_mem_tcRefs main_v55, by decide⟩)).trans (V8_main_v55 m outs c),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c)⟩
    · iexact HSI

end Cert.Kernel.Hand

end
-- ==== Proof.Bits.Launch.lean ====
/- The launch: the program's run assembled from its two kernel regions.

   Between two items of the program every core holds each of its unscoped buffers whole, at contents that follow the
   program: the launch memory, then each host stretch applied, then — after a region — the region's output array
   replaced by what the region's write-backs leave in it. This module names those two arrays (`outsH`), gives each
   region's record over that thread state (its arrays split out of the unscoped buffers at entry and put back at exit,
   an array the region only reads coming back as it went in, the generator register lent to the region's invariant and
   returned, nothing owed), and concludes: every weakly fair execution terminates, every argument array ends as
   launched (`frame`), and the result array ends at the second region's output (`run_value`). -/
import proofs.«426459_j40699110097621_1_alg».proof.Proof.Bits.R0Body
import proofs.«426459_j40699110097621_1_alg».proof.Proof.Bits.R1Body
import proofs.«426459_j40699110097621_1_alg».proof.Proof.Bits.RunCond
import proofs.«426459_j40699110097621_1_alg».proof.Proof.Gen.Kernel.Regions
import Idealize.ShloMosaic.Lib.Pipeline.FrameBody
import Idealize.ShloMosaic.Lib.Pipeline.RegionsLoop
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave -/

namespace Launch

/-- The first region's entry contents, read at the core's references. -/
abbrev Vin0 : (c : Dev nD) → (b : Ref sig .tc) → Buf (Elt F) ((c : Thread nD τ).loc b) := fun c b => Gen.V3 m c b

/-- What the first region leaves in its output array: the entry array with every block written back. -/
def out49 (c : Dev nD) : Buf (Elt F) ((c : Thread nD τ).loc main_v49) :=
  (dat0 (F := F) (Vin0 m) c).arrAt 3 cfg0.N

/-- The regions' outputs with only the first region's filled in (elsewhere the launch contents: never read). -/
def outs4 : Gen.Outs (F := F) := fun _ r c =>
  if h : r = main_v49 then h ▸ out49 m c else m ((c : Thread nD τ).loc r)

theorem outs4_v49 (n : ℕ) (c : Dev nD) : outs4 m n main_v49 c = out49 m c := by
  unfold outs4; rw [dif_pos rfl]

/-- The second region's entry contents, read at the core's references: the first region's output is among them. -/
abbrev Vin1 : (c : Dev nD) → (b : Ref sig .tc) → Buf (Elt F) ((c : Thread nD τ).loc b) := fun c b => Gen.V7 m (outs4 m) c b

/-- What the second region leaves in its output array. -/
def out55 (c : Dev nD) : Buf (Elt F) ((c : Thread nD τ).loc main_v55) :=
  (dat1 (F := F) (Vin1 m) c).arrAt 5 cfg1.N

end Launch

/-- THE REGIONS' OUTPUTS: after the first region `main_v49` holds what its write-backs leave, after the second
    `main_v55` does; nothing else is read. -/
def outsH : Gen.Outs (F := F) := fun n r c =>
  if n = 8 then (if h : r = main_v55 then h ▸ Launch.out55 m c else Launch.outs4 m n r c) else Launch.outs4 m n r c

theorem outsH_4 (r : Ref sig .tc) (c : Dev nD) : outsH m 4 r c = Launch.outs4 m 4 r c := by
  unfold outsH; rw [if_neg (by decide)]

/-- The contents after the first region depend on the outputs only through the first region's. -/
theorem V4_outsH (c : Dev nD) : Gen.V4 m (outsH m) c = Gen.V4 m (Launch.outs4 m) c := by
  simp only [Gen.V4, outsH_4]

theorem V7_outsH (c : Dev nD) : Gen.V7 m (outsH m) c = Gen.V7 m (Launch.outs4 m) c :=
  congrArg (fun v => StableHlo.after hostOps1_2 (StableHlo.after hostOps1_1 (StableHlo.after hostOps1 v))) (V4_outsH m c)

/-- After the first region its output array holds the fold of its write-backs over the entry array. -/
theorem outsH_v49 (c : Dev nD) : outsH m 4 main_v49 c = (dat0 (F := F) (fun c b => Gen.V3 m c b) c).arrAt 3 cfg0.N := by
  rw [outsH_4, Launch.outs4_v49]; rfl

theorem outsH_8_v55 (c : Dev nD) : outsH m 8 main_v55 c = Launch.out55 m c := by
  unfold outsH; rw [if_pos rfl, dif_pos rfl]

/-- After the second region its output array holds the fold of its write-backs over the entry array. -/
theorem outsH_v55 (c : Dev nD) : outsH m 8 main_v55 c = (dat1 (F := F) (fun c b => Gen.V7 m (outsH m) c b) c).arrAt 5 cfg1.N := by
  have h : (fun (c : Dev nD) (b : Ref sig .tc) => Gen.V7 m (outsH m) c b) = Launch.Vin1 m := by
    funext c b; rw [V7_outsH]
  rw [h, outsH_8_v55]; rfl

namespace Launch

/-! ## The proof data family and the thread state -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c

abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the core's generator register at some state and its dues, at
    nothing. -/
abbrev Ride (c : Dev nD) : sProp 𝕄 := iprop((∃ r, prngReg c r) ∗ ∃ W, owes (c : Thread nD τ) (0 : CellTallies nD τ sig Unit) W)

/-- The first region's exit contents, read at the core's references. -/
abbrev Vout0 : (c : Dev nD) → (b : Ref sig .tc) → Buf (Elt F) ((c : Thread nD τ).loc b) := fun c b => Gen.V4 m (outsH m) c b

/-- At the first region's exit each of its arrays holds what the pipeline leaves: an input its entry contents (it is
    never written), the output the write-backs' fold. -/
theorem hF0 (c : Dev nD) (w : Fin cfg0.W) : (pdats m 0 c).arrAt w cfg0.N = Vout0 m c (Pipeline.arrRef spec0 w) := by
  fin_cases w
  · exact ((dat0 (Vin0 m) c).arrAt_in 0 rfl _).trans ((A_eq0 (Vin0 m) c 0).trans (Gen.V4_of m (outsH m) c main_v47 (by decide)).symm)
  · exact ((dat0 (Vin0 m) c).arrAt_in 1 rfl _).trans ((A_eq0 (Vin0 m) c 1).trans (Gen.V4_of m (outsH m) c main_v45 (by decide)).symm)
  · exact ((dat0 (Vin0 m) c).arrAt_in 2 rfl _).trans ((A_eq0 (Vin0 m) c 2).trans (Gen.V4_of m (outsH m) c main_v48 (by decide)).symm)
  · exact (outsH_v49 m c).symm.trans
      (Function.update_self (Proc.devRef .tc main_v49 : DevRef τ sig) (outsH m 4 main_v49 c) (Gen.V3 m c)).symm

/-- Every other buffer holds what it held at entry. -/
theorem hrest0 (c : Dev nD) : ∀ b, b ∉ Finset.univ.image (Pipeline.arrRef spec0) → Vout0 m c b = Vin0 m c b :=
  fun b hb => Gen.V4_of m (outsH m) c b fun h => hb (by
    rw [List.mem_singleton] at h; subst h
    exact Finset.mem_image.mpr ⟨3, Finset.mem_univ _, rfl⟩)

/-- The second region's exit contents, read at the core's references. -/
abbrev Vout1 : (c : Dev nD) → (b : Ref sig .tc) → Buf (Elt F) ((c : Thread nD τ).loc b) := fun c b => Gen.V8 m (outsH m) c b

/-- An array the second region only reads holds at its exit what it held at its entry. -/
theorem Vout1_in (c : Dev nD) (r : Ref sig .tc) (h : r ∉ ([main_v55] : List (Ref sig .tc))) : Vin1 m c r = Vout1 m c r :=
  ((Gen.V8_of m (outsH m) c r h).trans (congrFun (V7_outsH m c) _)).symm

theorem hF1_0 (c : Dev nD) : (pdats m 1 c).arrAt 0 cfg1.N = Vout1 m c (Pipeline.arrRef spec1 0) :=
  ((dat1 (Vin1 m) c).arrAt_in 0 rfl _).trans ((A_eq1 (Vin1 m) c 0).trans (Vout1_in m c main_v49 (by decide)))
theorem hF1_1 (c : Dev nD) : (pdats m 1 c).arrAt 1 cfg1.N = Vout1 m c (Pipeline.arrRef spec1 1) :=
  ((dat1 (Vin1 m) c).arrAt_in 1 rfl _).trans ((A_eq1 (Vin1 m) c 1).trans (Vout1_in m c main_v51 (by decide)))
theorem hF1_2 (c : Dev nD) : (pdats m 1 c).arrAt 2 cfg1.N = Vout1 m c (Pipeline.arrRef spec1 2) :=
  ((dat1 (Vin1 m) c).arrAt_in 2 rfl _).trans ((A_eq1 (Vin1 m) c 2).trans (Vout1_in m c main_v53 (by decide)))
theorem hF1_3 (c : Dev nD) : (pdats m 1 c).arrAt 3 cfg1.N = Vout1 m c (Pipeline.arrRef spec1 3) :=
  ((dat1 (Vin1 m) c).arrAt_in 3 rfl _).trans ((A_eq1 (Vin1 m) c 3).trans (Vout1_in m c main_v52 (by decide)))
theorem hF1_4 (c : Dev nD) : (pdats m 1 c).arrAt 4 cfg1.N = Vout1 m c (Pipeline.arrRef spec1 4) :=
  ((dat1 (Vin1 m) c).arrAt_in 4 rfl _).trans ((A_eq1 (Vin1 m) c 4).trans (Vout1_in m c main_v54 (by decide)))
theorem hF1_5 (c : Dev nD) : (pdats m 1 c).arrAt 5 cfg1.N = Vout1 m c (Pipeline.arrRef spec1 5) :=
  (outsH_8_v55 m c).symm.trans
    (Function.update_self (Proc.devRef .tc main_v55 : DevRef τ sig) (outsH m 8 main_v55 c) (Gen.V7 m (outsH m) c)).symm

/-- At the second region's exit each of its arrays holds what the pipeline leaves. -/
theorem hF1 (c : Dev nD) (w : Fin cfg1.W) : (pdats m 1 c).arrAt w cfg1.N = Vout1 m c (Pipeline.arrRef spec1 w) := by
  fin_cases w
  · exact hF1_0 m c
  · exact hF1_1 m c
  · exact hF1_2 m c
  · exact hF1_3 m c
  · exact hF1_4 m c
  · exact hF1_5 m c

/-- Every other buffer holds what it held at entry. -/
theorem hrest1 (c : Dev nD) : ∀ b, b ∉ Finset.univ.image (Pipeline.arrRef spec1) → Vout1 m c b = Vin1 m c b :=
  fun b hb => (Vout1_in m c b fun h => hb (by
    rw [List.mem_singleton] at h; subst h
    exact Finset.mem_image.mpr ⟨5, Finset.mem_univ _, rfl⟩)).symm

set_option backward.isDefEq.respectTransparency.types false in
/-- THE FIRST REGION over the thread state: entered from every unscoped buffer at the contents after the third host
    stretch, left with its output array at what its write-backs leave. Its arrays are split out of the unscoped buffers
    and put back at the exit contents; the generator register goes into the invariant and comes back; nothing is owed. -/
def reg0 : Pipeline.RegionSeg (pcfgs (F := F)) Gen.adm (pdats m) () defs₀ noVar noL noLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noL noLv 0 fun _ _ => rfl
  pre c := iprop(StableHlo.held (c : Thread nD τ) (Pipeline.ucRefs τ sig) (Gen.V3 m c) ∗ Ride c)
  post c := iprop(StableHlo.held (c : Thread nD τ) (Pipeline.ucRefs τ sig) (Gen.V4 m (outsH m) c) ∗ Ride c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vin0 m) c)
    unfold Pipeline.ΦA
    iintro ⟨Hp, -, Hr⟩
    isplitl [Hr]; · iexact Hr
    iexact Hp
  hout c := by
    rw [Pipeline.ownSems0_none]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the contents after the sixth host
    stretch, left with its output array at what its write-backs leave. -/
def reg1 : Pipeline.RegionSeg (pcfgs (F := F)) Gen.adm (pdats m) () defs₀ noVar noL noLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noL noLv 1 fun _ _ => rfl
  pre c := iprop(StableHlo.held (c : Thread nD τ) (Pipeline.ucRefs τ sig) (Gen.V7 m (outs4 m) c) ∗ Ride c)
  post c := iprop(StableHlo.held (c : Thread nD τ) (Pipeline.ucRefs τ sig) (Gen.V8 m (outsH m) c) ∗ Ride c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (ρ : Dev nD → PrngReg)

/-- The launch's ghost element: the pipeline library's, at every staging cell of both regions. -/
abbrev u0 : UR sig nD τ := initOf (Pipeline.cells cfgs cellOf_inj) (Pipeline.launchToks cfgs cellOf_inj)

theorem hu0 : (ownU (u0) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the riding state on every core: the generator register at its launch state, nothing owed. -/
theorem hRide0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts noL noLv)
    ⊢ (|={Set.univ}=> bigSep Finset.univ (fun c : Dev nD => Ride (F := F) c) : sProp 𝕄) := by
  refine Pipeline.initEach noL noLv fun c => ?_
  iintro ⟨⟨-, HO, -, Hp, -⟩, -⟩
  imodintro
  isplitl [Hp]; · iexists _; iexact Hp
  iexists ∅; iexact HO

/-- The riding state ends owing nothing. -/
theorem hRide2 (c : Dev nD) : Ride (F := F) c ⊢ (iprop(∃ W, owes (c : Thread nD τ) (0 : CellTallies nD τ sig Unit) W) : sProp 𝕄) := by
  iintro ⟨-, HO⟩; iexact HO

end Launch

/-! ## The run -/

variable (ρ : Dev nD → PrngReg)

set_option backward.isDefEq.respectTransparency.types false in
/-- THE FRAME: from any memory with zero counters every weakly fair execution of the program terminates and every
    final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m (Ix := Unit) (U := UR sig nD τ) (Lvl := ℕ) emb₁ () Launch.noVar Launch.noL Launch.noLv (fun _ _ => rfl) ρ (outsH m) (Launch.pdats m)
    0 (fun _ => (BI.emp : sProp 𝕄)) Launch.u0 Launch.hu0 (fun _ c => Launch.Ride c) (Launch.hRide0 ρ) Launch.hRide2
    (Launch.reg0 m) (fun c => .rfl) (fun c => .rfl)
    (Launch.reg1 m) (fun c => by rw [V7_outsH]; exact .rfl) (fun c => .rfl)

set_option backward.isDefEq.respectTransparency.types false in
/-- THE RUN'S VALUE: the same run, with what the result array holds at the end — the second region's output — beside
    the arguments as launched. -/
theorem run_value : θ_run defs (onTc (τ := τ) (main (F := F))) ⟨m, fun _ => 0, ρ⟩ (fun r => ∀ c : Dev nD,
      r.2.mem ((c.tc : Thread nD τ).loc main_v55) = outsH m 8 main_v55 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m (Ix := Unit) (U := UR sig nD τ) (Lvl := ℕ) emb₁ () Launch.noVar Launch.noL Launch.noLv (fun _ _ => rfl) ρ (outsH m) (Launch.pdats m)
    0 (fun _ => (BI.emp : sProp 𝕄)) Launch.u0 Launch.hu0 (fun _ c => Launch.Ride c) (Launch.hRide0 ρ) Launch.hRide2
    (Launch.reg0 m) (fun c => .rfl) (fun c => .rfl)
    (Launch.reg1 m) (fun c => by rw [V7_outsH]; exact .rfl) (fun c => .rfl)

end Cert.Kernel.Hand

end
-- ==== Proof.Frames.lean ====
/- The three frame claims: each program runs to the end on every weakly fair schedule, nothing faults, and the eight
   argument arrays end as launched.

   The kernel program, read at the word level and at the extended reals, is two pipelined regions between stretches of
   host operations; each region's body keeps an accumulator in a scratch buffer from one grid point to the next, and the
   region's invariant says what that buffer holds; no argument is written by a host operation or by a region. The
   reference is a host program: its frame is its run with the result dropped. None of the three needs the precondition. -/
import proofs.«426459_j40699110097621_1_alg».proof.Defs
import proofs.«426459_j40699110097621_1_alg».proof.Proof.Launch
import proofs.«426459_j40699110097621_1_alg».proof.Proof.Bits.Launch
import proofs.«426459_j40699110097621_1_alg».proof.Proof.Gen.ReferenceIdeal.Run
import proofs.«426459_j40699110097621_1_alg».proof.Proof.Gen.Pre_finite_inputs

noncomputable section

namespace Cert.Proof.Frames

open Idealize.ShloMosaic Idealize.SL.Sem

theorem frame_K : Cert.frame_Kernel := fun m ρ _ => Cert.Kernel.Hand.frame m ρ

theorem frame_KI : Cert.frame_KernelIdeal := fun m ρ _ => Cert.KernelIdeal.Hand.frame m ρ

theorem frame_RI : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.Spec.lean ====
/- The value both programs compute, index by index over the extended reals.

   A batch of 256 samples over a graph of 10000 nodes with 170000 directed edges (the 160000 given ones followed by one
   self loop per node). Edge e runs from node sN e to node dN e and carries the weight nrm e. One graph convolution with a
   scalar weight w and a scalar bias gb: node j of sample b receives, from every edge into j, the source node's feature
   times w times the edge's weight; then a rectifier. Two dense layers with rectifiers follow.

   The convolution's sum is written as a double sum over edges and source nodes with an indicator, the form in which a
   sum grouped by edges (a scatter of messages) and a sum grouped by source nodes (a product with the edge-weight matrix)
   both arrive. -/
import Idealize.ShloMosaic.PureOps.Ideal
import Idealize.ShloMosaic.Lib.ValueIdx

noncomputable section

open scoped BigOperators

namespace Cert.Spec

open Idealize.ShloMosaic Idealize.ShloMosaic.ValueIdx

/-- The rectifier on the extended reals. -/
def relu (x : EReal) : EReal := max x 0

/-- What node `j` of sample `b` receives: over every edge `e` and every node `i`, the message
    `(data[b, i] · w) · nrm e` when `e` runs from `i` to `j`, and nothing otherwise. -/
def agg (data : (⟨2, ![256, 10000]⟩ : Shape).Idx → EReal) (w : EReal) (sN dN : Fin 170000 → ℕ) (nrm : Fin 170000 → EReal)
    (b : Fin 256) (j : Fin 10000) : EReal :=
  ∑ e : Fin 170000, ∑ i : Fin 10000, if sN e = i.val ∧ dN e = j.val then (data (ix2 b i) * w) * nrm e else 0

/-- The convolution's output: the received sum plus the bias, rectified. -/
def conv (data : (⟨2, ![256, 10000]⟩ : Shape).Idx → EReal) (w gb : EReal) (sN dN : Fin 170000 → ℕ) (nrm : Fin 170000 → EReal)
    (b : Fin 256) (j : Fin 10000) : EReal :=
  relu (agg data w sN dN nrm b j + gb)

/-- The first dense layer at sample `b`, hidden unit `h`: the row of node features times the column of `W1`, plus
    the bias, rectified. -/
def hidden (g : Fin 256 → Fin 10000 → EReal) (W1 : (⟨2, ![10000, 1024]⟩ : Shape).Idx → EReal)
    (b1 : (⟨1, ![1024]⟩ : Shape).Idx → EReal) (b : Fin 256) (h : Fin 1024) : EReal :=
  relu ((∑ j : Fin 10000, g b j * W1 (ix2 j h)) + b1 (ix1 h))

/-- The second dense layer: the result array, index by index. -/
def mlp (g : Fin 256 → Fin 10000 → EReal) (W1 : (⟨2, ![10000, 1024]⟩ : Shape).Idx → EReal)
    (b1 : (⟨1, ![1024]⟩ : Shape).Idx → EReal) (W2 : (⟨2, ![1024, 128]⟩ : Shape).Idx → EReal)
    (b2 : (⟨1, ![128]⟩ : Shape).Idx → EReal) : (⟨2, ![256, 128]⟩ : Shape).Idx → EReal :=
  fun i => relu ((∑ h : Fin 1024, hidden g W1 b1 (i 0) h * W2 (ix2 h (i 1))) + b2 (ix1 (i 1)))

/-- The whole network: the result array as one function of the seven float arguments and the edge data. -/
def net (data : (⟨2, ![256, 10000]⟩ : Shape).Idx → EReal) (w gb : EReal)
    (W1 : (⟨2, ![10000, 1024]⟩ : Shape).Idx → EReal) (b1 : (⟨1, ![1024]⟩ : Shape).Idx → EReal)
    (W2 : (⟨2, ![1024, 128]⟩ : Shape).Idx → EReal) (b2 : (⟨1, ![128]⟩ : Shape).Idx → EReal)
    (sN dN : Fin 170000 → ℕ) (nrm : Fin 170000 → EReal) : (⟨2, ![256, 128]⟩ : Shape).Idx → EReal :=
  mlp (conv data w gb sN dN nrm) W1 b1 W2 b2

/-- The convolution as the kernel computes it, over the node axis padded to 10240: a row of the padded features times a
    column of the weighted edge matrix, plus the bias, rectified. -/
def layerK (X : (⟨2, ![256, 10240]⟩ : Shape).Idx → EReal) (M : (⟨2, ![10240, 10240]⟩ : Shape).Idx → EReal) (gb : EReal) :
    (⟨2, ![256, 10240]⟩ : Shape).Idx → EReal :=
  fun i => relu ((∑ k : Fin 10240, X (ix2 (i 0) k) * M (ix2 k (i 1))) + gb)

/-- The two dense layers as the kernel computes them, the first contraction over the padded node axis, the biases as
    one-row arrays. -/
def mlpK (G : (⟨2, ![256, 10240]⟩ : Shape).Idx → EReal) (W1p : (⟨2, ![10240, 1024]⟩ : Shape).Idx → EReal)
    (b1r : (⟨2, ![1, 1024]⟩ : Shape).Idx → EReal) (W2 : (⟨2, ![1024, 128]⟩ : Shape).Idx → EReal)
    (b2r : (⟨2, ![1, 128]⟩ : Shape).Idx → EReal) : (⟨2, ![256, 128]⟩ : Shape).Idx → EReal :=
  fun i => relu ((∑ h : Fin 1024,
      relu ((∑ j : Fin 10240, G (ix2 (i 0) j) * W1p (ix2 j h)) + b1r (ix2 (0 : Fin 1) h)) * W2 (ix2 h (i 1)))
    + b2r (ix2 (0 : Fin 1) (i 1)))

end Cert.Spec

end
-- ==== Proof.R0Value.lean ====
/- The value of the first kernel region over the extended reals: when the region ends, its output array holds, at
   (b, j), the row b of the padded features times column j of the weighted edge matrix, plus the bias, rectified.

   The body's three values are read at an index (the zero block; the old entry plus a row of the feature block times a
   column of the weight block; the entry plus the bias, rectified). The windows' blocks are read where the arrays say:
   at point t = 5·n + k the feature block is columns 2048·k … of the features, the weight block rows 2048·k … and columns
   2048·n … of the matrix. By induction on the point the accumulator's entry (p, q) after point t is the sum of the first
   2048·(k + 1) terms of entry (p, 2048·n + q) of the product; at k = 4 that is the whole sum over the 10240 terms. The
   writing points t = 5·n + 4 write back block (0, n) of that one function, and their blocks cover the array. -/
import proofs.«426459_j40699110097621_1_alg».proof.Proof.R0Defs
import proofs.«426459_j40699110097621_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The body's three values at an index, over the extended reals -/

/-- The zero block is zero everywhere. -/
theorem k0_pay1_apply (p : Fin 256) (q : Fin 2048) : (k0_pay1 (F := Ideal)) (ix2 p q) = 0 := by
  unfold k0_pay1
  simp only [shapeCast_self]
  exact Ideal.ofBits_zero_f32

theorem k0_dot_lhs_0 (i : S256x2048.Idx) (k : dot_S256x2048_S2048x2048_S256x2048_1_0_0_1_n_n.contr.Idx) :
    (dot_S256x2048_S2048x2048_S256x2048_1_0_0_1_n_n.lhsIdx i k 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem k0_dot_lhs_1 (i : S256x2048.Idx) (k : dot_S256x2048_S2048x2048_S256x2048_1_0_0_1_n_n.contr.Idx) :
    (dot_S256x2048_S2048x2048_S256x2048_1_0_0_1_n_n.lhsIdx i k 1).val = (k ⟨0, by decide⟩).val :=
  dot_S256x2048_S2048x2048_S256x2048_1_0_0_1_n_n.lhsIdx_val_of_single rfl i k
theorem k0_dot_rhs_0 (i : S256x2048.Idx) (k : dot_S256x2048_S2048x2048_S256x2048_1_0_0_1_n_n.contr.Idx) :
    (dot_S256x2048_S2048x2048_S256x2048_1_0_0_1_n_n.rhsIdx i k 0).val = (k ⟨0, by decide⟩).val :=
  dot_S256x2048_S2048x2048_S256x2048_1_0_0_1_n_n.rhsIdx_val_of_single rfl i k
theorem k0_dot_rhs_1 (i : S256x2048.Idx) (k : dot_S256x2048_S2048x2048_S256x2048_1_0_0_1_n_n.contr.Idx) :
    (dot_S256x2048_S2048x2048_S256x2048_1_0_0_1_n_n.rhsIdx i k 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The block product into a zero accumulator: entry (p, q) is row p of the left block times column q of the right. -/
theorem k0_matmul_apply (x : FVec Ideal S256x2048 .bf16) (w : FVec Ideal S2048x2048 .bf16) (p : Fin 256) (q : Fin 2048) :
    FloatOps.matmul dot_S256x2048_S2048x2048_S256x2048_1_0_0_1_n_n none x w (constant (F := Ideal) S256x2048 .f32 0x00000000#32) (ix2 p q)
      = ∑ r : Fin 2048, x (ix2 p r) * w (ix2 r q) := by
  rw [Ideal.matmul_constant_zero_apply, ← Equiv.sum_comp (contrEquiv1 dot_S256x2048_S2048x2048_S256x2048_1_0_0_1_n_n 2048 rfl rfl).symm]
  refine Finset.sum_congr rfl fun r _ => ?_
  have hk := contrEquiv1_symm_val dot_S256x2048_S2048x2048_S256x2048_1_0_0_1_n_n 2048 rfl rfl r
  have el : dot_S256x2048_S2048x2048_S256x2048_1_0_0_1_n_n.lhsIdx (ix2 p q) ((contrEquiv1 dot_S256x2048_S2048x2048_S256x2048_1_0_0_1_n_n 2048 rfl rfl).symm r) = ix2 p r := funext fun a => Fin.ext (by
    match a with
    | ⟨0, _⟩ => exact k0_dot_lhs_0 _ _
    | ⟨1, _⟩ => exact (k0_dot_lhs_1 _ _).trans hk)
  have er : dot_S256x2048_S2048x2048_S256x2048_1_0_0_1_n_n.rhsIdx (ix2 p q) ((contrEquiv1 dot_S256x2048_S2048x2048_S256x2048_1_0_0_1_n_n 2048 rfl rfl).symm r) = ix2 r q := funext fun a => Fin.ext (by
    match a with
    | ⟨0, _⟩ => exact (k0_dot_rhs_0 _ _).trans hk
    | ⟨1, _⟩ => exact k0_dot_rhs_1 _ _)
  rw [el, er]

/-- The accumulating step: the old entry plus the block product's. -/
theorem k0_pay2_apply (a : Vec Ideal S256x2048 .f32) (x : Vec Ideal S256x2048 .bf16) (w : Vec Ideal S2048x2048 .bf16)
    (p : Fin 256) (q : Fin 2048) :
    k0_pay2 a x w (ix2 p q) = a (ix2 p q) + ∑ r : Fin 2048, x (ix2 p r) * w (ix2 r q) := by
  unfold k0_pay2
  simp only [shapeCast_self]
  exact congrArg (fun z => a (ix2 p q) + z) (k0_matmul_apply x w p q)

/-- The closing step: the entry plus the bias, rectified (the change of format is the identity). -/
theorem k0_pay3_apply (a : Vec Ideal S256x2048 .f32) (b : Vec Ideal S1x1 .f32) (p : Fin 256) (q : Fin 2048) :
    k0_pay3 a b (ix2 p q) = max (a (ix2 p q) + b (ix2 (0 : Fin 1) (0 : Fin 1))) 0 := by
  unfold k0_pay3
  have e : (fun a : Fin S1x1.rank => (⟨(![0, 0] : Fin 2 → Nat) a, inpos_S1x1_p0_0 a⟩ : Fin (S1x1.size a))) = ix2 (0 : Fin 1) (0 : Fin 1) :=
    funext fun a => Fin.ext (by match a with | ⟨0, _⟩ => rfl | ⟨1, _⟩ => rfl)
  show max (a (ix2 p q) + b _) (Ideal.ofBits .f32 0x00000000#32) = _
  rw [Ideal.ofBits_zero_f32]
  exact congrArg (fun z => max (a (ix2 p q) + b z) 0) e

/-! ## Where the windows sit, and what their blocks read -/

variable (V : (c : Dev nD) → (b : Ref sig .tc) → Buf (Elt Ideal) ((c : Thread nD τ).loc b))

/-- The padded features, the weighted edge matrix and the bias, as the region finds them. -/
abbrev xarr0 (c : Dev nD) : S256x10240.Idx → EReal := V c main_v47
abbrev marr0 (c : Dev nD) : S10240x10240.Idx → EReal := V c main_v45
abbrev barr0 (c : Dev nD) : S1x1.Idx → EReal := V c main_v48

/-- At point t = 5·n + k (column tile n, contraction tile k): the feature block is block (0, k), the weight block is
    block (k, n), the bias its one block, the output block is block (0, n). -/
theorem idx_facts0 : ∀ t : Fin cfg0.N,
    win0_0.index t (0 : Fin 2) = 0 ∧ win0_0.index t (1 : Fin 2) = t.val % 5
    ∧ win0_1.index t (0 : Fin 2) = t.val % 5 ∧ win0_1.index t (1 : Fin 2) = t.val / 5
    ∧ win0_2.index t (0 : Fin 2) = 0 ∧ win0_2.index t (1 : Fin 2) = 0
    ∧ win0_3.index t (0 : Fin 2) = 0 ∧ win0_3.index t (1 : Fin 2) = t.val / 5 :=
  (by decide +kernel : ∀ t : Fin grid0.N, _)

/-- Entry (p, r) of the feature block at point t is entry (p, 2048·(t mod 5) + r) of the features. -/
theorem xblk0_read (c : Dev nD) (t : Fin cfg0.N) (p : Fin 256) (r : Fin 2048) (k : Fin 10240)
    (hk : k.val = 2048 * (t.val % 5) + r.val) :
    xblk0 V c t (ix2 p r) = xarr0 V c (ix2 p k) := by
  obtain ⟨e0, e1, -⟩ := idx_facts0 t
  unfold xblk0 iblk0
  rw [View.read_apply]
  show V c main_v47 (((cfg0.win 0).blk t).view.emb (ix2 p r)) = V c main_v47 (ix2 p k)
  congr 1
  funext a
  apply Fin.ext
  match a with
  | ⟨0, _⟩ => show win0_0.index t (0 : Fin 2) * 256 + 1 * p.val = p.val; omega
  | ⟨1, _⟩ => show win0_0.index t (1 : Fin 2) * 2048 + 1 * r.val = k.val; omega

/-- Entry (r, q) of the weight block at point t is entry (2048·(t mod 5) + r, 2048·(t div 5) + q) of the matrix. -/
theorem mblk0_read (c : Dev nD) (t : Fin cfg0.N) (r : Fin 2048) (q : Fin 2048) (k j : Fin 10240)
    (hk : k.val = 2048 * (t.val % 5) + r.val) (hj : j.val = 2048 * (t.val / 5) + q.val) :
    mblk0 V c t (ix2 r q) = marr0 V c (ix2 k j) := by
  obtain ⟨-, -, e2, e3, -⟩ := idx_facts0 t
  unfold mblk0 iblk0
  rw [View.read_apply]
  show V c main_v45 (((cfg0.win 1).blk t).view.emb (ix2 r q)) = V c main_v45 (ix2 k j)
  congr 1
  funext a
  apply Fin.ext
  match a with
  | ⟨0, _⟩ => show win0_1.index t (0 : Fin 2) * 2048 + 1 * r.val = k.val; omega
  | ⟨1, _⟩ => show win0_1.index t (1 : Fin 2) * 2048 + 1 * q.val = j.val; omega

/-- The bias block is the bias. -/
theorem bblk0_read (c : Dev nD) (t : Fin cfg0.N) :
    bblk0 V c t (ix2 (0 : Fin 1) (0 : Fin 1)) = barr0 V c (ix2 (0 : Fin 1) (0 : Fin 1)) := by
  obtain ⟨-, -, -, -, e4, e5, -⟩ := idx_facts0 t
  unfold bblk0 iblk0
  rw [View.read_apply]
  show V c main_v48 (((cfg0.win 2).blk t).view.emb (ix2 (0 : Fin 1) (0 : Fin 1))) = V c main_v48 (ix2 (0 : Fin 1) (0 : Fin 1))
  congr 1
  funext a
  apply Fin.ext
  match a with
  | ⟨0, _⟩ => show win0_2.index t (0 : Fin 2) * 1 + 1 * 0 = 0; omega
  | ⟨1, _⟩ => show win0_2.index t (1 : Fin 2) * 1 + 1 * 0 = 0; omega

/-! ## The accumulator after every point -/

/-- Term k of entry (p, j) of the product of the features and the matrix; zero past the contraction extent. -/
def term0 (c : Dev nD) (p : Fin 256) (j : Fin 10240) (k : ℕ) : EReal :=
  if h : k < 10240 then xarr0 V c (ix2 p ⟨k, h⟩) * marr0 V c (ix2 ⟨k, h⟩ j) else 0

/-- The block product at point t, entry (p, q), is the stretch of 2048 terms from 2048·(t mod 5) of entry
    (p, 2048·(t div 5) + q) of the whole product. -/
theorem blocksum0 (c : Dev nD) (t : Fin cfg0.N) (p : Fin 256) (q : Fin 2048) (j : Fin 10240)
    (hj : j.val = 2048 * (t.val / 5) + q.val) :
    ∑ r : Fin 2048, xblk0 V c t (ix2 p r) * mblk0 V c t (ix2 r q)
      = ∑ r ∈ Finset.range 2048, term0 V c p j (2048 * (t.val % 5) + r) := by
  rw [Finset.sum_range]
  refine Finset.sum_congr rfl fun r _ => ?_
  have hr : r.val < 2048 := r.isLt
  have hm : t.val % 5 < 5 := Nat.mod_lt _ (by decide)
  have hlt : 2048 * (t.val % 5) + r.val < 10240 := by omega
  unfold term0
  rw [dif_pos hlt, xblk0_read V c t p r ⟨_, hlt⟩ rfl, mblk0_read V c t r q ⟨_, hlt⟩ j rfl hj]

/-- After point n the accumulator's entry (p, q) is the sum of the first 2048·(n mod 5 + 1) terms of entry
    (p, 2048·(n div 5) + q) of the product: the contraction tiles 0 … n mod 5 of the column tile n div 5. Sums over
    the extended reals need no finiteness: addition is associative and commutative there. -/
theorem acc0_apply (c : Dev nD) : ∀ (n : ℕ) (hn : n < cfg0.N) (p : Fin 256) (q : Fin 2048) (j : Fin 10240),
    j.val = 2048 * (n / 5) + q.val →
    acc0 V c n hn (ix2 p q) = ∑ k ∈ Finset.range (2048 * (n % 5 + 1)), term0 V c p j k := by
  intro n
  induction n with
  | zero =>
    intro hn p q j hj
    refine (congrFun (acc0_first V c ⟨0, hn⟩ rfl) (ix2 p q)).trans ?_
    refine (k0_pay2_apply (k0_pay1 (F := Ideal)) (xblk0 V c ⟨0, hn⟩) (mblk0 V c ⟨0, hn⟩) p q).trans ?_
    rw [k0_pay1_apply, zero_add, blocksum0 V c ⟨0, hn⟩ p q j hj]
    show ∑ r ∈ Finset.range 2048, term0 V c p j (2048 * (0 % 5) + r) = _
    simp only [Nat.zero_mod, Nat.mul_zero, Nat.zero_add, Nat.mul_one]
  | succ n ih =>
    intro hn p q j hj
    by_cases h0 : (n + 1) % 5 = 0
    · refine (congrFun (acc0_first V c ⟨n + 1, hn⟩ h0) (ix2 p q)).trans ?_
      refine (k0_pay2_apply (k0_pay1 (F := Ideal)) (xblk0 V c ⟨n + 1, hn⟩) (mblk0 V c ⟨n + 1, hn⟩) p q).trans ?_
      rw [k0_pay1_apply, zero_add, blocksum0 V c ⟨n + 1, hn⟩ p q j hj]
      show ∑ r ∈ Finset.range 2048, term0 V c p j (2048 * ((n + 1) % 5) + r) = _
      rw [h0]
      simp only [Nat.mul_zero, Nat.zero_add, Nat.mul_one]
    · refine (congrFun (acc0_next V c ⟨n + 1, hn⟩ h0) (ix2 p q)).trans ?_
      refine (k0_pay2_apply (acc0 V c n (Nat.lt_of_succ_lt hn)) (xblk0 V c ⟨n + 1, hn⟩) (mblk0 V c ⟨n + 1, hn⟩) p q).trans ?_
      rw [blocksum0 V c ⟨n + 1, hn⟩ p q j hj, ih (Nat.lt_of_succ_lt hn) p q j (by omega)]
      show _ + ∑ r ∈ Finset.range 2048, term0 V c p j (2048 * ((n + 1) % 5) + r) = _
      have e1 : (n + 1) % 5 = n % 5 + 1 := by omega
      rw [e1, show 2048 * (n % 5 + 1 + 1) = 2048 * (n % 5 + 1) + 2048 from by omega, Finset.sum_range_add]

/-- The output block at a point that writes it back (t mod 5 = 4): entry (p, q) is entry (p, 2048·(t div 5) + q) of
    the convolution as the kernel computes it. -/
theorem outb0_apply (c : Dev nD) (t : Fin cfg0.N) (h4 : t.val % 5 = 4) (p : Fin 256) (q : Fin 2048) (j : Fin 10240)
    (hj : j.val = 2048 * (t.val / 5) + q.val) :
    outb0 V c t (ix2 p q)
      = Cert.Spec.layerK (xarr0 V c) (marr0 V c) (barr0 V c (ix2 (0 : Fin 1) (0 : Fin 1))) (ix2 p j) := by
  unfold outb0
  refine (k0_pay3_apply (acc0 V c t.val t.isLt) (bblk0 V c t) p q).trans ?_
  rw [acc0_apply V c t.val t.isLt p q j hj, bblk0_read V c t, h4]
  have hs : ∑ k ∈ Finset.range (2048 * (4 + 1)), term0 V c p j k
      = ∑ k : Fin 10240, xarr0 V c (ix2 p k) * marr0 V c (ix2 k j) := by
    rw [show 2048 * (4 + 1) = 10240 from rfl, Finset.sum_range]
    refine Finset.sum_congr rfl fun k _ => ?_
    unfold term0
    rw [dif_pos k.isLt]
  rw [hs]
  rfl

/-! ## From the blocks to the array -/

/-- What a writing point (t mod 5 = 4) writes back is its block of the convolution as the kernel computes it. -/
theorem flushed0_eq (c : Dev nD) (t : Fin cfg0.N) (hf : (cfg0.win 3).flush t = true) :
    (dat0 (F := Ideal) V c).flushed 3 t
      = ((cfg0.win 3).blk t).view.read (Elt Ideal)
          (Cert.Spec.layerK (xarr0 V c) (marr0 V c) (barr0 V c (ix2 (0 : Fin 1) (0 : Fin 1)))) := by
  have h4 : t.val % 5 = 4 := (flush0_3 t).mp hf
  have hN : cfg0.N = 25 := N_0
  have ht : t.val < 25 := hN ▸ t.isLt
  obtain ⟨-, -, -, -, -, -, e6, e7⟩ := idx_facts0 t
  show (cfg0.win 3).cut (grid0.coords t) ((dat0 (F := Ideal) V c).after 3 t) = _
  rw [after0_3]
  funext y
  have hy0 : (y 0).val < 256 := (y 0).isLt
  have hy1 : (y 1).val < 2048 := (y 1).isLt
  have hj : 2048 * (t.val / 5) + (y 1).val < 10240 := by omega
  rw [View.read_apply]
  show outb0 V c t ((cfg0.win 3).xinj (grid0.coords t) y)
    = Cert.Spec.layerK (xarr0 V c) (marr0 V c) (barr0 V c (ix2 (0 : Fin 1) (0 : Fin 1))) (((cfg0.win 3).blk t).view.emb y)
  have hx : (cfg0.win 3).xinj (grid0.coords t) y = ix2 (⟨(y 0).val, hy0⟩ : Fin 256) (⟨(y 1).val, hy1⟩ : Fin 2048) :=
    funext fun a => Fin.ext (by
      match a with
      | ⟨0, _⟩ => rfl
      | ⟨1, _⟩ => rfl)
  have he : ((cfg0.win 3).blk t).view.emb y
      = ix2 (⟨(y 0).val, hy0⟩ : Fin 256) (⟨2048 * (t.val / 5) + (y 1).val, hj⟩ : Fin 10240) :=
    funext fun a => Fin.ext (by
      match a with
      | ⟨0, _⟩ => show win0_3.index t (0 : Fin 2) * 256 + 1 * (y 0).val = (y 0).val; omega
      | ⟨1, _⟩ => show win0_3.index t (1 : Fin 2) * 2048 + 1 * (y 1).val = 2048 * (t.val / 5) + (y 1).val; omega)
  rw [hx, he]
  exact outb0_apply V c t h4 ⟨(y 0).val, hy0⟩ ⟨(y 1).val, hy1⟩ ⟨2048 * (t.val / 5) + (y 1).val, hj⟩ rfl

/-- An index of the output array lies in point t's block iff each coordinate lies in the block's range. -/
theorem mem_blk0_3 (t : Fin cfg0.N) (i : S256x10240.Idx) :
    i ∈ ((cfg0.win 3).blk t).view.set
      ↔ ∀ a : Fin 2, win0_3.index t a * S256x2048.size a ≤ (i a).val
          ∧ (i a).val < win0_3.index t a * S256x2048.size a + S256x2048.size a := by
  show i ∈ ((View.whole main_v49).slice (win0_3.rect t)).set ↔ _
  rw [View.set_slice_whole, Rect.mem_set_unit]
  exact Iff.rfl

/-- Every index (b, j) of the output array lies in the block of the writing point of its column tile,
    t = 5·(j div 2048) + 4. -/
theorem cover0_3 (i : S256x10240.Idx) :
    ∃ t : Fin cfg0.N, (cfg0.win 3).flush t = true ∧ i ∈ ((cfg0.win 3).blk t).view.set := by
  have hi0 : (i 0).val < 256 := (i 0).isLt
  have hi1 : (i 1).val < 10240 := (i 1).isLt
  have hN : cfg0.N = 25 := N_0
  have hlt : 5 * ((i 1).val / 2048) + 4 < cfg0.N := by rw [hN]; omega
  have hdiv : (5 * ((i 1).val / 2048) + 4) / 5 = (i 1).val / 2048 := by omega
  obtain ⟨-, -, -, -, -, -, e6, e7⟩ := idx_facts0 ⟨5 * ((i 1).val / 2048) + 4, hlt⟩
  refine ⟨⟨5 * ((i 1).val / 2048) + 4, hlt⟩, (flush0_3 _).mpr (by show (5 * ((i 1).val / 2048) + 4) % 5 = 4; omega), ?_⟩
  rw [mem_blk0_3]
  intro a
  match a with
  | ⟨0, _⟩ =>
    show win0_3.index ⟨5 * ((i 1).val / 2048) + 4, hlt⟩ (0 : Fin 2) * 256 ≤ (i 0).val
      ∧ (i 0).val < win0_3.index ⟨5 * ((i 1).val / 2048) + 4, hlt⟩ (0 : Fin 2) * 256 + 256
    omega
  | ⟨1, _⟩ =>
    show win0_3.index ⟨5 * ((i 1).val / 2048) + 4, hlt⟩ (1 : Fin 2) * 2048 ≤ (i 1).val
      ∧ (i 1).val < win0_3.index ⟨5 * ((i 1).val / 2048) + 4, hlt⟩ (1 : Fin 2) * 2048 + 2048
    have e7' : win0_3.index ⟨5 * ((i 1).val / 2048) + 4, hlt⟩ (1 : Fin 2) = (i 1).val / 2048 := e7.trans hdiv
    omega

/-- THE REGION'S VALUE: when the region ends, the output array holds the convolution as the kernel computes it — entry
    (b, j) is the row b of the padded features times column j of the weighted edge matrix, plus the bias, rectified. -/
theorem arr0_out (c : Dev nD) :
    ((dat0 (F := Ideal) V c).arrAt 3 cfg0.N : S256x10240.Idx → EReal)
      = Cert.Spec.layerK (V c main_v47) (V c main_v45) (V c main_v48 (ix2 (0 : Fin 1) (0 : Fin 1))) :=
  (dat0 (F := Ideal) V c).arrAt_eq_of_cover 3
    (Cert.Spec.layerK (xarr0 V c) (marr0 V c) (barr0 V c (ix2 (0 : Fin 1) (0 : Fin 1))))
    (flushed0_eq V c) cover0_3

end Cert.KernelIdeal.Hand

end
-- ==== Proof.Algebra.lean ====
/- Finite sums over the extended reals, as the two programs group them.

   The extended reals are not a ring (multiplication does not distribute over addition at the infinities), so every
   regrouping that needs distributivity is carried out on real numbers and carried back along the inclusion of the reals,
   which respects finite sums and products. Three regroupings are proved: a sum over source nodes of a feature times a
   row of the edge-weight matrix equals the sum over edges of the messages; a sum over 10240 padded positions whose last
   240 terms vanish equals the sum over the first 10000; and a sum over 10240 positions equals the sum of five blocks of
   2048, which is also what an accumulator started at zero holds after five additions. -/
import proofs.«426459_j40699110097621_1_alg».proof.Proof.Spec
import Mathlib.Data.EReal.Basic
import Mathlib.Data.EReal.Operations
import Mathlib.Algebra.BigOperators.Fin
import Mathlib.Algebra.BigOperators.Ring.Finset
import Mathlib.Data.Fintype.BigOperators
import Mathlib.Logic.Equiv.Fin.Basic

noncomputable section

open scoped BigOperators

namespace Cert.Algebra

/-! ### The inclusion of the reals respects finite sums -/

/-- The inclusion of the reals into the extended reals carries a finite sum to the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Grouping the convolution by source nodes or by edges -/

/-- Over the reals: the feature row times the weighted column of the edge-weight matrix, whose entry at (i, j) is the
    sum of the weights of the edges from i to j, is the sum over all edges and all nodes of the indicated messages. -/
theorem regroup_real {E I : Type} [Fintype E] [Fintype I] [DecidableEq I] (s d : E → I) (j : I) (x : I → ℝ) (w : ℝ)
    (n : E → ℝ) :
    (∑ i : I, x i * (w * ∑ e ∈ Finset.univ.filter (fun e => s e = i ∧ d e = j), n e))
      = ∑ e : E, ∑ i : I, if s e = i ∧ d e = j then (x i * w) * n e else 0 := by
  rw [Finset.sum_comm]
  refine Finset.sum_congr rfl (fun i _ => ?_)
  rw [← Finset.sum_filter, ← mul_assoc, Finset.mul_sum]

/-- The same over the extended reals, all the entries being real. -/
theorem regroup {E I : Type} [Fintype E] [Fintype I] [DecidableEq I] (s d : E → I) (j : I) (x : I → ℝ) (w : ℝ)
    (n : E → ℝ) :
    (∑ i : I, (x i : EReal) * ((w : EReal) * ∑ e ∈ Finset.univ.filter (fun e => s e = i ∧ d e = j), (n e : EReal)))
      = ∑ e : E, ∑ i : I, if s e = i ∧ d e = j then ((x i : EReal) * (w : EReal)) * (n e : EReal) else 0 := by
  have hL : ∀ i : I,
      (x i : EReal) * ((w : EReal) * ∑ e ∈ Finset.univ.filter (fun e => s e = i ∧ d e = j), (n e : EReal))
        = ((x i * (w * ∑ e ∈ Finset.univ.filter (fun e => s e = i ∧ d e = j), n e) : ℝ) : EReal) := by
    intro i
    rw [← coe_sum, ← EReal.coe_mul, ← EReal.coe_mul]
  have hR : ∀ (e : E) (i : I),
      (if s e = i ∧ d e = j then ((x i : EReal) * (w : EReal)) * (n e : EReal) else 0)
        = (((if s e = i ∧ d e = j then (x i * w) * n e else 0) : ℝ) : EReal) := by
    intro e i
    split_ifs
    · rw [EReal.coe_mul, EReal.coe_mul]
    · rw [EReal.coe_zero]
  calc (∑ i : I, (x i : EReal) * ((w : EReal) * ∑ e ∈ Finset.univ.filter (fun e => s e = i ∧ d e = j), (n e : EReal)))
      = ∑ i : I, ((x i * (w * ∑ e ∈ Finset.univ.filter (fun e => s e = i ∧ d e = j), n e) : ℝ) : EReal) :=
        Finset.sum_congr rfl (fun i _ => hL i)
    _ = ((∑ i : I, x i * (w * ∑ e ∈ Finset.univ.filter (fun e => s e = i ∧ d e = j), n e) : ℝ) : EReal) :=
        (coe_sum _ _).symm
    _ = ((∑ e : E, ∑ i : I, if s e = i ∧ d e = j then (x i * w) * n e else 0 : ℝ) : EReal) := by
        rw [regroup_real]
    _ = ∑ e : E, ((∑ i : I, if s e = i ∧ d e = j then (x i * w) * n e else 0 : ℝ) : EReal) := coe_sum _ _
    _ = ∑ e : E, ∑ i : I, (((if s e = i ∧ d e = j then (x i * w) * n e else 0) : ℝ) : EReal) :=
        Finset.sum_congr rfl (fun e _ => coe_sum _ _)
    _ = ∑ e : E, ∑ i : I, if s e = i ∧ d e = j then ((x i : EReal) * (w : EReal)) * (n e : EReal) else 0 :=
        Finset.sum_congr rfl (fun e _ => Finset.sum_congr rfl (fun i _ => (hR e i).symm))

/-- The same with the matrix entry written as a sum started from zero. -/
theorem regroup_zero_add {E I : Type} [Fintype E] [Fintype I] [DecidableEq I] (s d : E → I) (j : I) (x : I → ℝ) (w : ℝ)
    (n : E → ℝ) :
    (∑ i : I, (x i : EReal) *
        ((w : EReal) * ((0 : EReal) + ∑ e ∈ Finset.univ.filter (fun e => s e = i ∧ d e = j), (n e : EReal))))
      = ∑ e : E, ∑ i : I, if s e = i ∧ d e = j then ((x i : EReal) * (w : EReal)) * (n e : EReal) else 0 := by
  simp only [zero_add]
  exact regroup s d j x w n

/-! ### Padded positions contribute nothing -/

/-- A sum over 10240 positions whose terms vanish from position 10000 on is the sum over the first 10000. -/
theorem sum_pad (f : Fin 10240 → EReal) (h : ∀ k : Fin 10240, 10000 ≤ k.val → f k = 0) :
    ∑ k : Fin 10240, f k = ∑ k : Fin 10000, f ⟨k.val, by omega⟩ := by
  have hle : 10000 ≤ 10240 := by omega
  have hmap : ∑ k : Fin 10000, f ⟨k.val, by omega⟩
      = ∑ k ∈ (Finset.univ : Finset (Fin 10000)).map (Fin.castLEEmb hle), f k := by
    rw [Finset.sum_map]
    rfl
  rw [hmap]
  symm
  refine Finset.sum_subset (Finset.subset_univ _) (fun k _ hk => h k ?_)
  by_contra hlt
  have hlt' : k.val < 10000 := by omega
  exact hk (Finset.mem_map.2 ⟨⟨k.val, hlt'⟩, Finset.mem_univ _, Fin.ext rfl⟩)

/-- Zero annihilates every extended real on either side, the infinities included. -/
theorem mul_zero_sum (x : EReal) : x * 0 = 0 ∧ 0 * x = 0 := ⟨mul_zero x, zero_mul x⟩

/-- A row of 10240 entries against a column whose entries vanish from position 10000 on: only the first 10000
    products count, whatever the row holds in the padded positions. -/
theorem sum_pad_mul (g : Fin 10240 → EReal) (W : Fin 10240 → EReal)
    (hW : ∀ k : Fin 10240, 10000 ≤ k.val → W k = 0) :
    ∑ k : Fin 10240, g k * W k = ∑ k : Fin 10000, g ⟨k.val, by omega⟩ * W ⟨k.val, by omega⟩ :=
  sum_pad (fun k => g k * W k) (fun k hk => by rw [hW k hk, mul_zero])

/-- The mirror case: the row vanishes from position 10000 on, the column is arbitrary there. -/
theorem sum_pad_mul_left (g : Fin 10240 → EReal) (W : Fin 10240 → EReal)
    (hg : ∀ k : Fin 10240, 10000 ≤ k.val → g k = 0) :
    ∑ k : Fin 10240, g k * W k = ∑ k : Fin 10000, g ⟨k.val, by omega⟩ * W ⟨k.val, by omega⟩ :=
  sum_pad (fun k => g k * W k) (fun k hk => by rw [hg k hk, zero_mul])

/-! ### Five blocks of 2048 -/

/-- A sum over 10240 positions is the sum over five blocks of the sums over the 2048 positions of each block. -/
theorem sum_blocks (f : Fin 10240 → EReal) :
    ∑ k : Fin 10240, f k = ∑ t : Fin 5, ∑ r : Fin 2048, f ⟨2048 * t.val + r.val, by omega⟩ := by
  have hprod : ∑ t : Fin 5, ∑ r : Fin 2048, f ⟨2048 * t.val + r.val, by omega⟩
      = ∑ p : Fin 5 × Fin 2048, f ⟨2048 * p.1.val + p.2.val, by omega⟩ :=
    (Fintype.sum_prod_type (fun p : Fin 5 × Fin 2048 => f ⟨2048 * p.1.val + p.2.val, by omega⟩)).symm
  rw [hprod]
  symm
  refine Fintype.sum_equiv (finProdFinEquiv : Fin 5 × Fin 2048 ≃ Fin 10240) _ _ (fun p => ?_)
  congr 1
  apply Fin.ext
  show 2048 * p.1.val + p.2.val = p.2.val + 2048 * p.1.val
  omega

/-- What an accumulator started at zero holds after the five block sums have been added one by one. -/
theorem acc_five (B : Fin 5 → EReal) : ((((0 + B 0) + B 1) + B 2) + B 3) + B 4 = ∑ t : Fin 5, B t := by
  rw [Fin.sum_univ_five, zero_add]

/-- The accumulator as a recursion on the step: zero plus the first term, then one more term at every step. -/
def accN (B : ℕ → EReal) : ℕ → EReal
  | 0 => 0 + B 0
  | n + 1 => accN B n + B (n + 1)

/-- After step n the accumulator holds the sum of the terms 0 … n. -/
theorem accN_eq (B : ℕ → EReal) (n : ℕ) : accN B n = ∑ t ∈ Finset.range (n + 1), B t := by
  induction n with
  | zero => simp [accN]
  | succ n ih => rw [accN, ih, Finset.sum_range_succ _ (n + 1)]

/-- After the fifth step the accumulator holds the sum over the five blocks. -/
theorem accN_four (B : ℕ → EReal) : accN B 4 = ∑ t : Fin 5, B t.val := by
  rw [accN_eq, Fin.sum_univ_eq_sum_range]

/-- The block sums accumulated over the five steps give the whole sum over 10240 positions. -/
theorem accN_blocks (f : Fin 10240 → EReal) (B : ℕ → EReal)
    (hB : ∀ t : Fin 5, B t.val = ∑ r : Fin 2048, f ⟨2048 * t.val + r.val, by omega⟩) :
    accN B 4 = ∑ k : Fin 10240, f k := by
  rw [accN_four, sum_blocks]
  exact Finset.sum_congr rfl (fun t _ => hB t)

/-! ### The rectifier -/

/-- The rectifier is the larger of its argument and zero. -/
theorem relu_def (x : EReal) : Cert.Spec.relu x = max x 0 := rfl

/-- The rectifier's values are never negative. -/
theorem relu_nonneg (x : EReal) : 0 ≤ Cert.Spec.relu x := le_max_right x 0

/-- The rectifier fixes what is not negative. -/
theorem relu_of_nonneg {x : EReal} (h : 0 ≤ x) : Cert.Spec.relu x = x := max_eq_left h

/-- The rectifier sends what is not positive to zero. -/
theorem relu_of_nonpos {x : EReal} (h : x ≤ 0) : Cert.Spec.relu x = 0 := max_eq_right h

/-- The larger of the two taken in the other order is the same rectifier. -/
theorem relu_eq_max_zero_left (x : EReal) : Cert.Spec.relu x = max 0 x := max_comm x 0

/-- The rectifier of zero is zero. -/
theorem relu_zero : Cert.Spec.relu 0 = 0 := max_self 0

/-! ### The regrouping over any incidence relation -/

/-- Over the reals, for any relation between edges and nodes: the feature row times the weighted sums of the weights of
    the related edges is the sum over all edges and all nodes of the messages of the related pairs. -/
theorem regroup_pred_real {E I : Type} [Fintype E] [Fintype I] (P : E → I → Prop) [∀ e i, Decidable (P e i)]
    (x : I → ℝ) (w : ℝ) (n : E → ℝ) :
    (∑ i : I, x i * (w * ∑ e ∈ Finset.univ.filter (fun e => P e i), n e))
      = ∑ e : E, ∑ i : I, if P e i then (x i * w) * n e else 0 := by
  rw [Finset.sum_comm]
  refine Finset.sum_congr rfl (fun i _ => ?_)
  rw [← Finset.sum_filter, ← mul_assoc, Finset.mul_sum]

/-- The same over the extended reals, all the entries being real; the decision procedures of the relation are whichever
    the two sides carry. -/
theorem regroup_pred {E I : Type} [Fintype E] [Fintype I] (P : E → I → Prop)
    {dF : ∀ i, DecidablePred (fun e => P e i)} {dI : ∀ e i, Decidable (P e i)}
    (x : I → ℝ) (w : ℝ) (n : E → ℝ) :
    (∑ i : I, (x i : EReal) *
        ((w : EReal) * ∑ e ∈ @Finset.filter E (fun e => P e i) (dF i) Finset.univ, (n e : EReal)))
      = ∑ e : E, ∑ i : I, @ite EReal (P e i) (dI e i) (((x i : EReal) * (w : EReal)) * (n e : EReal)) 0 := by
  have hd : dF = fun i e => dI e i := Subsingleton.elim _ _
  subst hd
  have hL : ∀ i : I,
      (x i : EReal) * ((w : EReal) * ∑ e ∈ Finset.univ.filter (fun e => P e i), (n e : EReal))
        = ((x i * (w * ∑ e ∈ Finset.univ.filter (fun e => P e i), n e) : ℝ) : EReal) := by
    intro i
    rw [← coe_sum, ← EReal.coe_mul, ← EReal.coe_mul]
  have hR : ∀ (e : E) (i : I),
      (if P e i then ((x i : EReal) * (w : EReal)) * (n e : EReal) else 0)
        = (((if P e i then (x i * w) * n e else 0) : ℝ) : EReal) := by
    intro e i
    split_ifs
    · rw [EReal.coe_mul, EReal.coe_mul]
    · rw [EReal.coe_zero]
  calc (∑ i : I, (x i : EReal) * ((w : EReal) * ∑ e ∈ Finset.univ.filter (fun e => P e i), (n e : EReal)))
      = ∑ i : I, ((x i * (w * ∑ e ∈ Finset.univ.filter (fun e => P e i), n e) : ℝ) : EReal) :=
        Finset.sum_congr rfl (fun i _ => hL i)
    _ = ((∑ i : I, x i * (w * ∑ e ∈ Finset.univ.filter (fun e => P e i), n e) : ℝ) : EReal) :=
        (coe_sum _ _).symm
    _ = ((∑ e : E, ∑ i : I, if P e i then (x i * w) * n e else 0 : ℝ) : EReal) := by
        rw [regroup_pred_real]
    _ = ∑ e : E, ((∑ i : I, if P e i then (x i * w) * n e else 0 : ℝ) : EReal) := coe_sum _ _
    _ = ∑ e : E, ∑ i : I, (((if P e i then (x i * w) * n e else 0) : ℝ) : EReal) :=
        Finset.sum_congr rfl (fun e _ => coe_sum _ _)
    _ = ∑ e : E, ∑ i : I, if P e i then ((x i : EReal) * (w : EReal)) * (n e : EReal) else 0 :=
        Finset.sum_congr rfl (fun e _ => Finset.sum_congr rfl (fun i _ => (hR e i).symm))

/-- The same with each weighted sum started from zero. -/
theorem regroup_pred_zero_add {E I : Type} [Fintype E] [Fintype I] (P : E → I → Prop)
    {dF : ∀ i, DecidablePred (fun e => P e i)} {dI : ∀ e i, Decidable (P e i)}
    (x : I → ℝ) (w : ℝ) (n : E → ℝ) :
    (∑ i : I, (x i : EReal) *
        ((w : EReal) * ((0 : EReal) + ∑ e ∈ @Finset.filter E (fun e => P e i) (dF i) Finset.univ, (n e : EReal))))
      = ∑ e : E, ∑ i : I, @ite EReal (P e i) (dI e i) (((x i : EReal) * (w : EReal)) * (n e : EReal)) 0 := by
  simp only [zero_add]
  exact regroup_pred P x w n

/-- The same for entries given as extended reals that are real numbers. -/
theorem regroup_pred_of_real {E I : Type} [Fintype E] [Fintype I] (P : E → I → Prop)
    {dF : ∀ i, DecidablePred (fun e => P e i)} {dI : ∀ e i, Decidable (P e i)}
    (X : I → EReal) (w : EReal) (N : E → EReal)
    (hX : ∀ i, ∃ r : ℝ, X i = r) (hw : ∃ r : ℝ, w = r) (hN : ∀ e, ∃ r : ℝ, N e = r) :
    (∑ i : I, X i * (w * ((0 : EReal) + ∑ e ∈ @Finset.filter E (fun e => P e i) (dF i) Finset.univ, N e)))
      = ∑ e : E, ∑ i : I, @ite EReal (P e i) (dI e i) ((X i * w) * N e) 0 := by
  choose xr hxr using hX
  obtain ⟨wr, rfl⟩ := hw
  choose nr hnr using hN
  obtain rfl : X = fun i => (xr i : EReal) := funext hxr
  obtain rfl : N = fun e => (nr e : EReal) := funext hnr
  exact regroup_pred_zero_add P xr wr nr

/-- An extended real that is neither infinity is a real number. -/
theorem exists_real_of_finite {x : EReal} (h1 : x ≠ ⊤) (h2 : x ≠ ⊥) : ∃ r : ℝ, x = r :=
  ⟨x.toReal, (EReal.coe_toReal h1 h2).symm⟩

/-! ### The padded product against the weighted edge matrix is the received sum -/

open Idealize.ShloMosaic Idealize.ShloMosaic.ValueIdx in
/-- A row of the features padded with zeros to 10240 nodes, times a column of the weighted edge matrix whose entry at
    (i, j) is the weight w times the sum (started from zero) of the weights of the edges from i to j, is what node j
    receives: the padded positions contribute nothing, and the rest regroups from source nodes to edges. -/
theorem conv_sum
    (data : (⟨2, ![256, 10000]⟩ : Shape).Idx → EReal) (w : EReal) (sN dN : Fin 170000 → ℕ) (nrm : Fin 170000 → EReal)
    (Xp : (⟨2, ![256, 10240]⟩ : Shape).Idx → EReal) (Mw : (⟨2, ![10240, 10240]⟩ : Shape).Idx → EReal)
    (hdata : ∀ i, ∃ r : ℝ, data i = r) (hw : ∃ r : ℝ, w = r) (hnrm : ∀ e, ∃ r : ℝ, nrm e = r)
    (hXp : ∀ (b : Fin 256) (k : Fin 10240),
      Xp (ix2 b k) = if h : k.val < 10000 then data (ix2 b ⟨k.val, h⟩) else 0)
    (hMw : ∀ i j : Fin 10240, Mw (ix2 i j)
      = w * (0 + ∑ e ∈ Finset.univ.filter (fun e : Fin 170000 => sN e = i.val ∧ dN e = j.val), nrm e))
    (b : Fin 256) (j : Fin 10000) :
    (∑ k : Fin 10240, Xp (ix2 b k) * Mw (ix2 k ⟨j.val, by omega⟩)) = Cert.Spec.agg data w sN dN nrm b j := by
  rw [sum_pad_mul_left (fun k => Xp (ix2 b k)) (fun k => Mw (ix2 k ⟨j.val, by omega⟩))
    (fun k hk => by rw [hXp b k, dif_neg (by omega)])]
  have hterm : ∀ k : Fin 10000,
      Xp (ix2 b ⟨k.val, by omega⟩) * Mw (ix2 (⟨k.val, by omega⟩ : Fin 10240) ⟨j.val, by omega⟩)
        = data (ix2 b k) * (w * (0 + ∑ e ∈ Finset.univ.filter
            (fun e : Fin 170000 => sN e = k.val ∧ dN e = j.val), nrm e)) := by
    intro k
    rw [hXp b ⟨k.val, by omega⟩, hMw, dif_pos k.isLt]
  rw [Finset.sum_congr rfl (fun k _ => hterm k)]
  exact regroup_pred_of_real (fun (e : Fin 170000) (i : Fin 10000) => sN e = i.val ∧ dN e = j.val)
    (fun i => data (ix2 b i)) w nrm (fun i => hdata _) hw hnrm

/-! ### The first dense layer over the padded node axis -/

open Idealize.ShloMosaic Idealize.ShloMosaic.ValueIdx in
/-- A row of 10240 node features against a column of the first dense layer's matrix padded with zero rows to 10240:
    only the first 10000 products count, whatever the features hold at the padded nodes. -/
theorem dense_sum
    (G : (⟨2, ![256, 10240]⟩ : Shape).Idx → EReal) (W1p : (⟨2, ![10240, 1024]⟩ : Shape).Idx → EReal)
    (g : Fin 256 → Fin 10000 → EReal) (W1 : (⟨2, ![10000, 1024]⟩ : Shape).Idx → EReal)
    (hG : ∀ (b : Fin 256) (j : Fin 10000), G (ix2 b ⟨j.val, by omega⟩) = g b j)
    (hW1p : ∀ (k : Fin 10240) (h : Fin 1024),
      W1p (ix2 k h) = if hk : k.val < 10000 then W1 (ix2 ⟨k.val, hk⟩ h) else 0)
    (b : Fin 256) (h : Fin 1024) :
    (∑ j : Fin 10240, G (ix2 b j) * W1p (ix2 j h)) = ∑ j : Fin 10000, g b j * W1 (ix2 j h) := by
  rw [sum_pad_mul (fun j => G (ix2 b j)) (fun j => W1p (ix2 j h))
    (fun k hk => by rw [hW1p k h, dif_neg (by omega)])]
  refine Finset.sum_congr rfl (fun j _ => ?_)
  rw [hG b j, hW1p ⟨j.val, by omega⟩ h, dif_pos j.isLt]

open Idealize.ShloMosaic Idealize.ShloMosaic.ValueIdx in
/-- The first dense layer over the padded node axis, with its bias read from a one-row array, is the hidden unit. -/
theorem hidden_padded
    (G : (⟨2, ![256, 10240]⟩ : Shape).Idx → EReal) (W1p : (⟨2, ![10240, 1024]⟩ : Shape).Idx → EReal)
    (b1r : (⟨2, ![1, 1024]⟩ : Shape).Idx → EReal)
    (g : Fin 256 → Fin 10000 → EReal) (W1 : (⟨2, ![10000, 1024]⟩ : Shape).Idx → EReal)
    (b1 : (⟨1, ![1024]⟩ : Shape).Idx → EReal)
    (hG : ∀ (b : Fin 256) (j : Fin 10000), G (ix2 b ⟨j.val, by omega⟩) = g b j)
    (hW1p : ∀ (k : Fin 10240) (h : Fin 1024),
      W1p (ix2 k h) = if hk : k.val < 10000 then W1 (ix2 ⟨k.val, hk⟩ h) else 0)
    (hb1r : ∀ h : Fin 1024, b1r (ix2 (0 : Fin 1) h) = b1 (ix1 h))
    (b : Fin 256) (h : Fin 1024) :
    Cert.Spec.relu ((∑ j : Fin 10240, G (ix2 b j) * W1p (ix2 j h)) + b1r (ix2 (0 : Fin 1) h))
      = Cert.Spec.hidden g W1 b1 b h := by
  rw [dense_sum G W1p g W1 hG hW1p b h, hb1r h]
  rfl

end Cert.Algebra

end
-- ==== Proof.R1Value.lean ====
/- The value of the second kernel region (the two dense layers) over the extended reals.

   The region walks the five contraction blocks of the first layer. At block t it adds, to an accumulator started at zero,
   the product of the 256 × 2048 block of node features in block column t with the 2048 × 1024 block of first-layer weights
   in block row t. After the fifth block the accumulator at (p, h) is therefore
       ((((0 + B₀) + B₁) + B₂) + B₃) + B₄,   Bₛ = ∑ r < 2048, G[p, 2048 s + r] · W1[2048 s + r, h],
   which is the full sum ∑ k < 10240, G[p, k] · W1[k, h]: addition of extended reals is associative and commutative and
   zero is neutral, so no finiteness is needed. The closing step adds the first bias, rectifies, multiplies by the second
   layer's weights, adds the second bias and rectifies; the one block written back is the whole 256 × 128 result array.
   Hence the array ends holding the two dense layers of the arrays the region found, index by index. -/
import proofs.«426459_j40699110097621_1_alg».proof.Proof.R1Defs
import proofs.«426459_j40699110097621_1_alg».proof.Proof.Spec
import proofs.«426459_j40699110097621_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The body's three values at an index, over the extended reals -/

/-- The zero block holds zero everywhere. -/
theorem pay1_apply (i : S256x1024.Idx) : (k1_pay1 (F := Ideal)) i = 0 := by
  unfold k1_pay1
  simp only [shapeCast_self]
  exact Ideal.ofBits_zero_f32

/-- The four coordinate maps of the first product (256 × 2048 times 2048 × 1024). -/
theorem lhsA_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhsA_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhsA_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhsA_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The first product into a zero accumulator: entry (p, q) is row p of the left block times column q of the right. -/
theorem matmulA_apply (x : FVec Ideal S256x2048 .bf16) (w : FVec Ideal S2048x1024 .bf16) (p : Fin 256) (q : Fin 1024) :
    matmul dot_S256x2048_S2048x1024_S256x1024_1_0_0_1_n_n none x w (constant (F := Ideal) S256x1024 .f32 0x00000000#32) (ix2 p q)
      = ∑ r : Fin 2048, x (ix2 p r) * w (ix2 r q) := by
  refine (Ideal.matmul_constant_zero_apply dot_S256x2048_S2048x1024_S256x1024_1_0_0_1_n_n none x w (ix2 p q)).trans ?_
  rw [← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p q) ((ValueIdx.contrEquiv1 dot_S256x2048_S2048x1024_S256x1024_1_0_0_1_n_n 2048 rfl rfl).symm k) = ix2 p k := funext fun a => Fin.ext (by
    match a with
    | ⟨0, _⟩ => exact lhsA_0 _ _
    | ⟨1, _⟩ => exact (lhsA_1 _ _).trans hk)
  have er : dot_S256x2048_S2048x1024_S256x1024_1_0_0_1_n_n.rhsIdx (ix2 p q) ((ValueIdx.contrEquiv1 dot_S256x2048_S2048x1024_S256x1024_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

/-- The accumulating step: what was there plus the block product. -/
theorem pay2_apply (a : Vec Ideal S256x1024 .f32) (x : Vec Ideal S256x2048 .bf16) (w : Vec Ideal S2048x1024 .bf16)
    (p : Fin 256) (q : Fin 1024) :
    k1_pay2 a x w (ix2 p q) = a (ix2 p q) + ∑ r : Fin 2048, x (ix2 p r) * w (ix2 r q) := by
  unfold k1_pay2
  simp only [shapeCast_self]
  exact congrArg (a (ix2 p q) + ·) (matmulA_apply x w p q)

/-- The four coordinate maps of the second product (256 × 1024 times 1024 × 128). -/
theorem lhsB_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhsB_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhsB_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhsB_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The second product into a zero accumulator: entry (p, q) is row p of the hidden block times column q of the weights. -/
theorem matmulB_apply (x : FVec Ideal S256x1024 .bf16) (w : FVec Ideal S1024x128 .bf16) (p : Fin 256) (q : Fin 128) :
    matmul dot_S256x1024_S1024x128_S256x128_1_0_0_1_n_n none x w (constant (F := Ideal) S256x128 .f32 0x00000000#32) (ix2 p q)
      = ∑ h : Fin 1024, x (ix2 p h) * w (ix2 h q) := by
  refine (Ideal.matmul_constant_zero_apply dot_S256x1024_S1024x128_S256x128_1_0_0_1_n_n none x w (ix2 p q)).trans ?_
  rw [← Equiv.sum_comp (ValueIdx.contrEquiv1 dot_S256x1024_S1024x128_S256x128_1_0_0_1_n_n 1024 rfl rfl).symm]
  refine Finset.sum_congr rfl fun k _ => ?_
  have hk := ValueIdx.contrEquiv1_symm_val dot_S256x1024_S1024x128_S256x128_1_0_0_1_n_n 1024 rfl rfl k
  have el : dot_S256x1024_S1024x128_S256x128_1_0_0_1_n_n.lhsIdx (ix2 p q) ((ValueIdx.contrEquiv1 dot_S256x1024_S1024x128_S256x128_1_0_0_1_n_n 1024 rfl rfl).symm k) = ix2 p k := funext fun a => Fin.ext (by
    match a with
    | ⟨0, _⟩ => exact lhsB_0 _ _
    | ⟨1, _⟩ => exact (lhsB_1 _ _).trans hk)
  have er : dot_S256x1024_S1024x128_S256x128_1_0_0_1_n_n.rhsIdx (ix2 p q) ((ValueIdx.contrEquiv1 dot_S256x1024_S1024x128_S256x128_1_0_0_1_n_n 1024 rfl rfl).symm k) = ix2 k q := funext fun a => Fin.ext (by
    match a with
    | ⟨0, _⟩ => exact (rhsB_0 _ _).trans hk
    | ⟨1, _⟩ => exact rhsB_1 _ _)
  rw [el, er]

/-- The word zero is the number zero. -/
theorem scalar_zero : (FloatOps.ofBits (F := Ideal) .f32 0x00000000#32 : Ideal .f32) = (0 : EReal) := Ideal.ofBits_zero_f32

/-- The closing step: the accumulator plus the first bias, rectified, times the second layer's weights, plus the second
    bias, rectified. -/
theorem pay3_apply (a : Vec Ideal S256x1024 .f32) (b1 : Vec Ideal S1x1024 .f32) (w2 : Vec Ideal S1024x128 .bf16)
    (b2 : Vec Ideal S1x128 .f32) (p : Fin 256) (q : Fin 128) :
    k1_pay3 a b1 w2 b2 (ix2 p q)
      = Cert.Spec.relu ((∑ h : Fin 1024, Cert.Spec.relu (a (ix2 p h) + b1 (ix2 (0 : Fin 1) h)) * w2 (ix2 h q))
          + b2 (ix2 (0 : Fin 1) q)) := by
  unfold k1_pay3
  simp only [shapeCast_self]
  rw [maximumf_apply, addf_apply, broadcast_apply, matmulB_apply, broadcastTo_1b_ab_apply, scalar_zero]
  unfold Cert.Spec.relu
  refine congrArg (fun s => max (s + b2 (ix2 (0 : Fin 1) q)) 0) (Finset.sum_congr rfl fun h _ => ?_)
  rw [truncf_apply, maximumf_apply, addf_apply, broadcast_apply, broadcastTo_1b_ab_apply]

/-! ## The input blocks, read where the arrays hold them -/

section Blocks

variable {F : FTy → Type} [FloatOps F]
variable (V : (c : Dev nD) → (b : Ref sig .tc) → Buf (Elt F) ((c : Thread nD τ).loc b))

/-- The five arrays the region reads, as it finds them: the node features (256 × 10240), the first layer's weights padded
    (10240 × 1024), its bias as one row, the second layer's weights and its bias as one row. -/
abbrev garr1 (c : Dev nD) : Vec F S256x10240 .bf16 := V c main_v49
abbrev warr1 (c : Dev nD) : Vec F S10240x1024 .bf16 := V c main_v51
abbrev b1arr1 (c : Dev nD) : Vec F S1x1024 .f32 := V c main_v53
abbrev w2arr1 (c : Dev nD) : Vec F S1024x128 .bf16 := V c main_v52
abbrev b2arr1 (c : Dev nD) : Vec F S1x128 .f32 := V c main_v54

/-- The block index of every window at every point of the grid: the node features move along their columns and the first
    layer's weights along their rows with the point; the three small operands and the result stay put. -/
theorem idx_facts1 : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Entry (p, r) of the node-feature block at point t is entry (p, 2048 t + r) of the array. -/
theorem gblk1_apply (c : Dev nD) (t : Fin cfg1.N) (s : Fin 5) (hs : t.val = s.val) (p : Fin 256) (r : Fin 2048) :
    gblk1 V c t (ix2 p r) = garr1 V c (ix2 p ⟨2048 * s.val + r.val, by omega⟩) := by
  obtain ⟨e0, e1, -⟩ := idx_facts1 t
  show iblk1 V c 0 t (ix2 p r) = _
  unfold iblk1
  rw [View.read_apply]
  show V c main_v49 _ = V c main_v49 _
  congr 1
  funext a
  apply Fin.ext
  match a with
  | ⟨0, _⟩ => show win1_0.index t (0 : Fin 2) * 256 + 1 * p.val = p.val; rw [e0]; omega
  | ⟨1, _⟩ => show win1_0.index t (1 : Fin 2) * 2048 + 1 * r.val = 2048 * s.val + r.val; rw [e1, hs]; omega

/-- Entry (r, q) of the weight block at point t is entry (2048 t + r, q) of the array. -/
theorem wblk1_apply (c : Dev nD) (t : Fin cfg1.N) (s : Fin 5) (hs : t.val = s.val) (r : Fin 2048) (q : Fin 1024) :
    wblk1 V c t (ix2 r q) = warr1 V c (ix2 ⟨2048 * s.val + r.val, by omega⟩ q) := by
  obtain ⟨-, -, e0, e1, -⟩ := idx_facts1 t
  show iblk1 V c 1 t (ix2 r q) = _
  unfold iblk1
  rw [View.read_apply]
  show V c main_v51 _ = V c main_v51 _
  congr 1
  funext a
  apply Fin.ext
  match a with
  | ⟨0, _⟩ => show win1_1.index t (0 : Fin 2) * 2048 + 1 * r.val = 2048 * s.val + r.val; rw [e0, hs]; omega
  | ⟨1, _⟩ => show win1_1.index t (1 : Fin 2) * 1024 + 1 * q.val = q.val; rw [e1]; omega

/-- The three small operands' blocks are their whole arrays at every point. -/
theorem b1blk1_eq (c : Dev nD) (t : Fin cfg1.N) : b1blk1 V c t = b1arr1 V c := by
  obtain ⟨-, -, -, -, e0, e1, -⟩ := idx_facts1 t
  funext y
  show iblk1 V c 2 t y = _
  unfold iblk1
  rw [View.read_apply]
  show V c main_v53 _ = V c main_v53 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

theorem w2blk1_eq (c : Dev nD) (t : Fin cfg1.N) : w2blk1 V c t = w2arr1 V c := by
  obtain ⟨-, -, -, -, -, -, e0, e1, -⟩ := idx_facts1 t
  funext y
  show iblk1 V c 3 t y = _
  unfold iblk1
  rw [View.read_apply]
  show V c main_v52 _ = V c main_v52 _
  congr 1
  funext a
  apply Fin.ext
  match a with
  | ⟨0, _⟩ => show win1_3.index t (0 : Fin 2) * 1024 + 1 * (y 0).val = (y 0).val; rw [e0]; omega
  | ⟨1, _⟩ => show win1_3.index t (1 : Fin 2) * 128 + 1 * (y 1).val = (y 1).val; rw [e1]; omega

theorem b2blk1_eq (c : Dev nD) (t : Fin cfg1.N) : b2blk1 V c t = b2arr1 V c := by
  obtain ⟨-, -, -, -, -, -, -, -, e0, e1, -⟩ := idx_facts1 t
  funext y
  show iblk1 V c 4 t y = _
  unfold iblk1
  rw [View.read_apply]
  show V c main_v54 _ = V c main_v54 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

end Blocks

/-! ## The accumulator in closed form -/

section Value

variable (V : (c : Dev nD) → (b : Ref sig .tc) → Buf (Elt Ideal) ((c : Thread nD τ).loc b))

/-- The contribution of contraction block s to entry (p, q) of the first product: row p of the node features against
    column q of the weights, over the 2048 positions of the block. Nothing beyond the fifth block. -/
def blockSum1 (G : Vec Ideal S256x10240 .bf16) (W : Vec Ideal S10240x1024 .bf16) (p : Fin 256) (q : Fin 1024) (s : ℕ) : EReal :=
  if h : s < 5 then ∑ r : Fin 2048, G (ix2 p ⟨2048 * s + r.val, by omega⟩) * W (ix2 ⟨2048 * s + r.val, by omega⟩ q) else 0

/-- The product of the two blocks the body finds at point t is that contribution. -/
theorem block_eq (c : Dev nD) (t : Fin cfg1.N) (p : Fin 256) (q : Fin 1024) :
    (∑ r : Fin 2048, gblk1 V c t (ix2 p r) * wblk1 V c t (ix2 r q)) = blockSum1 (garr1 V c) (warr1 V c) p q t.val := by
  have hN : cfg1.N = 5 := N_1
  have h5 : t.val < 5 := by have h := t.isLt; omega
  unfold blockSum1
  rw [dif_pos h5]
  refine Finset.sum_congr rfl fun r _ => ?_
  rw [gblk1_apply V c t ⟨t.val, h5⟩ rfl p r, wblk1_apply V c t ⟨t.val, h5⟩ rfl r q]

/-- After point n the accumulator holds, at (p, q), zero plus the contributions of the blocks 0 … n added in order. -/
theorem acc1_apply (c : Dev nD) (p : Fin 256) (q : Fin 1024) :
    ∀ (n : ℕ) (hn : n < cfg1.N),
      acc1 V c n hn (ix2 p q) = Cert.Algebra.accN (blockSum1 (garr1 V c) (warr1 V c) p q) n
  | 0, hn => by
    refine (congrFun (acc1_first V c ⟨0, hn⟩ rfl) (ix2 p q)).trans ?_
    refine (pay2_apply (k1_pay1 (F := Ideal)) (gblk1 V c ⟨0, hn⟩) (wblk1 V c ⟨0, hn⟩) p q).trans ?_
    rw [pay1_apply, block_eq V c ⟨0, hn⟩ p q]
    rfl
  | n + 1, hn => by
    have hN : cfg1.N = 5 := N_1
    have hne : ¬(⟨n + 1, hn⟩ : Fin cfg1.N).val % 5 = 0 := by dsimp only; omega
    refine (congrFun (acc1_next V c ⟨n + 1, hn⟩ hne) (ix2 p q)).trans ?_
    refine (pay2_apply (acc1 V c n (Nat.lt_of_succ_lt hn)) (gblk1 V c ⟨n + 1, hn⟩) (wblk1 V c ⟨n + 1, hn⟩) p q).trans ?_
    rw [acc1_apply c p q n (Nat.lt_of_succ_lt hn), block_eq V c ⟨n + 1, hn⟩ p q]
    rfl

/-- After the last point the accumulator holds the whole first product: row p of the node features times column q of
    the padded weights, over all 10240 positions. -/
theorem acc1_last (c : Dev nD) (t : Fin cfg1.N) (h4 : t.val = 4) (p : Fin 256) (q : Fin 1024) :
    acc1 V c t.val t.isLt (ix2 p q) = ∑ k : Fin 10240, garr1 V c (ix2 p k) * warr1 V c (ix2 k q) := by
  rw [acc1_apply V c p q t.val t.isLt, h4]
  refine Cert.Algebra.accN_blocks (fun k => garr1 V c (ix2 p k) * warr1 V c (ix2 k q)) _ fun s => ?_
  unfold blockSum1
  rw [dif_pos s.isLt]

/-! ## The output block, the cover, the array -/

/-- What the region leaves in its result array: the two dense layers of the arrays it found. -/
abbrev result1 (c : Dev nD) : S256x128.Idx → EReal :=
  Cert.Spec.mlpK (garr1 V c) (warr1 V c) (b1arr1 V c) (w2arr1 V c) (b2arr1 V c)

/-- The one write-back, after the last point, writes the result: the output's block is the whole array. -/
theorem flushed1_eq (c : Dev nD) (t : Fin cfg1.N) (hf : (cfg1.win 5).flush t = true) :
    (dat1 V c).flushed 5 t = ((cfg1.win 5).blk t).view.read (Elt Ideal) (result1 V c) := by
  have hN : cfg1.N = 5 := N_1
  have h4 : t.val = 4 := by have := (flush1_5 t).mp hf; have := t.isLt; omega
  obtain ⟨-, -, -, -, -, -, -, -, -, -, e0, e1⟩ := idx_facts1 t
  show (cfg1.win 5).cut (grid1.coords t) ((dat1 V c).after 5 t) = _
  rw [after1_5]
  funext y
  rw [View.read_apply]
  have hy0 : (y 0).val < 256 := (y 0).isLt
  have hy1 : (y 1).val < 128 := (y 1).isLt
  have hx : (cfg1.win 5).xinj (grid1.coords t) y = ix2 (⟨(y 0).val, hy0⟩ : Fin 256) (⟨(y 1).val, hy1⟩ : Fin 128) := by
    funext a
    match a with
    | ⟨0, _⟩ => rfl
    | ⟨1, _⟩ => rfl
  have hemb : ((cfg1.win 5).blk t).view.emb y = ix2 (⟨(y 0).val, hy0⟩ : Fin 256) (⟨(y 1).val, hy1⟩ : Fin 128) := by
    funext a
    apply Fin.ext
    match a with
    | ⟨0, _⟩ => show win1_5.index t (0 : Fin 2) * 256 + 1 * (y 0).val = (y 0).val; rw [e0]; omega
    | ⟨1, _⟩ => show win1_5.index t (1 : Fin 2) * 128 + 1 * (y 1).val = (y 1).val; rw [e1]; omega
  show outb1 V c t ((cfg1.win 5).xinj (grid1.coords t) y) = result1 V c (((cfg1.win 5).blk t).view.emb y)
  rw [hx, hemb]
  generalize (⟨(y 0).val, hy0⟩ : Fin 256) = p
  generalize (⟨(y 1).val, hy1⟩ : Fin 128) = q
  unfold outb1
  refine (pay3_apply (acc1 V c t.val t.isLt) (b1blk1 V c t) (w2blk1 V c t) (b2blk1 V c t) p q).trans ?_
  rw [b1blk1_eq V c t, w2blk1_eq V c t, b2blk1_eq V c t]
  show _ = Cert.Spec.relu ((∑ h : Fin 1024,
      Cert.Spec.relu ((∑ j : Fin 10240, garr1 V c (ix2 p j) * warr1 V c (ix2 j h)) + b1arr1 V c (ix2 (0 : Fin 1) h))
        * w2arr1 V c (ix2 h q)) + b2arr1 V c (ix2 (0 : Fin 1) q))
  refine congrArg (fun s => Cert.Spec.relu (s + b2arr1 V c (ix2 (0 : Fin 1) q))) (Finset.sum_congr rfl fun h _ => ?_)
  rw [acc1_last V c t h4 p h]

/-- Every index of the result array lies in the block the last point writes back. -/
theorem cover1 (i : S256x128.Idx) : ∃ t : Fin cfg1.N, (cfg1.win 5).flush t = true ∧ i ∈ ((cfg1.win 5).blk t).view.set := by
  have h0 : (i 0 : Nat) < 256 := (i 0).isLt
  have h1 : (i 1 : Nat) < 128 := (i 1).isLt
  refine ⟨t1_4, (flush1_5 t1_4).mpr rfl, ?_⟩
  show i ∈ ((View.whole main_v55).slice (win1_5.rect t1_4)).set
  rw [View.set_slice_whole, Rect.mem_set_unit]
  intro a
  match a with
  | ⟨0, _⟩ => show win1_5.index t1_4 0 * win1_5.size 0 ≤ (i 0 : Nat) ∧ (i 0 : Nat) < win1_5.index t1_4 0 * win1_5.size 0 + win1_5.xsize (grid1.coords t1_4) 0
              rw [show win1_5.index t1_4 0 * win1_5.size 0 = 0 from by decide +kernel, show win1_5.xsize (grid1.coords t1_4) 0 = 256 from by decide +kernel]; omega
  | ⟨1, _⟩ => show win1_5.index t1_4 1 * win1_5.size 1 ≤ (i 1 : Nat) ∧ (i 1 : Nat) < win1_5.index t1_4 1 * win1_5.size 1 + win1_5.xsize (grid1.coords t1_4) 1
              rw [show win1_5.index t1_4 1 * win1_5.size 1 = 0 from by decide +kernel, show win1_5.xsize (grid1.coords t1_4) 1 = 128 from by decide +kernel]; omega

/-- THE REGION'S VALUE: when the region ends its result array holds the two dense layers of the arrays it found. -/
theorem arr1_out (c : Dev nD) :
    ((dat1 (F := Ideal) V c).arrAt 5 cfg1.N : S256x128.Idx → EReal)
      = Cert.Spec.mlpK (V c main_v49) (V c main_v51) (V c main_v53) (V c main_v52) (V c main_v54) :=
  (dat1 V c).arrAt_eq_of_cover 5 (result1 V c) (flushed1_eq V c) cover1

end Value

end Cert.KernelIdeal.Hand

end
-- ==== Proof.Chain.lean ====
/- The edge data both programs compute from `edge_index` before anything else, as pure terms of the argument:
   the source and destination node of each of the 170000 edges (the 160000 given edges, then one self loop per node),
   each node's in-degree as a float (a scatter of ones by destination), its inverse square root, and each edge's weight,
   the product of the two end nodes' inverse square roots (two gathers with the usual wrap of negative indices). -/
import proofs.«426459_j40699110097621_1_alg».proof.KernelIdeal
import Idealize.ShloMosaic.Lib.ValueIdx

noncomputable section

namespace Cert.KernelIdeal.Chain

open Idealize.ShloMosaic Idealize.ShloMosaic.ValueIdx Cert.KernelIdeal

variable [Cert.KernelIdeal.Facts]
open Cert.KernelIdeal.Facts₀ Cert.KernelIdeal.Facts

/-- The nodes 0 … 9999 in order: the self loops' ends. -/
def nodes : IVec S10000 32 := iotaInDim S10000 32 0

/-- Each edge's source node: row 0 of `edge_index`, then the self loops. -/
def srcT (ei : IVec S2x160000 32) : IVec S170000 32 :=
  concatenate S170000 0 [⟨S160000, shapeCast S160000 (extractStridedSlice S1x160000 ![0, 0] ei slices_S2x160000_S1x160000_0_0) shapeCasts_S1x160000_S160000⟩, ⟨S10000, nodes⟩] concatenates_S160000_S10000_S170000_d0

/-- Each edge's destination node: row 1 of `edge_index`, then the self loops. -/
def dstT (ei : IVec S2x160000 32) : IVec S170000 32 :=
  concatenate S170000 0 [⟨S160000, shapeCast S160000 (extractStridedSlice S1x160000 ![1, 0] ei slices_S2x160000_S1x160000_1_0) shapeCasts_S1x160000_S160000⟩, ⟨S10000, nodes⟩] concatenates_S160000_S10000_S170000_d0

variable {F : FTy → Type} [FloatOps F]

/-- Each node's in-degree, as the sum of one 1.0 per edge into it. -/
def degT (ei : IVec S2x160000 32) : FVec F S10000 .f32 :=
  Host.scatterAdd scatter_S10000_S170000x1_S170000_n_0_0_1
    (broadcastInDim S10000 ![] bcast_S_S10000 (constant S_ .f32 0x00000000#32))
    (broadcastInDim S170000x1 ![0] bcast_S170000_S170000x1_0 (dstT ei))
    (broadcastInDim S170000 ![] bcast_S_S170000 (constant S_ .f32 0x3F800000#32))

/-- Each node's inverse square root of its in-degree. -/
def dinvT (ei : IVec S2x160000 32) : FVec F S10000 .f32 := Host.rsqrt (degT (F := F) ei)

/-- A node vector with its negative entries wrapped by the node count 10000. -/
def wrapT (v : IVec S170000 32) : IVec S170000 32 :=
  select (cmpi .slt v (broadcastInDim S170000 ![] bcast_S_S170000 (constantI S_ 32 0#32)))
    (addi v (broadcastInDim S170000 ![] bcast_S_S170000 (constantI S_ 32 10000#32))) v

/-- Each edge's weight: the product of its two end nodes' inverse square roots of the in-degree. -/
def nrmT (ei : IVec S2x160000 32) : FVec F S170000 .f32 :=
  mulf (Host.gather gather_S10000_S170000x1_S170000_n_0_n_n_0_1_1 (dinvT (F := F) ei) (broadcastInDim S170000x1 ![0] bcast_S170000_S170000x1_0 (wrapT (srcT ei))))
    (Host.gather gather_S10000_S170000x1_S170000_n_0_n_n_0_1_1 (dinvT (F := F) ei) (broadcastInDim S170000x1 ![0] bcast_S170000_S170000x1_0 (wrapT (dstT ei))))

/-- Edge `e`'s source node as a natural number. -/
def sN (ei : IVec S2x160000 32) (e : Fin 170000) : ℕ := (srcT ei (ix1 e)).toNat
/-- Edge `e`'s destination node as a natural number. -/
def dN (ei : IVec S2x160000 32) (e : Fin 170000) : ℕ := (dstT ei (ix1 e)).toNat
/-- Edge `e`'s weight at the ideal instance. -/
def nrmN (ei : IVec S2x160000 32) (e : Fin 170000) : EReal := nrmT (F := Ideal) ei (ix1 e)

end Cert.KernelIdeal.Chain

end
-- ==== Proof.KHost.lean ====
/- What the arrays the two kernel regions are entered with hold, as functions of the program's arguments, over the
   extended reals: the padded feature matrix, the weighted edge matrix, the padded first dense layer, the biases as
   one-row arrays. A change of float format is the identity here, a reshape keeps the row-major order, a pad writes
   zeros outside the operand, and the edge matrix is a sum of edge weights grouped by the pair of end nodes. -/
import proofs.«426459_j40699110097621_1_alg».proof.Proof.Gen.KernelIdeal.Regions
import proofs.«426459_j40699110097621_1_alg».proof.Proof.Chain
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

open scoped BigOperators

namespace Cert.KernelIdeal.Hand

open Idealize.ShloMosaic Idealize.ShloMosaic.TcCoe Idealize.ShloMosaic.ValueIdx Idealize.ShloMosaic.StableHlo
open Cert.KernelIdeal

variable [Cert.KernelIdeal.Facts]
open Cert.KernelIdeal.Facts₀ Cert.KernelIdeal.Facts

variable (m : (ℓ : Loc nD τ sig) → Buf (Elt Ideal) ℓ) (outs : Gen.Outs (F := Ideal)) (c : Dev nD)

/-- The bias of the convolution, entered as a one-by-one array, is the argument's one entry. -/
theorem kh_v48 : (Gen.V3 m c main_v48 : S1x1.Idx → EReal) (ix2 (0 : Fin 1) (0 : Fin 1))
    = (m ((c : Thread nD τ).loc main_arg2) : S1.Idx → EReal) (ix1 (0 : Fin 1)) := by
  have e : (Gen.V3 m c main_v48 : S1x1.Idx → EReal)
      = shapeCast S1x1 (m ((c : Thread nD τ).loc main_arg2) : S1.Idx → EReal) shapeCasts_S1_S1x1 := by
    dsimp only [Gen.V3, Gen.V2, Gen.V1, Gen.V0]
    after_results
    rfl
  rw [e]
  exact shapeCast_a_1a_apply _ _ _ _

/-- The first dense layer's bias, entered as a one-row array, is the argument entry by entry. -/
theorem kh_v53 (h : Fin 1024) : (Gen.V7 m outs c main_v53 : S1x1024.Idx → EReal) (ix2 (0 : Fin 1) h)
    = (m ((c : Thread nD τ).loc main_arg4) : S1024.Idx → EReal) (ix1 h) := by
  have e : (Gen.V7 m outs c main_v53 : S1x1024.Idx → EReal)
      = shapeCast S1x1024 (m ((c : Thread nD τ).loc main_arg4) : S1024.Idx → EReal) shapeCasts_S1024_S1x1024 := by
    dsimp only [Gen.V7, Gen.V6, Gen.V5, Gen.V4, Gen.V3, Gen.V2, Gen.V1, Gen.V0]
    after_results
    rfl
  rw [e]
  exact shapeCast_a_1a_apply _ _ _ _

/-- The second dense layer's bias, entered as a one-row array, is the argument entry by entry. -/
theorem kh_v54 (o : Fin 128) : (Gen.V7 m outs c main_v54 : S1x128.Idx → EReal) (ix2 (0 : Fin 1) o)
    = (m ((c : Thread nD τ).loc main_arg6) : S128.Idx → EReal) (ix1 o) := by
  have e : (Gen.V7 m outs c main_v54 : S1x128.Idx → EReal)
      = shapeCast S1x128 (m ((c : Thread nD τ).loc main_arg6) : S128.Idx → EReal) shapeCasts_S128_S1x128 := by
    dsimp only [Gen.V7, Gen.V6, Gen.V5, Gen.V4, Gen.V3, Gen.V2, Gen.V1, Gen.V0]
    after_results
    rfl
  rw [e]
  exact shapeCast_a_1a_apply _ _ _ _

/-- The second dense layer's weights enter as the argument: the change of format is the identity on the extended reals. -/
theorem kh_v52 : (Gen.V7 m outs c main_v52 : S1024x128.Idx → EReal)
    = (m ((c : Thread nD τ).loc main_arg5) : S1024x128.Idx → EReal) := by
  dsimp only [Gen.V7, Gen.V6, Gen.V5, Gen.V4, Gen.V3, Gen.V2, Gen.V1, Gen.V0]
  after_results
  rfl

/-- No host operation after the first region writes its output array. -/
theorem kh_v49 : Gen.V7 m outs c main_v49 = outs 4 main_v49 c := by
  rw [Gen.V7_of m outs c main_v49 (by decide), Gen.V6_of m outs c main_v49 (by decide),
    Gen.V5_of m outs c main_v49 (by decide)]
  exact Function.update_self _ _ _

/-- The feature matrix the first region is entered with, as the operations' term: the argument padded with the
    converted integer zero, its format changed. -/
theorem v47_term : (Gen.V3 m c main_v47 : S256x10240.Idx → EReal)
      = truncf .bf16 (pad S256x10240 ![0, 0] ![0, 240] ![0, 0] (m ((c : Thread nD τ).loc main_arg0) : S256x10000.Idx → EReal)
          (sitofp (F := Ideal) .f32 (constantI S_ 32 0#32)) pads_S256x10000_S256x10240_000_02400 h_S_) bitsLt_bf16_f32 := by
  dsimp only [Gen.V3, Gen.V2]
  after_results
  rfl

/-- The feature matrix the first region is entered with: the argument on the first 10000 columns, zero on the 240 added. -/
theorem kh_v47 (b : Fin 256) (k : Fin 10240) :
    (Gen.V3 m c main_v47 : S256x10240.Idx → EReal) (ix2 b k)
      = (if h : k.val < 10000 then (m ((c : Thread nD τ).loc main_arg0) : S256x10000.Idx → EReal) (ix2 b ⟨k.val, h⟩) else 0 : EReal) := by
  rw [v47_term, truncf_apply]
  by_cases h : k.val < 10000
  · rw [dif_pos h]
    refine pad_apply_of_inside (s := S256x10000) (t := S256x10240) ![0, 0] ![0, 240] ![0, 0] _ _ _ _ (ix2 b k) (ix2 b ⟨k.val, h⟩) ?_
    intro a
    fin_cases a
    · show b.val = 0 + b.val * (0 + 1)
      omega
    · show k.val = 0 + k.val * (0 + 1)
      omega
  · rw [dif_neg h]
    rw [pad_apply_of_not_inside (s := S256x10000) (t := S256x10240) ![0, 0] ![0, 240] ![0, 0] _ _
      pads_S256x10000_S256x10240_000_02400 h_S_ (ix2 b k) (1 : Fin 2) (by
        show ¬(0 ≤ k.val ∧ (k.val - 0) % (0 + 1) = 0 ∧ (k.val - 0) / (0 + 1) < 10000)
        omega)]
    exact sitofp_zero (φ := .f32)

/-- The first dense layer's weights the second region is entered with, as the operations' term: the argument padded
    with the converted integer zero, its format changed. -/
theorem v51_term : (Gen.V7 m outs c main_v51 : S10240x1024.Idx → EReal)
      = truncf .bf16 (pad S10240x1024 ![0, 0] ![240, 0] ![0, 0] (m ((c : Thread nD τ).loc main_arg3) : S10000x1024.Idx → EReal)
          (sitofp (F := Ideal) .f32 (constantI S_ 32 0#32)) pads_S10000x1024_S10240x1024_02400_000 h_S_) bitsLt_bf16_f32 := by
  dsimp only [Gen.V7, Gen.V6, Gen.V5]
  after_results
  rw [Gen.V4_of m outs c main_arg3 (by decide), Gen.V3_of m c main_arg3 (by decide), Gen.V2_of m c main_arg3 (by decide),
    Gen.V1_of m c main_arg3 (by decide)]
  rfl

/-- The first dense layer's weights the second region is entered with: the argument on the first 10000 rows, zero on
    the 240 added. -/
theorem kh_v51 (j : Fin 10240) (h : Fin 1024) :
    (Gen.V7 m outs c main_v51 : S10240x1024.Idx → EReal) (ix2 j h)
      = (if hj : j.val < 10000 then (m ((c : Thread nD τ).loc main_arg3) : S10000x1024.Idx → EReal) (ix2 ⟨j.val, hj⟩ h) else 0 : EReal) := by
  rw [v51_term, truncf_apply]
  by_cases hj : j.val < 10000
  · rw [dif_pos hj]
    refine pad_apply_of_inside (s := S10000x1024) (t := S10240x1024) ![0, 0] ![240, 0] ![0, 0] _ _ _ _ (ix2 j h) (ix2 ⟨j.val, hj⟩ h) ?_
    intro a
    fin_cases a
    · show j.val = 0 + j.val * (0 + 1)
      omega
    · show h.val = 0 + h.val * (0 + 1)
      omega
  · rw [dif_neg hj]
    rw [pad_apply_of_not_inside (s := S10000x1024) (t := S10240x1024) ![0, 0] ![240, 0] ![0, 0] _ _
      pads_S10000x1024_S10240x1024_02400_000 h_S_ (ix2 j h) (0 : Fin 2) (by
        show ¬(0 ≤ j.val ∧ (j.val - 0) % (0 + 1) = 0 ∧ (j.val - 0) / (0 + 1) < 10000)
        omega)]
    exact sitofp_zero (φ := .f32)

end Cert.KernelIdeal.Hand
end
-- ==== Proof.KHostM.lean ====
/- The kernel's weighted edge matrix, read at an index.

   The kernel builds a 10240 × 10240 matrix from the edge data: it starts from zeros and adds each edge's weight at the
   position (source node, destination node), a negative node number first wrapped by 10240; then it multiplies every
   entry by the convolution's scalar weight (the change of float format that follows is the identity on the extended
   reals). The node numbers being nonnegative, the wrap does nothing; the edge weights added at (i, j) are those of the
   edges from i to j, so the entry at (i, j) is the scalar weight times the sum, started from zero, of the weights of
   the edges from i to j. -/
import proofs.«426459_j40699110097621_1_alg».proof.Proof.Gen.KernelIdeal.Regions
import proofs.«426459_j40699110097621_1_alg».proof.Proof.Chain
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.Lib.Affine
import Idealize.ShloMosaic.PureOps.Ideal.Laws

noncomputable section

open scoped BigOperators

namespace Cert.KernelIdeal.Hand

open Idealize.ShloMosaic Idealize.ShloMosaic.TcCoe Idealize.ShloMosaic.ValueIdx Idealize.ShloMosaic.StableHlo
open Cert.KernelIdeal

variable [Cert.KernelIdeal.Facts]
open Cert.KernelIdeal.Facts₀ Cert.KernelIdeal.Facts

/-! ## The matrix as a term of the edge data -/

/-- A node vector with its negative entries wrapped by the padded node count 10240. -/
def wrapK (v : IVec S170000 32) : IVec S170000 32 :=
  select (cmpi .slt v (broadcastInDim S170000 ![] bcast_S_S170000 (constantI S_ 32 0#32)))
    (addi v (broadcastInDim S170000 ![] bcast_S_S170000 (constantI S_ 32 10240#32))) v

/-- The scatter positions: row e holds edge e's wrapped source node and wrapped destination node. -/
def pairsK (src dst : IVec S170000 32) : IVec S170000x2 32 :=
  concatenate S170000x2 1
    [⟨S170000x1, broadcastInDim S170000x1 ![0] bcast_S170000_S170000x1_0 (wrapK src)⟩,
     ⟨S170000x1, broadcastInDim S170000x1 ![0] bcast_S170000_S170000x1_0 (wrapK dst)⟩]
    concatenates_S170000x1_S170000x1_S170000x2_d1

/-- The edge-weight matrix: zeros plus each edge's weight at its position. -/
def edgeM (src dst : IVec S170000 32) (nrm : FVec Ideal S170000 .f32) : FVec Ideal S10240x10240 .f32 :=
  Host.scatterAdd scatter_S10240x10240_S170000x2_S170000_n_01_01_1
    (broadcastInDim S10240x10240 ![] bcast_S_S10240x10240 (constant (F := Ideal) S_ .f32 0x00000000#32))
    (pairsK src dst) nrm

/-- The weighted edge-weight matrix as the kernel's first region reads it. -/
def edgeMw (wv : FVec Ideal S1 .f32) (src dst : IVec S170000 32) (nrm : FVec Ideal S170000 .f32) :
    FVec Ideal S10240x10240 .bf16 :=
  truncf .bf16
    (mulf (broadcastInDim S10240x10240 ![] bcast_S_S10240x10240 (shapeCast S_ wv shapeCasts_S1_S_))
      (edgeM src dst nrm)) bitsLt_bf16_f32

/-! ## The pieces read at an index -/

/-- A nonnegative node number is its own wrap. -/
theorem wrapK_apply_of_nonneg (v : IVec S170000 32) (u : S170000.Idx) (hv : 0 ≤ (v u).toInt) : wrapK v u = v u := by
  unfold wrapK
  rw [select_apply]
  have hz : cmpi .slt v (broadcastInDim S170000 ![] bcast_S_S170000 (constantI S_ 32 0#32)) u = 0#1 := by
    refine eq_zero_of_ne_one (fun h1 => ?_)
    have h2 : IntOp.cmpi .slt (v u) 0#32 = 1#1 := h1
    rw [IntOp.cmpi_slt, BitVec.toInt_zero] at h2
    omega
  rw [hz, select_zero]

/-- Row e of the scatter positions holds, in column 0, edge e's wrapped source node. -/
theorem pairsK_col0 (src dst : IVec S170000 32) (e : Fin 170000) :
    pairsK src dst (ix2 e (0 : Fin 2)) = wrapK src (ix1 e) := by
  unfold pairsK
  refine (concatenate_pair_apply_left (t := S170000x2) (s₁ := S170000x1) (s₂ := S170000x1) 1 _ _
    concatenates_S170000x1_S170000x1_S170000x2_d1 (ix2 e (0 : Fin 2)) rfl (ix2 e (0 : Fin 1)) (fun b => ?_)).trans ?_
  · match b with
    | ⟨0, _⟩ => rfl
    | ⟨1, _⟩ => rfl
  · refine broadcastInDim_apply _ _ _ _ (ix1 e) (fun a => ?_)
    match a with
    | ⟨0, _⟩ =>
      split
      · next h1 =>
        have h2 : (170000 : ℕ) = 1 := h1
        exact absurd h2 (by decide)
      · rfl

/-- Row e of the scatter positions holds, in column 1, edge e's wrapped destination node. -/
theorem pairsK_col1 (src dst : IVec S170000 32) (e : Fin 170000) :
    pairsK src dst (ix2 e (1 : Fin 2)) = wrapK dst (ix1 e) := by
  unfold pairsK
  refine (concatenate_pair_apply_right (t := S170000x2) (s₁ := S170000x1) (s₂ := S170000x1) 1 _ _
    concatenates_S170000x1_S170000x1_S170000x2_d1 (ix2 e (1 : Fin 2)) rfl rfl (ix2 e (0 : Fin 1))
    (fun b hb => ?_) ?_).trans ?_
  · match b with
    | ⟨0, _⟩ => rfl
    | ⟨1, _⟩ => exact absurd rfl hb
  · rfl
  · refine broadcastInDim_apply _ _ _ _ (ix1 e) (fun a => ?_)
    match a with
    | ⟨0, _⟩ =>
      split
      · next h1 =>
        have h2 : (170000 : ℕ) = 1 := h1
        exact absurd h2 (by decide)
      · rfl

/-- The scatter of the edge weights: its dimension numbers. -/
abbrev sK := scatter_S10240x10240_S170000x2_S170000_n_01_01_1

/-- The scatter reads update e's start index in row e of the positions, component by component. -/
theorem sK_siIdx (e : Fin 170000) (k : Fin 2) (hk : k.val < sK.scatterDimsToOperandDims.length) :
    sK.siIdx (ix1 e) ⟨k.val, hk⟩ = ix2 e k := by
  funext b
  refine Fin.ext ?_
  match b, k with
  | ⟨0, _⟩, _ => rfl
  | ⟨1, _⟩, _ => rfl

/-- An update is one element: no window. -/
theorem sK_window (u : S170000.Idx) (a : Fin S10240x10240.rank) : sK.window u a = 0 := by
  unfold ScatterDims.window
  rw [dif_neg]
  match a with
  | ⟨0, _⟩ => exact (by decide : (0 : Fin S10240x10240.rank) ∉ sK.sKept)
  | ⟨1, _⟩ => exact (by decide : (1 : Fin S10240x10240.rank) ∉ sK.sKept)

/-- Update e's start on the row axis is the position's column 0 read signed. -/
theorem sK_start0 (idx : IVec S170000x2 32) (e : Fin 170000) :
    sK.start (ix1 e) idx 0 = (idx (ix2 e (0 : Fin 2))).toInt := by
  unfold ScatterDims.start
  rw [dif_pos (show (0 : Fin S10240x10240.rank) ∈ sK.scatterDimsToOperandDims by decide)]
  exact congrArg (fun t : S170000x2.Idx => (idx t).toInt) (sK_siIdx e 0 (by decide))

/-- Update e's start on the column axis is the position's column 1 read signed. -/
theorem sK_start1 (idx : IVec S170000x2 32) (e : Fin 170000) :
    sK.start (ix1 e) idx 1 = (idx (ix2 e (1 : Fin 2))).toInt := by
  unfold ScatterDims.start
  rw [dif_pos (show (1 : Fin S10240x10240.rank) ∈ sK.scatterDimsToOperandDims by decide)]
  exact congrArg (fun t : S170000x2.Idx => (idx t).toInt) (sK_siIdx e 1 (by decide))

/-- Update e lands at (i, j) exactly when its position, read signed, is (i, j). -/
theorem sK_resultIdx (idx : IVec S170000x2 32) (e : Fin 170000) (i j : Fin 10240) :
    sK.resultIdx? (ix1 e) idx = some (ix2 i j)
      ↔ (idx (ix2 e (0 : Fin 2))).toInt = (i.val : ℤ) ∧ (idx (ix2 e (1 : Fin 2))).toInt = (j.val : ℤ) := by
  have h0 := sK_start0 idx e
  have h1 := sK_start1 idx e
  have w0 := sK_window (ix1 e) 0
  have w1 := sK_window (ix1 e) 1
  have hi := i.isLt
  have hj := j.isLt
  unfold ScatterDims.resultIdx?
  split
  · rename_i h
    rw [Option.some.injEq]
    constructor
    · intro hq
      have q0 : (sK.start (ix1 e) idx 0 + ((sK.window (ix1 e) 0 : ℕ) : ℤ)).toNat = i.val :=
        congrArg (fun f : S10240x10240.Idx => (f 0).val) hq
      have q1 : (sK.start (ix1 e) idx 1 + ((sK.window (ix1 e) 1 : ℕ) : ℤ)).toNat = j.val :=
        congrArg (fun f : S10240x10240.Idx => (f 1).val) hq
      have p0 : (0 : ℤ) ≤ sK.start (ix1 e) idx 0 + ((sK.window (ix1 e) 0 : ℕ) : ℤ) := (h 0).1
      have p1 : (0 : ℤ) ≤ sK.start (ix1 e) idx 1 + ((sK.window (ix1 e) 1 : ℕ) : ℤ) := (h 1).1
      rw [h0, w0] at q0 p0
      rw [h1, w1] at q1 p1
      exact ⟨by omega, by omega⟩
    · rintro ⟨hq0, hq1⟩
      funext a
      refine Fin.ext ?_
      match a with
      | ⟨0, _⟩ =>
        show (sK.start (ix1 e) idx 0 + ((sK.window (ix1 e) 0 : ℕ) : ℤ)).toNat = i.val
        rw [h0, w0]; omega
      | ⟨1, _⟩ =>
        show (sK.start (ix1 e) idx 1 + ((sK.window (ix1 e) 1 : ℕ) : ℤ)).toNat = j.val
        rw [h1, w1]; omega
  · rename_i h
    constructor
    · intro hq; exact absurd hq (by simp)
    · rintro ⟨hq0, hq1⟩
      exfalso
      apply h
      intro a
      match a with
      | ⟨0, _⟩ =>
        show (0 : ℤ) ≤ sK.start (ix1 e) idx 0 + ((sK.window (ix1 e) 0 : ℕ) : ℤ)
          ∧ sK.start (ix1 e) idx 0 + ((sK.window (ix1 e) 0 : ℕ) : ℤ) < ((10240 : ℕ) : ℤ)
        rw [h0, w0]; omega
      | ⟨1, _⟩ =>
        show (0 : ℤ) ≤ sK.start (ix1 e) idx 1 + ((sK.window (ix1 e) 1 : ℕ) : ℤ)
          ∧ sK.start (ix1 e) idx 1 + ((sK.window (ix1 e) 1 : ℕ) : ℤ) < ((10240 : ℕ) : ℤ)
        rw [h1, w1]; omega

/-- The edge-weight matrix at (i, j): zero plus the weights of the updates whose position, read signed, is (i, j). -/
theorem edgeM_apply (src dst : IVec S170000 32) (nrm : FVec Ideal S170000 .f32) (i j : Fin 10240) :
    edgeM src dst nrm (ix2 i j)
      = 0 + ∑ e ∈ Finset.univ.filter (fun e : Fin 170000 =>
            (pairsK src dst (ix2 e (0 : Fin 2))).toInt = (i.val : ℤ)
              ∧ (pairsK src dst (ix2 e (1 : Fin 2))).toInt = (j.val : ℤ)),
          nrm (ix1 e) := by
  unfold edgeM Host.scatterAdd
  rw [Ideal.hostScatterAdd_def]
  unfold Ideal.hostScatterAdd
  have h0 : (broadcastInDim S10240x10240 ![] bcast_S_S10240x10240
      (constant (F := Ideal) S_ .f32 0x00000000#32)) (ix2 i j) = 0 := Ideal.ofBits_zero_f32
  rw [h0, Finset.sum_filter, Finset.sum_filter]
  refine congrArg (fun t : EReal => 0 + t) ?_
  refine (Equiv.sum_comp (idxEquiv1 (n := 170000)).symm _).symm.trans ?_
  refine Finset.sum_congr rfl (fun e _ => ?_)
  exact if_congr (sK_resultIdx (pairsK src dst) e i j) rfl rfl

/-- The weighted matrix at (i, j) is the scalar weight times the edge-weight matrix there. -/
theorem edgeMw_apply (wv : FVec Ideal S1 .f32) (src dst : IVec S170000 32) (nrm : FVec Ideal S170000 .f32)
    (i j : Fin 10240) :
    edgeMw wv src dst nrm (ix2 i j) = wv (ix1 (0 : Fin 1)) * edgeM src dst nrm (ix2 i j) := by
  unfold edgeMw
  rw [truncf_apply, mulf_apply]
  have hb : (broadcastInDim S10240x10240 ![] bcast_S_S10240x10240 (shapeCast S_ wv shapeCasts_S1_S_)) (ix2 i j)
      = wv (ix1 (0 : Fin 1)) := by
    refine (broadcastInDim_apply _ _ _ (ix2 i j) ix0 (fun a => a.elim0)).trans ?_
    refine shapeCast_apply wv shapeCasts_S1_S_ ix0 (ix1 (0 : Fin 1)) ?_
    rw [Shape.rowMajor_val_one]
    have h2 : (S_.rowMajor ix0).val < 1 := (S_.rowMajor ix0).isLt
    show (0 : ℕ) = _
    omega
  rw [hb]

variable (m : (ℓ : Loc nD τ sig) → Buf (Elt Ideal) ℓ) (c : Dev nD)

/-- The convolution's scalar weight, as launched: a one-entry array. -/
abbrev wArg : S1.Idx → EReal := m ((c : Thread nD τ).loc main_arg1)
/-- The edge table, as launched. -/
abbrev eArg : IVec S2x160000 32 := m ((c : Thread nD τ).loc main_arg7)

set_option maxHeartbeats 8000000 in
/-- What the array entering the first region as the matrix holds, as a term of the arguments. -/
theorem v45_term : (Gen.V3 m c main_v45 : S10240x10240.Idx → EReal)
    = edgeMw (wArg m c) (Chain.srcT (eArg m c)) (Chain.dstT (eArg m c)) (Chain.nrmT (F := Ideal) (eArg m c)) := by
  rw [Gen.V3_of m c main_v45 (by decide), Gen.V2_of m c main_v45 (by decide)]
  dsimp only [Gen.V1, Gen.V0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-! ## The array the first region is entered with -/

/-- The weighted edge matrix as it enters the first region: at (i, j), the convolution's scalar weight times the sum,
    started from zero, of the weights of the edges from i to j. -/
theorem kh_v45
    (hs : ∀ e, Chain.sN (eArg m c) e < 10000) (hd : ∀ e, Chain.dN (eArg m c) e < 10000)
    (hsi : ∀ e : Fin 170000, (Chain.srcT (eArg m c) (ix1 e)).toInt = (Chain.sN (eArg m c) e : ℤ))
    (hdi : ∀ e : Fin 170000, (Chain.dstT (eArg m c) (ix1 e)).toInt = (Chain.dN (eArg m c) e : ℤ))
    (i j : Fin 10240) :
    (Gen.V3 m c main_v45 : S10240x10240.Idx → EReal) (ix2 i j)
      = wArg m c (ix1 (0 : Fin 1))
        * (0 + ∑ e ∈ Finset.univ.filter (fun e : Fin 170000 =>
              Chain.sN (eArg m c) e = i.val ∧ Chain.dN (eArg m c) e = j.val),
            Chain.nrmN (eArg m c) e) := by
  rw [v45_term m c, edgeMw_apply, edgeM_apply]
  have hp : ∀ e : Fin 170000,
      ((pairsK (Chain.srcT (eArg m c)) (Chain.dstT (eArg m c)) (ix2 e (0 : Fin 2))).toInt = (i.val : ℤ)
        ∧ (pairsK (Chain.srcT (eArg m c)) (Chain.dstT (eArg m c)) (ix2 e (1 : Fin 2))).toInt = (j.val : ℤ))
      ↔ (Chain.sN (eArg m c) e = i.val ∧ Chain.dN (eArg m c) e = j.val) := by
    intro e
    rw [pairsK_col0, pairsK_col1,
      wrapK_apply_of_nonneg _ _ (by rw [hsi e]; omega), wrapK_apply_of_nonneg _ _ (by rw [hdi e]; omega),
      hsi e, hdi e]
    constructor
    · rintro ⟨h1, h2⟩; exact ⟨by omega, by omega⟩
    · rintro ⟨h1, h2⟩; exact ⟨by omega, by omega⟩
  refine congrArg (fun t : EReal => wArg m c (ix1 (0 : Fin 1)) * (0 + t)) ?_
  exact Finset.sum_congr (Finset.filter_congr (fun e _ => hp e)) (fun e _ => rfl)

end Cert.KernelIdeal.Hand
end
-- ==== Proof.ChainFacts.lean ====
/- Facts about the edge data: where each edge's end nodes come from, that they are node numbers, that the wrap of
   negative entries changes nothing, that a node's in-degree is the number of edges into it (at least one, its self
   loop), and that an edge's weight is the product of two positive reals' inverse square roots. -/
import proofs.«426459_j40699110097621_1_alg».proof.Proof.Chain
import Idealize.ShloMosaic.Lib.Pipeline.Value
import Idealize.ShloMosaic.Lib.ValueLayout
import Idealize.ShloMosaic.Lib.ValueIdxRank1
import Idealize.ShloMosaic.Lib.IdealHost
import Idealize.ShloMosaic.PureOps.Ideal.Laws
import Idealize.ShloMosaic.Lib.StableHlo.Predicate

noncomputable section

open scoped BigOperators

namespace Cert.KernelIdeal.Chain

open Idealize.ShloMosaic Idealize.ShloMosaic.ValueIdx Cert.KernelIdeal

variable [Cert.KernelIdeal.Facts]
open Cert.KernelIdeal.Facts₀ Cert.KernelIdeal.Facts

/-! ## The two rows of the edge array and the self loops -/

/-- Row 0 of the edge array, as a vector, at position i. -/
theorem row0_apply (ei : IVec S2x160000 32) (i : Fin 160000) :
    shapeCast S160000 (extractStridedSlice S1x160000 ![0, 0] ei slices_S2x160000_S1x160000_0_0)
      shapeCasts_S1x160000_S160000 (ix1 i) = ei (ix2 (0 : Fin 2) i) := by
  rw [shapeCast_1a_a_apply]
  exact extractStridedSlice_apply _ _ _ _ _ (fun ax => by
    match ax with
    | ⟨0, _⟩ => rfl
    | ⟨1, _⟩ => exact (Nat.zero_add _).symm)

/-- Row 1 of the edge array, as a vector, at position i. -/
theorem row1_apply (ei : IVec S2x160000 32) (i : Fin 160000) :
    shapeCast S160000 (extractStridedSlice S1x160000 ![1, 0] ei slices_S2x160000_S1x160000_1_0)
      shapeCasts_S1x160000_S160000 (ix1 i) = ei (ix2 (1 : Fin 2) i) := by
  rw [shapeCast_1a_a_apply]
  exact extractStridedSlice_apply _ _ _ _ _ (fun ax => by
    match ax with
    | ⟨0, _⟩ => rfl
    | ⟨1, _⟩ => exact (Nat.zero_add _).symm)

/-- A given edge's source is its entry in row 0. -/
theorem srcT_lt (ei : IVec S2x160000 32) (e : Fin 170000) (h : e.val < 160000) :
    srcT ei (ix1 e) = ei (ix2 (0 : Fin 2) ⟨e.val, h⟩) := by
  unfold srcT
  exact (concatenate_pair_apply_left (s₁ := S160000) (s₂ := S10000) _ _ _ _ (ix1 e) rfl (ix1 (⟨e.val, h⟩ : Fin 160000))
    (fun b => by match b with | ⟨0, _⟩ => rfl)).trans (row0_apply ei _)

/-- A given edge's destination is its entry in row 1. -/
theorem dstT_lt (ei : IVec S2x160000 32) (e : Fin 170000) (h : e.val < 160000) :
    dstT ei (ix1 e) = ei (ix2 (1 : Fin 2) ⟨e.val, h⟩) := by
  unfold dstT
  exact (concatenate_pair_apply_left (s₁ := S160000) (s₂ := S10000) _ _ _ _ (ix1 e) rfl (ix1 (⟨e.val, h⟩ : Fin 160000))
    (fun b => by match b with | ⟨0, _⟩ => rfl)).trans (row1_apply ei _)

/-- A self loop's source is its node. -/
theorem srcT_ge (ei : IVec S2x160000 32) (e : Fin 170000) (h : 160000 ≤ e.val) :
    srcT ei (ix1 e) = BitVec.ofNat 32 (e.val - 160000) := by
  unfold srcT
  have hlt : e.val - 160000 < 10000 := by have := e.isLt; omega
  refine (concatenate_pair_apply_right (s₁ := S160000) (s₂ := S10000) _ _ _ _ (ix1 e) rfl rfl (ix1 (⟨e.val - 160000, hlt⟩ : Fin 10000))
    (fun b hb => ?_) ?_).trans ?_
  · exact absurd (Subsingleton.elim _ _) hb
  · show (e.val - 160000) + 160000 = e.val
    omega
  · rfl

/-- A self loop's destination is its node. -/
theorem dstT_ge (ei : IVec S2x160000 32) (e : Fin 170000) (h : 160000 ≤ e.val) :
    dstT ei (ix1 e) = BitVec.ofNat 32 (e.val - 160000) := by
  unfold dstT
  have hlt : e.val - 160000 < 10000 := by have := e.isLt; omega
  refine (concatenate_pair_apply_right (s₁ := S160000) (s₂ := S10000) _ _ _ _ (ix1 e) rfl rfl (ix1 (⟨e.val - 160000, hlt⟩ : Fin 10000))
    (fun b hb => ?_) ?_).trans ?_
  · exact absurd (Subsingleton.elim _ _) hb
  · show (e.val - 160000) + 160000 = e.val
    omega
  · rfl

/-! ## The end nodes are node numbers -/

/-- A vector without negative entries is its own wrap. -/
theorem wrapT_of_nonneg (v : IVec S170000 32) (hv : ∀ j, 0 ≤ (v j).toInt) : wrapT v = v := by
  funext j
  unfold wrapT
  rw [select_apply]
  have hz : cmpi .slt v (broadcastInDim S170000 ![] bcast_S_S170000 (constantI S_ 32 0#32)) j = 0#1 := by
    show IntOp.cmpi .slt (v j) 0#32 = 0#1
    unfold IntOp.cmpi
    show BitVec.ofBool ((v j).slt 0#32) = 0#1
    have hn : ¬ ((v j).toInt < (0#32 : BitVec 32).toInt) := by
      have := hv j
      rw [BitVec.toInt_zero]; omega
    rw [BitVec.slt, decide_eq_false hn]
    rfl
  rw [hz, select_zero]

section Range
variable (ei : IVec S2x160000 32) (hr : ∀ i, 0 ≤ (ei i).toInt ∧ (ei i).toInt < 10000)
include hr

/-- An entry of the edge array, read unsigned, is a node number. -/
theorem entry_toNat_lt (i : S2x160000.Idx) : (ei i).toNat < 10000 := by
  have h := hr i
  have e := BitVec.toInt_eq_toNat_cond (ei i)
  have := (ei i).isLt
  omega

theorem sN_lt (e : Fin 170000) : sN ei e < 10000 := by
  unfold sN
  by_cases h : e.val < 160000
  · rw [srcT_lt ei e h]; exact entry_toNat_lt ei hr _
  · rw [srcT_ge ei e (by omega), BitVec.toNat_ofNat]
    have := e.isLt
    exact lt_of_le_of_lt (Nat.mod_le _ _) (by omega)

theorem dN_lt (e : Fin 170000) : dN ei e < 10000 := by
  unfold dN
  by_cases h : e.val < 160000
  · rw [dstT_lt ei e h]; exact entry_toNat_lt ei hr _
  · rw [dstT_ge ei e (by omega), BitVec.toNat_ofNat]
    have := e.isLt
    exact lt_of_le_of_lt (Nat.mod_le _ _) (by omega)

/-- A source entry read signed is the source node. -/
theorem src_toInt (e : Fin 170000) : (srcT ei (ix1 e)).toInt = (sN ei e : ℤ) := by
  have h := sN_lt ei hr e
  unfold sN at h ⊢
  have c := BitVec.toInt_eq_toNat_cond (srcT ei (ix1 e))
  omega

/-- A destination entry read signed is the destination node. -/
theorem dst_toInt (e : Fin 170000) : (dstT ei (ix1 e)).toInt = (dN ei e : ℤ) := by
  have h := dN_lt ei hr e
  unfold dN at h ⊢
  have c := BitVec.toInt_eq_toNat_cond (dstT ei (ix1 e))
  omega

theorem wrap_src : wrapT (srcT ei) = srcT ei :=
  wrapT_of_nonneg _ (fun j => by
    obtain ⟨e, rfl⟩ : ∃ e : Fin 170000, j = ix1 e := ⟨j 0, eq_ix1 j⟩
    rw [src_toInt ei hr]; exact Int.natCast_nonneg _)

theorem wrap_dst : wrapT (dstT ei) = dstT ei :=
  wrapT_of_nonneg _ (fun j => by
    obtain ⟨e, rfl⟩ : ∃ e : Fin 170000, j = ix1 e := ⟨j 0, eq_ix1 j⟩
    rw [dst_toInt ei hr]; exact Int.natCast_nonneg _)

end Range

/-- A self loop runs from its node to its node. -/
theorem self_loop (ei : IVec S2x160000 32) (e : Fin 170000) (h : 160000 ≤ e.val) :
    sN ei e = e.val - 160000 ∧ dN ei e = e.val - 160000 := by
  have hlt : e.val - 160000 < 2 ^ 32 := by have := e.isLt; omega
  unfold sN dN
  rw [srcT_ge ei e h, dstT_ge ei e h, BitVec.toNat_ofNat, Nat.mod_eq_of_lt hlt]
  exact ⟨rfl, rfl⟩

/-- A given edge's source node is its entry in row 0. -/
theorem edge_src (ei : IVec S2x160000 32) (e : Fin 170000) (h : e.val < 160000) :
    sN ei e = (ei (ix2 (0 : Fin 2) ⟨e.val, h⟩)).toNat := by
  unfold sN; rw [srcT_lt ei e h]

/-- A given edge's destination node is its entry in row 1. -/
theorem edge_dst (ei : IVec S2x160000 32) (e : Fin 170000) (h : e.val < 160000) :
    dN ei e = (ei (ix2 (1 : Fin 2) ⟨e.val, h⟩)).toNat := by
  unfold dN; rw [dstT_lt ei e h]

/-! ## The in-degree: how many edges run into a node -/

/-- A sum of ones over a finite set is its number of elements. -/
theorem sum_one_eq_card {ι : Type} [DecidableEq ι] (s : Finset ι) :
    ∑ _x ∈ s, (1 : EReal) = ((s.card : ℝ) : EReal) := by
  induction s using Finset.induction_on with
  | empty => simp
  | insert a s ha ih =>
    rw [Finset.sum_insert ha, ih, Finset.card_insert_of_notMem ha, Nat.cast_add, Nat.cast_one, EReal.coe_add,
      EReal.coe_one, add_comm]

/-- A rank-1 index built from a coordinate has that coordinate. -/
theorem ix1_val {n : ℕ} (e : Fin n) (X : Fin (⟨1, ![n]⟩ : Shape).rank) :
    ((ix1 e : (⟨1, ![n]⟩ : Shape).Idx) X).val = e.val := by
  obtain rfl : X = 0 := Subsingleton.elim _ _
  rfl

/-- The scatter reads edge e's start index in row e of the column of destinations. -/
theorem scatter_siIdx_zero (e : Fin 170000)
    (c : Fin scatter_S10000_S170000x1_S170000_n_0_0_1.scatterDimsToOperandDims.length) :
    ((scatter_S10000_S170000x1_S170000_n_0_0_1.siIdx (ix1 e) c) (0 : Fin 2)).val = e.val := by
  unfold ScatterDims.siIdx
  rw [dif_neg (show ¬ ((0 : Fin 2).val = scatter_S10000_S170000x1_S170000_n_0_0_1.indexVectorDim) from Nat.zero_ne_one)]
  unfold ScatterDims.siCoord
  simp only [Fin.val_cast]
  exact ix1_val e _

/-- The column of destinations, read where the scatter reads edge e's start index, is e's destination. -/
theorem dst_col_apply (ei : IVec S2x160000 32) (e : Fin 170000)
    (c : Fin scatter_S10000_S170000x1_S170000_n_0_0_1.scatterDimsToOperandDims.length) :
    broadcastInDim S170000x1 ![0] bcast_S170000_S170000x1_0 (dstT ei)
      (scatter_S10000_S170000x1_S170000_n_0_0_1.siIdx (ix1 e) c) = dstT ei (ix1 e) := by
  refine broadcastInDim_apply _ _ _ _ (ix1 e) (fun a => ?_)
  match a with
  | ⟨0, _⟩ =>
    split
    · next h1 =>
      have h2 : (170000 : ℕ) = 1 := h1
      exact absurd h2 (by decide)
    · exact (scatter_siIdx_zero e c).symm

/-- The scatter has no window: an update is one element. -/
theorem scatter_window (u : S170000.Idx) (a : Fin S10000.rank) :
    scatter_S10000_S170000x1_S170000_n_0_0_1.window u a = 0 := by
  unfold ScatterDims.window
  rw [dif_neg]
  obtain rfl : a = 0 := Subsingleton.elim _ _
  show (0 : Fin 1) ∉ Shape.kept S10000 [0]
  decide

section Degree
variable (ei : IVec S2x160000 32) (hr : ∀ i, 0 ≤ (ei i).toInt ∧ (ei i).toInt < 10000)
include hr

/-- Edge e's one lands on its destination node. -/
theorem deg_resultIdx (e : Fin 170000) :
    scatter_S10000_S170000x1_S170000_n_0_0_1.resultIdx? (ix1 e)
      (broadcastInDim S170000x1 ![0] bcast_S170000_S170000x1_0 (dstT ei))
      = some (ix1 (⟨dN ei e, dN_lt ei hr e⟩ : Fin 10000)) := by
  have hs : ∀ a, scatter_S10000_S170000x1_S170000_n_0_0_1.start (ix1 e)
      (broadcastInDim S170000x1 ![0] bcast_S170000_S170000x1_0 (dstT ei)) a
      + scatter_S10000_S170000x1_S170000_n_0_0_1.window (ix1 e) a = (dN ei e : ℤ) := by
    intro a
    obtain rfl : a = 0 := Subsingleton.elim _ _
    rw [scatter_window, Nat.cast_zero, add_zero]
    unfold ScatterDims.start
    rw [dif_pos (show (0 : Fin 1) ∈ scatter_S10000_S170000x1_S170000_n_0_0_1.scatterDimsToOperandDims from
      List.mem_singleton.mpr rfl), dst_col_apply ei e _, dst_toInt ei hr e]
  have hlt := dN_lt ei hr e
  unfold ScatterDims.resultIdx?
  rw [dif_pos (fun a => by
    rw [hs a]
    obtain rfl : a = 0 := Subsingleton.elim _ _
    show 0 ≤ (dN ei e : ℤ) ∧ (dN ei e : ℤ) < ((10000 : ℕ) : ℤ)
    constructor <;> omega)]
  congr 1
  funext a
  apply Fin.ext
  show (scatter_S10000_S170000x1_S170000_n_0_0_1.start (ix1 e)
      (broadcastInDim S170000x1 ![0] bcast_S170000_S170000x1_0 (dstT ei)) a
      + scatter_S10000_S170000x1_S170000_n_0_0_1.window (ix1 e) a).toNat = _
  rw [hs a, Int.toNat_natCast, ix1_val]

/-- An update lands on node j exactly when its edge runs into j. -/
theorem deg_mem_iff (u : S170000.Idx) (j : Fin 10000) :
    scatter_S10000_S170000x1_S170000_n_0_0_1.resultIdx? u
      (broadcastInDim S170000x1 ![0] bcast_S170000_S170000x1_0 (dstT ei)) = some (ix1 j)
      ↔ dN ei (idxEquiv1 u) = j.val := by
  obtain ⟨e, rfl⟩ : ∃ e : Fin 170000, u = ix1 e := ⟨u 0, eq_ix1 u⟩
  rw [deg_resultIdx ei hr e]
  show some (ix1 (⟨dN ei e, dN_lt ei hr e⟩ : Fin 10000)) = some (ix1 j) ↔ dN ei e = j.val
  constructor
  · intro h
    have h2 := congrFun (Option.some.inj h) (0 : Fin 1)
    exact congrArg Fin.val h2
  · intro h
    exact congrArg some (congrArg (ix1 (n := 10000)) (Fin.ext h))

/-- A node's in-degree is the number of edges into it. -/
theorem deg_apply (j : Fin 10000) :
    degT (F := Ideal) ei (ix1 j)
      = (((Finset.univ.filter fun e : Fin 170000 => dN ei e = j.val).card : ℝ) : EReal) := by
  unfold degT Host.scatterAdd
  rw [Ideal.hostScatterAdd_def]
  unfold Ideal.hostScatterAdd
  have h0 : (broadcastInDim S10000 ![] bcast_S_S10000 (constant (F := Ideal) S_ .f32 0x00000000#32)) (ix1 j) = 0 :=
    Ideal.ofBits_zero_f32
  have h1 : ∀ u, (broadcastInDim S170000 ![] bcast_S_S170000 (constant (F := Ideal) S_ .f32 0x3F800000#32)) u = 1 :=
    fun _ => Ideal.ofBits_one_f32
  rw [h0, zero_add, Finset.sum_congr rfl (fun u _ => h1 u), sum_one_eq_card]
  refine congrArg (fun n : ℕ => ((n : ℝ) : EReal)) ?_
  exact Finset.card_equiv idxEquiv1 (fun u => by
    simp only [Finset.mem_filter, Finset.mem_univ, true_and]
    exact deg_mem_iff ei hr u j)

end Degree

/-- Every node has an edge into it: its self loop. -/
theorem deg_pos (ei : IVec S2x160000 32) (j : Fin 10000) :
    1 ≤ (Finset.univ.filter fun e : Fin 170000 => dN ei e = j.val).card := by
  have hj := j.isLt
  have hlt : 160000 + j.val < 170000 := by omega
  have hmem : (⟨160000 + j.val, hlt⟩ : Fin 170000) ∈ Finset.univ.filter (fun e : Fin 170000 => dN ei e = j.val) := by
    rw [Finset.mem_filter]
    refine ⟨Finset.mem_univ _, ?_⟩
    rw [(self_loop ei ⟨160000 + j.val, hlt⟩ (Nat.le_add_right _ _)).2]
    exact Nat.add_sub_cancel_left _ _
  have hc := Finset.card_pos.mpr ⟨_, hmem⟩
  omega

/-! ## The inverse square roots and the edge weights -/

/-- The number of edges into node j. -/
def cnt (ei : IVec S2x160000 32) (j : ℕ) : ℕ := (Finset.univ.filter fun e : Fin 170000 => dN ei e = j).card

/-- The two spellings of a rank-1 index from its coordinate agree. -/
theorem ofFin_eq_ix1 {n : ℕ} (p : Fin n) : Shape.Idx.ofFin p = ix1 p := by
  funext a
  obtain rfl : a = 0 := Subsingleton.elim _ _
  exact Fin.ext rfl

/-- A gather from a node vector at a column of node numbers reads the vector at edge e's node. -/
theorem gather_node_apply {α : Type} (x : S10000.Idx → α) (v : IVec S170000 32) (e : Fin 170000) (n : ℕ)
    (hn : n < 10000) (hv : (v (ix1 e)).toInt = (n : ℤ)) :
    Host.gather gather_S10000_S170000x1_S170000_n_0_n_n_0_1_1 x
      (broadcastInDim S170000x1 ![0] bcast_S170000_S170000x1_0 v) (ix1 e) = x (ix1 (⟨n, hn⟩ : Fin 10000)) := by
  rw [← ofFin_eq_ix1 e, StableHlo.Predicate.gather_take gather_S10000_S170000x1_S170000_n_0_n_n_0_1_1 rfl rfl rfl rfl x
    (broadcastInDim S170000x1 ![0] bcast_S170000_S170000x1_0 v) e (by decide), ofFin_eq_ix1]
  refine congrArg x (congrArg (ix1 (n := 10000)) (Fin.ext ?_))
  show min ((broadcastInDim S170000x1 ![0] bcast_S170000_S170000x1_0 v) (StableHlo.Predicate.ixP e)).toInt.toNat
    (10000 - 1) = n
  rw [StableHlo.Predicate.bcast_col1, ofFin_eq_ix1, hv, Int.toNat_natCast]
  omega

section Weight
variable (ei : IVec S2x160000 32) (hr : ∀ i, 0 ≤ (ei i).toInt ∧ (ei i).toInt < 10000)
include hr

/-- A node's in-degree, with the count named. -/
theorem deg_cnt (j : Fin 10000) : degT (F := Ideal) ei (ix1 j) = ((cnt ei j.val : ℝ) : EReal) :=
  deg_apply ei hr j

/-- A node's inverse square root of its in-degree is a positive real's. -/
theorem dinv_apply (j : Fin 10000) :
    dinvT (F := Ideal) ei (ix1 j) = (((Real.sqrt (cnt ei j.val))⁻¹ : ℝ) : EReal) := by
  have hpos : (0 : ℝ) < (cnt ei j.val : ℝ) := by
    have h1 := deg_pos ei j
    unfold cnt
    exact_mod_cast h1
  unfold dinvT Host.rsqrt
  rw [Ideal.hostUnary_rsqrt_def, deg_cnt ei hr j, Ideal.rsqrt_coe, if_neg (not_lt.mpr hpos.le), if_neg hpos.ne']

/-- An edge's weight is the product of its end nodes' inverse square roots of the in-degree. -/
theorem nrmN_eq (e : Fin 170000) :
    nrmN ei e = (((Real.sqrt (cnt ei (sN ei e)))⁻¹ * (Real.sqrt (cnt ei (dN ei e)))⁻¹ : ℝ) : EReal) := by
  unfold nrmN nrmT
  rw [mulf_apply, wrap_src ei hr, wrap_dst ei hr,
    gather_node_apply _ (srcT ei) e (sN ei e) (sN_lt ei hr e) (src_toInt ei hr e),
    gather_node_apply _ (dstT ei) e (dN ei e) (dN_lt ei hr e) (dst_toInt ei hr e),
    dinv_apply ei hr, dinv_apply ei hr, ← EReal.coe_mul]

/-- An edge's weight is a real number. -/
theorem nrm_finite (e : Fin 170000) : ∃ r : ℝ, nrmN ei e = (r : EReal) := ⟨_, nrmN_eq ei hr e⟩

end Weight

end Cert.KernelIdeal.Chain

end
-- ==== Proof.PreFacts.lean ====
/- The precondition read back into facts about the eight arguments.

   The precondition is a conjunction of nine tests, each "every entry of an array passes": for each of the seven float
   arguments, |x| < +∞ at every entry; for the edge table, e ≥ 0 at every entry and e < 10000 at every entry, both read
   signed. Each "every entry" is a reduction by "and" from 1 over all axes, and the nine results are joined by "and"; the
   claim's hypothesis is that the final word is 1.

   A conjunction of one-bit words is 1 exactly when each is; a reduction by "and" that is 1 met only 1s. So each of the
   nine tests holds at every index. Over the extended reals +∞ is the top element and |x| is max x (-x), so |x| < +∞ fails
   at both infinities and holds at every real: an entry passing the test is a real number. The two integer tests say
   0 ≤ e and e < 10000 of the entry's signed value. -/
import proofs.«426459_j40699110097621_1_alg».proof.Pre_finite_inputs
import Idealize.ShloMosaic.Lib.ReduceAll
import Idealize.ShloMosaic.Lib.ValueIdx

noncomputable section

namespace Cert.PreFacts

open Idealize.ShloMosaic Idealize.ShloMosaic.ValueIdx
open Cert.Pre_finite_inputs

/-- The scalar shape has one index. -/
instance : Subsingleton S_.Idx := ⟨fun a b => funext fun d => d.elim0⟩

/-- The word 0x7F800000 is +∞: sign 0, exponent all ones, fraction 0. -/
theorem inf_eq_top : Ideal.ofBits .f32 0x7F800000#32 = (⊤ : EReal) := by
  simp [Ideal.ofBits, Ideal.ieee]

/-- On one value: |x| < +∞ says that x is a real number. At either infinity max x (-x) is +∞. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [inf_eq_top] at h
  unfold Ideal.cmp at h
  induction x using EReal.rec with
  | bot => simp at h
  | coe r => exact ⟨r, rfl⟩
  | top => simp at h

/-- On one array: "every entry has |x| < +∞" came out 1, so every entry is a real number. -/
theorem real_of_all {s : Shape} {axes : List (Fin s.rank)} (x : FVec Ideal s .f32)
    (b : S_.BroadcastsInDim s (![] : Fin 0 → Fin s.rank)) (r : s.ReducesTo axes S_) (hS : 0 < S_.numel)
    (e : Host.reduce IntOp.andi
          (cmpf .olt (Host.absf x) (broadcastInDim s ![] b (constant (F := Ideal) S_ .f32 0x7F800000#32)))
          (constantI S_ 1 1#1) r hS ix0 = 1#1)
    (i : s.Idx) : ∃ r : ℝ, x i = (r : EReal) :=
  real_of_abs_lt (x i) (Host.reduce_andi_all _ _ r hS ix0 e i)

/-- On the edge table: "every entry is ≥ 0" came out 1, so every entry's signed value is nonnegative. -/
theorem nonneg_of_all {s : Shape} {axes : List (Fin s.rank)} (x : IVec s 32)
    (b : S_.BroadcastsInDim s (![] : Fin 0 → Fin s.rank)) (r : s.ReducesTo axes S_) (hS : 0 < S_.numel)
    (e : Host.reduce IntOp.andi (cmpi .sge x (broadcastInDim s ![] b (constantI S_ 32 0#32)))
          (constantI S_ 1 1#1) r hS ix0 = 1#1)
    (i : s.Idx) : 0 ≤ (x i).toInt := by
  have h : IntOp.cmpi .sge (x i) 0#32 = 1#1 := Host.reduce_andi_all _ _ r hS ix0 e i
  rw [IntOp.cmpi_sge] at h
  simpa using h

/-- On the edge table: "every entry is < 10000" came out 1, so every entry's signed value is below 10000. -/
theorem lt_of_all {s : Shape} {axes : List (Fin s.rank)} (x : IVec s 32)
    (b : S_.BroadcastsInDim s (![] : Fin 0 → Fin s.rank)) (r : s.ReducesTo axes S_) (hS : 0 < S_.numel)
    (e : Host.reduce IntOp.andi (cmpi .slt x (broadcastInDim s ![] b (constantI S_ 32 10000#32)))
          (constantI S_ 1 1#1) r hS ix0 = 1#1)
    (i : s.Idx) : (x i).toInt < 10000 := by
  have h : IntOp.cmpi .slt (x i) 10000#32 = 1#1 := Host.reduce_andi_all _ _ r hS ix0 e i
  rw [IntOp.cmpi_slt] at h
  have c : (10000#32 : BitVec 32).toInt = 10000 := by decide
  rw [c] at h
  exact h

variable [Facts]

/-- The hypothesis taken apart: the final word is the "and" of nine reductions, so each reduction is 1, and each
    reduction that is 1 gives its test at every index. Nine facts, in the order of the tests. -/
theorem split (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, 0 ≤ (a7 i).toInt) ∧ (∀ i, (a7 i).toInt < 10000) := by
  have e := congrFun h ix0
  dsimp only [fn, fn_part1, fn_part2] at e
  simp only [andi, IntOp.andi_eq_one] at e
  obtain ⟨⟨⟨⟨⟨⟨⟨⟨h0, h1⟩, h2⟩, h3⟩, h4⟩, h5⟩, h6⟩, h7⟩, h8⟩ := e
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6, nonneg_of_all a7 _ _ _ h7,
    lt_of_all a7 _ _ _ h8⟩

/-- Every entry of the data array is a real number. -/
theorem real_a0 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a0 i = (r : EReal) := (split a0 a1 a2 a3 a4 a5 a6 a7 h).1

/-- The convolution's weight is a real number. -/
theorem real_a1 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a1 i = (r : EReal) := (split a0 a1 a2 a3 a4 a5 a6 a7 h).2.1

/-- The convolution's bias is a real number. -/
theorem real_a2 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a2 i = (r : EReal) := (split a0 a1 a2 a3 a4 a5 a6 a7 h).2.2.1

/-- Every entry of the first dense layer's weights is a real number. -/
theorem real_a3 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a3 i = (r : EReal) := (split a0 a1 a2 a3 a4 a5 a6 a7 h).2.2.2.1

/-- Every entry of the first dense layer's bias is a real number. -/
theorem real_a4 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a4 i = (r : EReal) := (split a0 a1 a2 a3 a4 a5 a6 a7 h).2.2.2.2.1

/-- Every entry of the second dense layer's weights is a real number. -/
theorem real_a5 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a5 i = (r : EReal) := (split a0 a1 a2 a3 a4 a5 a6 a7 h).2.2.2.2.2.1

/-- Every entry of the second dense layer's bias is a real number. -/
theorem real_a6 (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, ∃ r : ℝ, a6 i = (r : EReal) := (split a0 a1 a2 a3 a4 a5 a6 a7 h).2.2.2.2.2.2.1

/-- Every entry of the edge table, read signed, is nonnegative. -/
theorem edge_nonneg (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, 0 ≤ (a7 i).toInt := (split a0 a1 a2 a3 a4 a5 a6 a7 h).2.2.2.2.2.2.2.1

/-- Every entry of the edge table, read signed, is below 10000. -/
theorem edge_lt (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, (a7 i).toInt < 10000 := (split a0 a1 a2 a3 a4 a5 a6 a7 h).2.2.2.2.2.2.2.2

/-- Every entry of the edge table names a node: 0 ≤ e < 10000. -/
theorem edge_range (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    ∀ i, 0 ≤ (a7 i).toInt ∧ (a7 i).toInt < 10000 :=
  fun i => ⟨edge_nonneg a0 a1 a2 a3 a4 a5 a6 a7 h i, edge_lt a0 a1 a2 a3 a4 a5 a6 a7 h i⟩

/-- THE PRECONDITION DECODED: every float argument is real at every entry, and every edge entry names a node. -/
theorem of_pre (a0 : FVec Ideal S256x10000 .f32) (a1 a2 : FVec Ideal S1 .f32)
    (a3 : FVec Ideal S10000x1024 .f32) (a4 : FVec Ideal S1024 .f32) (a5 : FVec Ideal S1024x128 .f32)
    (a6 : FVec Ideal S128 .f32) (a7 : IVec S2x160000 32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, 0 ≤ (a7 i).toInt ∧ (a7 i).toInt < 10000) :=
  ⟨real_a0 a0 a1 a2 a3 a4 a5 a6 a7 h, real_a1 a0 a1 a2 a3 a4 a5 a6 a7 h, real_a2 a0 a1 a2 a3 a4 a5 a6 a7 h,
    real_a3 a0 a1 a2 a3 a4 a5 a6 a7 h, real_a4 a0 a1 a2 a3 a4 a5 a6 a7 h, real_a5 a0 a1 a2 a3 a4 a5 a6 a7 h,
    real_a6 a0 a1 a2 a3 a4 a5 a6 a7 h, edge_range a0 a1 a2 a3 a4 a5 a6 a7 h⟩

end Cert.PreFacts

end
-- ==== Proof.Bridge.lean ====
/- The kernel's padded forms compute the common value.

   The kernel contracts over a node axis padded from 10000 to 10240. In the convolution the padded feature columns are
   zero, so the padded terms of the contraction vanish (zero times any extended real is zero), and the remaining sum over
   source nodes of a feature times a weighted entry of the edge-weight matrix regroups, all entries being real, into the
   double sum over edges and source nodes of the indicated messages. In the first dense layer the padded rows of the
   weight matrix are zero, so whatever the convolution holds in its padded columns is multiplied by zero. The biases
   enter as one-row arrays holding the same numbers. -/
import proofs.«426459_j40699110097621_1_alg».proof.Proof.Spec
import proofs.«426459_j40699110097621_1_alg».proof.Proof.Algebra
import Mathlib.Data.EReal.Basic
import Mathlib.Algebra.BigOperators.Group.Finset.Basic

noncomputable section

open scoped BigOperators

namespace Cert.Bridge

open Idealize.ShloMosaic Idealize.ShloMosaic.ValueIdx

/-! ### The convolution: grouping by source nodes against grouping by edges -/

/-- With real features, a real weight and real edge weights: the sum over source nodes of a feature times the weighted
    entry of the edge-weight matrix (the entry written as a sum started from zero, the edges' ends given as natural
    numbers below 10000) is the double sum over edges and nodes of the indicated messages. -/
theorem row_real (x : Fin 10000 → ℝ) (wr : ℝ) (n : Fin 170000 → ℝ) (sN dN : Fin 170000 → ℕ)
    (hs : ∀ e, sN e < 10000) (hd : ∀ e, dN e < 10000) (j : Fin 10000) :
    (∑ i : Fin 10000, (x i : EReal) *
        ((wr : EReal) * (0 + ∑ e ∈ Finset.univ.filter (fun e : Fin 170000 => sN e = i.val ∧ dN e = j.val), (n e : EReal))))
      = ∑ e : Fin 170000, ∑ i : Fin 10000,
          if sN e = i.val ∧ dN e = j.val then ((x i : EReal) * (wr : EReal)) * (n e : EReal) else 0 := by
  have h := Cert.Algebra.regroup (fun e : Fin 170000 => (⟨sN e, hs e⟩ : Fin 10000))
    (fun e : Fin 170000 => (⟨dN e, hd e⟩ : Fin 10000)) j x wr n
  simp only [Fin.ext_iff] at h
  simp only [zero_add]
  exact h

/-- The kernel's contraction for node `j` of sample `b`, over the padded source axis, is what the node receives. -/
theorem row_eq_agg (data : (⟨2, ![256, 10000]⟩ : Shape).Idx → EReal) (w : EReal)
    (sN dN : Fin 170000 → ℕ) (nrm : Fin 170000 → EReal)
    (hdata : ∀ i, ∃ r : ℝ, data i = (r : EReal)) (hw : ∃ r : ℝ, w = (r : EReal))
    (hn : ∀ e, ∃ r : ℝ, nrm e = (r : EReal)) (hs : ∀ e, sN e < 10000) (hd : ∀ e, dN e < 10000)
    (Xp : (⟨2, ![256, 10240]⟩ : Shape).Idx → EReal)
    (hXp : ∀ (b : Fin 256) (k : Fin 10240),
      Xp (ix2 b k) = if h : k.val < 10000 then data (ix2 b ⟨k.val, h⟩) else 0)
    (Mw : (⟨2, ![10240, 10240]⟩ : Shape).Idx → EReal)
    (hMw : ∀ i j : Fin 10240, Mw (ix2 i j)
      = w * (0 + ∑ e ∈ Finset.univ.filter (fun e : Fin 170000 => sN e = i.val ∧ dN e = j.val), nrm e))
    (b : Fin 256) (j : Fin 10000) :
    (∑ k : Fin 10240, Xp (ix2 b k) * Mw (ix2 k (⟨j.val, by omega⟩ : Fin 10240)))
      = Cert.Spec.agg data w sN dN nrm b j := by
  obtain ⟨wr, rfl⟩ := hw
  choose x hx using hdata
  choose n hn' using hn
  have hpad : ∀ k : Fin 10240, 10000 ≤ k.val →
      Xp (ix2 b k) * Mw (ix2 k (⟨j.val, by omega⟩ : Fin 10240)) = 0 := by
    intro k hk
    rw [hXp b k, dif_neg (by omega), zero_mul]
  rw [Cert.Algebra.sum_pad _ hpad]
  have hterm : ∀ i : Fin 10000,
      Xp (ix2 b (⟨i.val, by omega⟩ : Fin 10240))
          * Mw (ix2 (⟨i.val, by omega⟩ : Fin 10240) (⟨j.val, by omega⟩ : Fin 10240))
        = ((x (ix2 b i) : ℝ) : EReal) * ((wr : EReal) *
            (0 + ∑ e ∈ Finset.univ.filter (fun e : Fin 170000 => sN e = i.val ∧ dN e = j.val), (n e : EReal))) := by
    intro i
    have hX : Xp (ix2 b (⟨i.val, by omega⟩ : Fin 10240)) = data (ix2 b i) := by
      rw [hXp]
      exact dif_pos i.isLt
    have hsum : (∑ e ∈ Finset.univ.filter (fun e : Fin 170000 => sN e = i.val ∧ dN e = j.val), nrm e)
        = ∑ e ∈ Finset.univ.filter (fun e : Fin 170000 => sN e = i.val ∧ dN e = j.val), (n e : EReal) :=
      Finset.sum_congr rfl (fun e _ => hn' e)
    rw [hX, hx, hMw]
    exact congrArg (fun t => ((x (ix2 b i) : ℝ) : EReal) * ((wr : EReal) * (0 + t))) hsum
  rw [Finset.sum_congr rfl (fun i _ => hterm i)]
  rw [row_real (fun i => x (ix2 b i)) wr n sN dN hs hd j]
  unfold Cert.Spec.agg
  refine Finset.sum_congr rfl (fun e _ => Finset.sum_congr rfl (fun i _ => ?_))
  rw [hx, hn']

/-- For a true node `j` the kernel's padded convolution holds the convolution's output. -/
theorem layerK_eq_conv (data : (⟨2, ![256, 10000]⟩ : Shape).Idx → EReal) (w gb : EReal)
    (sN dN : Fin 170000 → ℕ) (nrm : Fin 170000 → EReal)
    (hdata : ∀ i, ∃ r : ℝ, data i = (r : EReal)) (hw : ∃ r : ℝ, w = (r : EReal))
    (hn : ∀ e, ∃ r : ℝ, nrm e = (r : EReal)) (hs : ∀ e, sN e < 10000) (hd : ∀ e, dN e < 10000)
    (Xp : (⟨2, ![256, 10240]⟩ : Shape).Idx → EReal)
    (hXp : ∀ (b : Fin 256) (k : Fin 10240),
      Xp (ix2 b k) = if h : k.val < 10000 then data (ix2 b ⟨k.val, h⟩) else 0)
    (Mw : (⟨2, ![10240, 10240]⟩ : Shape).Idx → EReal)
    (hMw : ∀ i j : Fin 10240, Mw (ix2 i j)
      = w * (0 + ∑ e ∈ Finset.univ.filter (fun e : Fin 170000 => sN e = i.val ∧ dN e = j.val), nrm e))
    (b : Fin 256) (j : Fin 10000) :
    Cert.Spec.layerK Xp Mw gb (ix2 b (⟨j.val, by omega⟩ : Fin 10240))
      = Cert.Spec.conv data w gb sN dN nrm b j := by
  show Cert.Spec.relu ((∑ k : Fin 10240, Xp (ix2 b k) * Mw (ix2 k (⟨j.val, _⟩ : Fin 10240))) + gb)
      = Cert.Spec.relu (Cert.Spec.agg data w sN dN nrm b j + gb)
  rw [row_eq_agg data w sN dN nrm hdata hw hn hs hd Xp hXp Mw hMw b j]

/-! ### The first dense layer: the padded rows of the weights are zero -/

/-- The kernel's first contraction over the padded node axis is the contraction over the true nodes of the
    convolution's output: the padded rows of the weight matrix are zero, and anything times zero is zero. -/
theorem dense1 (data : (⟨2, ![256, 10000]⟩ : Shape).Idx → EReal) (w gb : EReal)
    (W1 : (⟨2, ![10000, 1024]⟩ : Shape).Idx → EReal)
    (sN dN : Fin 170000 → ℕ) (nrm : Fin 170000 → EReal)
    (hdata : ∀ i, ∃ r : ℝ, data i = (r : EReal)) (hw : ∃ r : ℝ, w = (r : EReal))
    (hn : ∀ e, ∃ r : ℝ, nrm e = (r : EReal)) (hs : ∀ e, sN e < 10000) (hd : ∀ e, dN e < 10000)
    (Xp : (⟨2, ![256, 10240]⟩ : Shape).Idx → EReal)
    (hXp : ∀ (b : Fin 256) (k : Fin 10240),
      Xp (ix2 b k) = if h : k.val < 10000 then data (ix2 b ⟨k.val, h⟩) else 0)
    (Mw : (⟨2, ![10240, 10240]⟩ : Shape).Idx → EReal)
    (hMw : ∀ i j : Fin 10240, Mw (ix2 i j)
      = w * (0 + ∑ e ∈ Finset.univ.filter (fun e : Fin 170000 => sN e = i.val ∧ dN e = j.val), nrm e))
    (W1p : (⟨2, ![10240, 1024]⟩ : Shape).Idx → EReal)
    (hW1p : ∀ (j : Fin 10240) (h : Fin 1024),
      W1p (ix2 j h) = if hj : j.val < 10000 then W1 (ix2 ⟨j.val, hj⟩ h) else 0)
    (b : Fin 256) (h : Fin 1024) :
    (∑ j : Fin 10240, Cert.Spec.layerK Xp Mw gb (ix2 b j) * W1p (ix2 j h))
      = ∑ j : Fin 10000, Cert.Spec.conv data w gb sN dN nrm b j * W1 (ix2 j h) := by
  have hpad : ∀ k : Fin 10240, 10000 ≤ k.val → W1p (ix2 k h) = 0 := by
    intro k hk
    rw [hW1p k h, dif_neg (by omega)]
  refine (Cert.Algebra.sum_pad_mul (fun j : Fin 10240 => Cert.Spec.layerK Xp Mw gb (ix2 b j))
    (fun j : Fin 10240 => W1p (ix2 j h)) hpad).trans ?_
  refine Finset.sum_congr rfl (fun j _ => ?_)
  have hW : W1p (ix2 (⟨j.val, by omega⟩ : Fin 10240) h) = W1 (ix2 j h) := by
    rw [hW1p]
    exact dif_pos j.isLt
  show Cert.Spec.layerK Xp Mw gb (ix2 b (⟨j.val, _⟩ : Fin 10240)) * W1p (ix2 (⟨j.val, _⟩ : Fin 10240) h)
      = Cert.Spec.conv data w gb sN dN nrm b j * W1 (ix2 j h)
  rw [layerK_eq_conv data w gb sN dN nrm hdata hw hn hs hd Xp hXp Mw hMw b j, hW]

/-! ### The whole network -/

/-- The kernel's padded forms, fed the padded features, the weighted edge-weight matrix, the padded weights and the
    one-row biases, compute the common value. -/
theorem bridge (data : (⟨2, ![256, 10000]⟩ : Shape).Idx → EReal) (w gb : EReal)
    (W1 : (⟨2, ![10000, 1024]⟩ : Shape).Idx → EReal) (b1 : (⟨1, ![1024]⟩ : Shape).Idx → EReal)
    (W2 : (⟨2, ![1024, 128]⟩ : Shape).Idx → EReal) (b2 : (⟨1, ![128]⟩ : Shape).Idx → EReal)
    (sN dN : Fin 170000 → ℕ) (nrm : Fin 170000 → EReal)
    (hdata : ∀ i, ∃ r : ℝ, data i = (r : EReal)) (hw : ∃ r : ℝ, w = (r : EReal))
    (hn : ∀ e, ∃ r : ℝ, nrm e = (r : EReal)) (hs : ∀ e, sN e < 10000) (hd : ∀ e, dN e < 10000)
    (Xp : (⟨2, ![256, 10240]⟩ : Shape).Idx → EReal)
    (hXp : ∀ (b : Fin 256) (k : Fin 10240),
      Xp (ix2 b k) = if h : k.val < 10000 then data (ix2 b ⟨k.val, h⟩) else 0)
    (Mw : (⟨2, ![10240, 10240]⟩ : Shape).Idx → EReal)
    (hMw : ∀ i j : Fin 10240, Mw (ix2 i j)
      = w * (0 + ∑ e ∈ Finset.univ.filter (fun e : Fin 170000 => sN e = i.val ∧ dN e = j.val), nrm e))
    (W1p : (⟨2, ![10240, 1024]⟩ : Shape).Idx → EReal)
    (hW1p : ∀ (j : Fin 10240) (h : Fin 1024),
      W1p (ix2 j h) = if hj : j.val < 10000 then W1 (ix2 ⟨j.val, hj⟩ h) else 0)
    (b1r : (⟨2, ![1, 1024]⟩ : Shape).Idx → EReal) (hb1r : ∀ h : Fin 1024, b1r (ix2 (0 : Fin 1) h) = b1 (ix1 h))
    (b2r : (⟨2, ![1, 128]⟩ : Shape).Idx → EReal) (hb2r : ∀ o : Fin 128, b2r (ix2 (0 : Fin 1) o) = b2 (ix1 o)) :
    Cert.Spec.mlpK (Cert.Spec.layerK Xp Mw gb) W1p b1r W2 b2r
      = Cert.Spec.net data w gb W1 b1 W2 b2 sN dN nrm := by
  funext i
  obtain ⟨b, o, rfl⟩ : ∃ (b : Fin 256) (o : Fin 128), i = ix2 b o := ⟨i 0, i 1, eq_ix2 i⟩
  have hhid : ∀ h : Fin 1024,
      Cert.Spec.relu ((∑ j : Fin 10240, Cert.Spec.layerK Xp Mw gb (ix2 b j) * W1p (ix2 j h)) + b1r (ix2 (0 : Fin 1) h))
        = Cert.Spec.hidden (Cert.Spec.conv data w gb sN dN nrm) W1 b1 b h := by
    intro h
    rw [dense1 data w gb W1 sN dN nrm hdata hw hn hs hd Xp hXp Mw hMw W1p hW1p b h, hb1r h]
    rfl
  show Cert.Spec.relu ((∑ h : Fin 1024,
        Cert.Spec.relu ((∑ j : Fin 10240, Cert.Spec.layerK Xp Mw gb (ix2 b j) * W1p (ix2 j h))
          + b1r (ix2 (0 : Fin 1) h)) * W2 (ix2 h o))
      + b2r (ix2 (0 : Fin 1) o))
    = Cert.Spec.relu ((∑ h : Fin 1024,
        Cert.Spec.hidden (Cert.Spec.conv data w gb sN dN nrm) W1 b1 b h * W2 (ix2 h o)) + b2 (ix1 o))
  rw [hb2r o, Finset.sum_congr rfl (fun h _ => congrArg (fun t => t * W2 (ix2 h o)) (hhid h))]

end Cert.Bridge

end
-- ==== Proof.NetValue.lean ====
/- The idealized kernel's result array is the common value of its arguments.

   The second region's output is the kernel form of the two dense layers over what the first region left, the first
   region's output the kernel form of the convolution over the padded features and the weighted edge matrix; the host
   stages give those arrays index by index; and the kernel forms are the common value when the float inputs are finite
   and every edge index is a node. -/
import proofs.«426459_j40699110097621_1_alg».proof.Defs
import proofs.«426459_j40699110097621_1_alg».proof.Proof.Launch
import proofs.«426459_j40699110097621_1_alg».proof.Proof.R0Value
import proofs.«426459_j40699110097621_1_alg».proof.Proof.R1Value
import proofs.«426459_j40699110097621_1_alg».proof.Proof.KHost
import proofs.«426459_j40699110097621_1_alg».proof.Proof.KHostM
import proofs.«426459_j40699110097621_1_alg».proof.Proof.ChainFacts
import proofs.«426459_j40699110097621_1_alg».proof.Proof.PreFacts
import proofs.«426459_j40699110097621_1_alg».proof.Proof.Bridge
import proofs.«426459_j40699110097621_1_alg».proof.Proof.Gen.Pre_finite_inputs

noncomputable section

namespace Cert.KernelIdeal.Hand

open Idealize.ShloMosaic Idealize.ShloMosaic.TcCoe Idealize.ShloMosaic.ValueIdx Idealize.SL.Sem
open Cert.KernelIdeal Cert.KernelIdeal.Gen

/-- Under the precondition the kernel's result on core `c` is the network of the argument arrays. -/
theorem kernel_net (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) = fun _ => 1#1) :
    (outsH m 8 main_v55 c : S256x128.Idx → EReal)
      = Cert.Spec.net (m ((c.tc : Thread nD τ).loc main_arg0)) (m ((c.tc : Thread nD τ).loc main_arg1) (ix1 (0 : Fin 1)))
          (m ((c.tc : Thread nD τ).loc main_arg2) (ix1 (0 : Fin 1))) (m ((c.tc : Thread nD τ).loc main_arg3))
          (m ((c.tc : Thread nD τ).loc main_arg4)) (m ((c.tc : Thread nD τ).loc main_arg5)) (m ((c.tc : Thread nD τ).loc main_arg6))
          (Chain.sN (m ((c.tc : Thread nD τ).loc main_arg7))) (Chain.dN (m ((c.tc : Thread nD τ).loc main_arg7)))
          (Chain.nrmN (m ((c.tc : Thread nD τ).loc main_arg7))) := by
  obtain ⟨h0, h1, h2, h3, h4, h5, h6, h7⟩ := Cert.PreFacts.of_pre _ _ _ _ _ _ _ _ hpre
  have hs := Chain.sN_lt _ h7
  have hd := Chain.dN_lt _ h7
  have hn := Chain.nrm_finite _ h7
  rw [outsH_v55, arr1_out, kh_v49, outsH_v49, arr0_out, kh_v48, kh_v52]
  exact Cert.Bridge.bridge _ _ _ _ _ _ _ _ _ _ h0 (h1 _) hn hs hd
    _ (kh_v47 m c) _ (kh_v45 m c hs hd (Chain.src_toInt _ h7) (Chain.dst_toInt _ h7))
    _ (kh_v51 m (outsH m) c) _ (kh_v53 m (outsH m) c) _ (kh_v54 m (outsH m) c)

end Cert.KernelIdeal.Hand

end
-- ==== Proof.RefValue.lean ====
/- The reference program's result, index by index over the extended reals: it is the common value `Cert.Spec.net`
   of the data, the convolution's scalar weight and bias, the two dense layers and the edge data.

   The reference gathers each edge's source feature, multiplies by the edge weight, and sums the messages of the edges
   into each destination node (a scatter of rows); the sum grouped by edges is rewritten as the double sum over edges
   and source nodes with an indicator. The two dense layers are read as sums over the contracted axis. -/
import proofs.«426459_j40699110097621_1_alg».proof.Proof.Gen.ReferenceIdeal.Read
import proofs.«426459_j40699110097621_1_alg».proof.Proof.Chain
import proofs.«426459_j40699110097621_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The edge data: the reference's stages are the common terms -/

section Edge
variable [Cert.KernelIdeal.Facts]

/-- The reference's source-node vector is the common one. -/
theorem v3_eq (x7 : IVec S2x160000 32) : val_main_v3 (F := Ideal) x7 = Cert.KernelIdeal.Chain.srcT x7 := rfl

/-- The reference's destination-node vector is the common one. -/
theorem v6_eq (x7 : IVec S2x160000 32) : val_main_v6 (F := Ideal) x7 = Cert.KernelIdeal.Chain.dstT x7 := rfl

/-- The reference's wrapped source vector is the common wrap of the common source vector. -/
theorem v34_eq (x7 : IVec S2x160000 32) :
    val_main_v34 (F := Ideal) x7 = Cert.KernelIdeal.Chain.wrapT (Cert.KernelIdeal.Chain.srcT x7) := rfl

/-- The reference's edge weights are the common ones. -/
theorem v26_eq (x7 : IVec S2x160000 32) : val_main_v26 (F := Ideal) x7 = Cert.KernelIdeal.Chain.nrmT (F := Ideal) x7 := rfl

end Edge

/-! ## The gather of columns and the scatter of rows, read at an index -/

/-- The reference's gather of feature columns: its dimension numbers. -/
abbrev gD := gather_S256x10000_S170000x1_S256x170000_0_1_n_n_1_1_2561
/-- The reference's scatter of message rows: its dimension numbers. -/
abbrev sD := scatter_S10000x256_S170000x1_S170000x256_1_0_0_1

/-- The gather of columns: result element `(b, e)` is the operand at row `b` and the column that start index `e` names,
    read signed and clamped into `[0, 9999]`. -/
theorem gather_cols_apply {α : Type} (x : S256x10000.Idx → α) (idx : IVec S170000x1 32) (b : Fin 256) (e : Fin 170000) :
    Host.gather gD x idx (ix2 b e)
      = x (ix2 b (⟨min (idx (ix2 e (0 : Fin 1))).toInt.toNat 9999, by omega⟩ : Fin 10000)) := by
  unfold Host.gather
  congr 1
  funext a
  refine Fin.ext ?_
  match a with
  | ⟨0, _⟩ =>
    show gD.start (ix2 b e) idx 0 + gD.batchCoord (ix2 b e) 0 + gD.offCoord (ix2 b e) 0 = b.val
    have hs : gD.start (ix2 b e) idx 0 = 0 := by
      unfold GatherDims.start; rw [dif_neg (by decide)]
    have hb : gD.batchCoord (ix2 b e) 0 = 0 := GatherDims.batchCoord_eq_zero _ _ _ (by decide)
    have ho : gD.offCoord (ix2 b e) 0 = b.val := by
      unfold GatherDims.offCoord; rw [dif_pos (by decide)]; rfl
    rw [hs, hb, ho]; omega
  | ⟨1, _⟩ =>
    show gD.start (ix2 b e) idx 1 + gD.batchCoord (ix2 b e) 1 + gD.offCoord (ix2 b e) 1
      = min (idx (ix2 e (0 : Fin 1))).toInt.toNat 9999
    rw [GatherDims.batchCoord_eq_zero _ _ _ (by decide), GatherDims.offCoord_eq_zero _ _ _ (by decide)]
    simp only [Nat.add_zero]
    unfold GatherDims.start
    rw [dif_pos (show (1 : Fin S256x10000.rank) ∈ gD.startIndexMap by decide)]
    have hsi : gD.siIdx (ix2 b e) ⟨List.idxOf (1 : Fin S256x10000.rank) gD.startIndexMap,
        List.idxOf_lt_length_iff.2 (by decide)⟩ = ix2 e (0 : Fin 1) := by
      funext c; refine Fin.ext ?_
      match c with
      | ⟨0, _⟩ => rfl
      | ⟨1, _⟩ => rfl
    rw [hsi]
    rfl

/-- Where update `(e, b')` of the scatter of rows lands: at `(j, b)` exactly when scatter index `e`, read signed, is `j`
    and `b' = b`. -/
theorem scatter_rows_resultIdx (idx : IVec S170000x1 32) (e : Fin 170000) (b' : Fin 256) (j : Fin 10000) (b : Fin 256) :
    sD.resultIdx? (ix2 e b') idx = some (ix2 j b) ↔ (idx (ix2 e (0 : Fin 1))).toInt = (j.val : ℤ) ∧ b' = b := by
  have h0 : sD.start (ix2 e b') idx 0 = (idx (ix2 e (0 : Fin 1))).toInt := by
    unfold ScatterDims.start
    rw [dif_pos (show (0 : Fin S10000x256.rank) ∈ sD.scatterDimsToOperandDims by decide)]
    have hsi : sD.siIdx (ix2 e b') ⟨List.idxOf (0 : Fin S10000x256.rank) sD.scatterDimsToOperandDims,
        List.idxOf_lt_length_iff.2 (by decide)⟩ = ix2 e (0 : Fin 1) := by
      funext c; refine Fin.ext ?_
      match c with
      | ⟨0, _⟩ => rfl
      | ⟨1, _⟩ => rfl
    rw [hsi]
  have h1 : sD.start (ix2 e b') idx 1 = 0 := by
    unfold ScatterDims.start; rw [dif_neg (by decide)]
  have w0 : sD.window (ix2 e b') 0 = 0 := by
    unfold ScatterDims.window; rw [dif_neg (by decide)]
  have w1 : sD.window (ix2 e b') 1 = b'.val := by
    unfold ScatterDims.window; rw [dif_pos (by decide)]; rfl
  have hj := j.isLt
  have hb' := b'.isLt
  unfold ScatterDims.resultIdx?
  split
  · rename_i h
    rw [Option.some.injEq]
    constructor
    · intro hq
      have q0 : (sD.start (ix2 e b') idx 0 + ((sD.window (ix2 e b') 0 : ℕ) : ℤ)).toNat = j.val :=
        congrArg (fun f : S10000x256.Idx => (f 0).val) hq
      have q1 : (sD.start (ix2 e b') idx 1 + ((sD.window (ix2 e b') 1 : ℕ) : ℤ)).toNat = b.val :=
        congrArg (fun f : S10000x256.Idx => (f 1).val) hq
      have p0 : (0 : ℤ) ≤ sD.start (ix2 e b') idx 0 + ((sD.window (ix2 e b') 0 : ℕ) : ℤ) := (h 0).1
      rw [h0, w0] at q0 p0
      rw [h1, w1] at q1
      exact ⟨by omega, Fin.ext (by omega)⟩
    · rintro ⟨hq0, hq1⟩
      subst hq1
      funext a; refine Fin.ext ?_
      match a with
      | ⟨0, _⟩ =>
        show (sD.start (ix2 e b') idx 0 + ((sD.window (ix2 e b') 0 : ℕ) : ℤ)).toNat = j.val
        rw [h0, w0]; omega
      | ⟨1, _⟩ =>
        show (sD.start (ix2 e b') idx 1 + ((sD.window (ix2 e b') 1 : ℕ) : ℤ)).toNat = b'.val
        rw [h1, w1]; omega
  · rename_i h
    constructor
    · intro hq; exact absurd hq (by simp)
    · rintro ⟨hq0, hq1⟩
      exfalso; apply h
      intro a
      match a with
      | ⟨0, _⟩ =>
        show (0 : ℤ) ≤ sD.start (ix2 e b') idx 0 + ((sD.window (ix2 e b') 0 : ℕ) : ℤ)
          ∧ sD.start (ix2 e b') idx 0 + ((sD.window (ix2 e b') 0 : ℕ) : ℤ) < ((10000 : ℕ) : ℤ)
        rw [h0, w0]; omega
      | ⟨1, _⟩ =>
        show (0 : ℤ) ≤ sD.start (ix2 e b') idx 1 + ((sD.window (ix2 e b') 1 : ℕ) : ℤ)
          ∧ sD.start (ix2 e b') idx 1 + ((sD.window (ix2 e b') 1 : ℕ) : ℤ) < ((256 : ℕ) : ℤ)
        rw [h1, w1]; omega

/-- The scatter of rows with an exact sum: element `(j, b)` is the operand's plus the updates `(e, b)` over the
    scatter indices `e` that, read signed, are `j`. -/
theorem scatter_rows_apply (x : S10000x256.Idx → EReal) (idx : IVec S170000x1 32) (upd : S170000x256.Idx → EReal)
    (j : Fin 10000) (b : Fin 256) :
    Ideal.hostScatterAdd sD x idx upd (ix2 j b)
      = x (ix2 j b) + ∑ e : Fin 170000, if (idx (ix2 e (0 : Fin 1))).toInt = (j.val : ℤ) then upd (ix2 e b) else 0 := by
  show x (ix2 j b) + ∑ u ∈ Finset.univ.filter (fun u => sD.resultIdx? u idx = some (ix2 j b)), upd u = _
  rw [Finset.sum_filter, sum_idx2]
  refine congrArg (x (ix2 j b) + ·) (Finset.sum_congr rfl fun e _ => ?_)
  simp only [scatter_rows_resultIdx]
  by_cases hj : (idx (ix2 e (0 : Fin 1))).toInt = (j.val : ℤ)
  · simp only [hj, true_and, if_true]
    rw [Finset.sum_eq_single b]
    · rw [if_pos rfl]
    · intro b' _ hne; rw [if_neg hne]
    · intro h; exact absurd (Finset.mem_univ b) h
  · simp only [hj, false_and, if_false, Finset.sum_const_zero]

/-! ## The two dense layers over the convolution's output -/

section Dense
variable (x0 : (⟨S256x10000, .f32⟩ : BufTy).Contents (Elt Ideal)) (x1 x2 : (⟨S1, .f32⟩ : BufTy).Contents (Elt Ideal))
  (x3 : (⟨S10000x1024, .f32⟩ : BufTy).Contents (Elt Ideal)) (x4 : (⟨S1024, .f32⟩ : BufTy).Contents (Elt Ideal))
  (x5 : (⟨S1024x128, .f32⟩ : BufTy).Contents (Elt Ideal)) (x6 : (⟨S128, .f32⟩ : BufTy).Contents (Elt Ideal))
  (x7 : (⟨S2x160000, .i32⟩ : BufTy).Contents (Elt Ideal))

/-- The reference's convolution output (its stage after the first rectifier) by coordinates. -/
def gRef (b : Fin 256) (j : Fin 10000) : EReal := val_main_v48 (F := Ideal) x0 x1 x2 x7 (ix2 b j)

/-- The reference's hidden stage is the first dense layer over its convolution output. -/
theorem v53_eq_hidden (b : Fin 256) (h : Fin 1024) :
    val_main_v53 (F := Ideal) x0 x1 x2 x3 x4 x7 (ix2 b h) = Cert.Spec.hidden (gRef x0 x1 x2 x7) x3 x4 b h := by
  rw [val_main_v53_apply, val_main_call1_v0_apply, val_main_call1_cst_apply, val_main_v52_apply, val_main_v51_apply,
    val_main_v50_apply, val_main_v49_apply]
  have e4 : idx_main_v50 (idx_main_v51 (ix2 b h)) = ix1 h := by
    funext a; match a with | ⟨0, _⟩ => rfl
  have el : ∀ k : Fin 10000, lidx_main_v49 (ix2 b h) k = ix2 b k := fun k => by
    funext a; match a with | ⟨0, _⟩ => rfl | ⟨1, _⟩ => rfl
  have er : ∀ k : Fin 10000, ridx_main_v49 (ix2 b h) k = ix2 k h := fun k => by
    funext a; match a with | ⟨0, _⟩ => rfl | ⟨1, _⟩ => rfl
  simp only [e4, el, er, Ideal.maximumf_def, Ideal.addf_def, Ideal.ofBits_def, Ideal.ofBits_zero_f32]
  rfl

/-- The reference's result is the second dense layer over the hidden stage. -/
theorem v58_eq_mlp :
    val_main_v58 (F := Ideal) x0 x1 x2 x3 x4 x5 x6 x7 = Cert.Spec.mlp (gRef x0 x1 x2 x7) x3 x4 x5 x6 := by
  funext i
  obtain ⟨b, o, rfl⟩ : ∃ (b : Fin 256) (o : Fin 128), i = ix2 b o := ⟨i 0, i 1, eq_ix2 i⟩
  rw [val_main_v58_apply, val_main_call2_v0_apply, val_main_call2_cst_apply, val_main_v57_apply, val_main_v56_apply,
    val_main_v55_apply, val_main_v54_apply]
  have e6 : idx_main_v55 (idx_main_v56 (ix2 b o)) = ix1 o := by
    funext a; match a with | ⟨0, _⟩ => rfl
  have el : ∀ k : Fin 1024, lidx_main_v54 (ix2 b o) k = ix2 b k := fun k => by
    funext a; match a with | ⟨0, _⟩ => rfl | ⟨1, _⟩ => rfl
  have er : ∀ k : Fin 1024, ridx_main_v54 (ix2 b o) k = ix2 k o := fun k => by
    funext a; match a with | ⟨0, _⟩ => rfl | ⟨1, _⟩ => rfl
  simp only [e6, el, er, v53_eq_hidden, Ideal.maximumf_def, Ideal.addf_def, Ideal.ofBits_def, Ideal.ofBits_zero_f32]
  rfl

end Dense

/-! ## The convolution: messages gathered by source node, weighted, and summed by destination node -/

section Scalars

/-- The convolution's scalar weight as a rank-0 array reads the one element of its argument. -/
theorem v27_apply (x1 : (⟨S1, .f32⟩ : BufTy).Contents (Elt Ideal)) (i : S_.Idx) :
    val_main_v27 (F := Ideal) x1 i = x1 (ix1 (0 : Fin 1)) := by
  unfold val_main_v27
  refine shapeCast_apply x1 shapeCasts_S1_S_ i (ix1 (0 : Fin 1)) ?_
  rw [Shape.rowMajor_val_one]
  have h : (S_.rowMajor i).val < 1 := (S_.rowMajor i).isLt
  show (0 : ℕ) = (S_.rowMajor i).val
  omega

/-- The convolution's scalar bias as a rank-0 array reads the one element of its argument. -/
theorem v45_apply (x2 : (⟨S1, .f32⟩ : BufTy).Contents (Elt Ideal)) (i : S_.Idx) :
    val_main_v45 (F := Ideal) x2 i = x2 (ix1 (0 : Fin 1)) := by
  unfold val_main_v45
  refine shapeCast_apply x2 shapeCasts_S1_S_ i (ix1 (0 : Fin 1)) ?_
  rw [Shape.rowMajor_val_one]
  have h : (S_.rowMajor i).val < 1 := (S_.rowMajor i).isLt
  show (0 : ℕ) = (S_.rowMajor i).val
  omega

end Scalars

section Conv
open Cert.KernelIdeal.Chain
variable [Cert.KernelIdeal.Facts]
variable (x0 : (⟨S256x10000, .f32⟩ : BufTy).Contents (Elt Ideal)) (x1 x2 : (⟨S1, .f32⟩ : BufTy).Contents (Elt Ideal))
  (x7 : (⟨S2x160000, .i32⟩ : BufTy).Contents (Elt Ideal))

/-- The scatter index of edge `e`, read signed, is its destination node. -/
theorem v42_toInt (hdi : ∀ e : Fin 170000, (dstT x7 (ix1 e)).toInt = (dN x7 e : ℤ)) (e : Fin 170000) :
    (val_main_v42 (F := Ideal) x7 (ix2 e (0 : Fin 1))).toInt = (dN x7 e : ℤ) := by
  have e42 : idx_main_v42 (ix2 e (0 : Fin 1)) = ix1 e := by
    funext a; match a with | ⟨0, _⟩ => rfl
  rw [val_main_v42_apply, v6_eq, e42]
  exact hdi e

/-- The gather's start index of edge `e`, read signed, is its source node. -/
theorem v35_toInt (hsi : ∀ e : Fin 170000, (srcT x7 (ix1 e)).toInt = (sN x7 e : ℤ))
    (hws : wrapT (srcT x7) = srcT x7) (e : Fin 170000) :
    (val_main_v35 (F := Ideal) x7 (ix2 e (0 : Fin 1))).toInt = (sN x7 e : ℤ) := by
  have e35 : idx_main_v35 (ix2 e (0 : Fin 1)) = ix1 e := by
    funext a; match a with | ⟨0, _⟩ => rfl
  rw [val_main_v35_apply, v34_eq, hws, e35]
  exact hsi e

/-- Edge `e`'s message for sample `b`: the source node's feature times the scalar weight, times the edge's weight. -/
theorem v40_apply (hs : ∀ e, sN x7 e < 10000) (hsi : ∀ e : Fin 170000, (srcT x7 (ix1 e)).toInt = (sN x7 e : ℤ))
    (hws : wrapT (srcT x7) = srcT x7) (e : Fin 170000) (b : Fin 256) :
    val_main_v40 (F := Ideal) x0 x1 x7 (ix2 e b)
      = (x0 (ix2 b (⟨sN x7 e, hs e⟩ : Fin 10000)) * x1 (ix1 (0 : Fin 1))) * nrmN x7 e := by
  have e40 : idx_main_v40 (ix2 e b) = ix2 b e := by
    funext a; match a with | ⟨0, _⟩ => rfl | ⟨1, _⟩ => rfl
  have e38 : idx_main_v37 (idx_main_v38 (ix2 b e)) = ix1 e := by
    funext a; match a with | ⟨0, _⟩ => rfl
  have hm : (⟨min (val_main_v35 (F := Ideal) x7 (ix2 e (0 : Fin 1))).toInt.toNat 9999, by omega⟩ : Fin 10000)
      = ⟨sN x7 e, hs e⟩ := by
    refine Fin.ext ?_
    show min (val_main_v35 (F := Ideal) x7 (ix2 e (0 : Fin 1))).toInt.toNat 9999 = sN x7 e
    rw [v35_toInt x7 hsi hws e]
    have := hs e
    omega
  have hg : val_main_v36 (F := Ideal) x0 x1 x7 (ix2 b e)
      = val_main_v29 (F := Ideal) x0 x1 (ix2 b (⟨sN x7 e, hs e⟩ : Fin 10000)) := by
    unfold val_main_v36
    rw [gather_cols_apply, hm]
  rw [val_main_v40_apply, e40, val_main_v39_apply, hg, val_main_v38_apply, val_main_v37_apply, e38, v26_eq,
    val_main_v29_apply, val_main_v28_apply, v27_apply]
  simp only [Ideal.mulf_def]
  rfl

/-- What node `j` of sample `b` receives in the reference — the sum over the edges into `j` of their messages — is the
    double sum over edges and source nodes with the indicator. -/
theorem v43_eq_agg (hs : ∀ e, sN x7 e < 10000) (hsi : ∀ e : Fin 170000, (srcT x7 (ix1 e)).toInt = (sN x7 e : ℤ))
    (hdi : ∀ e : Fin 170000, (dstT x7 (ix1 e)).toInt = (dN x7 e : ℤ)) (hws : wrapT (srcT x7) = srcT x7)
    (j : Fin 10000) (b : Fin 256) :
    val_main_v43 (F := Ideal) x0 x1 x7 (ix2 j b)
      = Cert.Spec.agg x0 (x1 (ix1 (0 : Fin 1))) (sN x7) (dN x7) (nrmN x7) b j := by
  unfold val_main_v43 Host.scatterAdd
  rw [Ideal.hostScatterAdd_def, scatter_rows_apply, val_main_v41_apply, val_main_cst_6_apply, Ideal.ofBits_def,
    Ideal.ofBits_zero_f32, zero_add]
  unfold Cert.Spec.agg
  refine Finset.sum_congr rfl fun e _ => ?_
  rw [v42_toInt x7 hdi e, v40_apply x0 x1 x7 hs hsi hws e b]
  by_cases hj : dN x7 e = j.val
  · rw [if_pos (by exact_mod_cast hj), Finset.sum_eq_single (⟨sN x7 e, hs e⟩ : Fin 10000)]
    · rw [if_pos ⟨rfl, hj⟩]
    · intro i _ hne
      rw [if_neg]
      rintro ⟨h1, _⟩
      exact hne (Fin.ext h1.symm)
    · intro h; exact absurd (Finset.mem_univ _) h
  · rw [if_neg (by exact_mod_cast hj)]
    symm
    refine Finset.sum_eq_zero fun i _ => ?_
    rw [if_neg]
    rintro ⟨_, h2⟩
    exact hj h2

/-- The reference's convolution output is the common convolution. -/
theorem gRef_eq_conv (hs : ∀ e, sN x7 e < 10000) (hsi : ∀ e : Fin 170000, (srcT x7 (ix1 e)).toInt = (sN x7 e : ℤ))
    (hdi : ∀ e : Fin 170000, (dstT x7 (ix1 e)).toInt = (dN x7 e : ℤ)) (hws : wrapT (srcT x7) = srcT x7)
    (b : Fin 256) (j : Fin 10000) :
    gRef x0 x1 x2 x7 b j
      = Cert.Spec.conv x0 (x1 (ix1 (0 : Fin 1))) (x2 (ix1 (0 : Fin 1))) (sN x7) (dN x7) (nrmN x7) b j := by
  have e44 : idx_main_v44 (ix2 b j) = ix2 j b := by
    funext a; match a with | ⟨0, _⟩ => rfl | ⟨1, _⟩ => rfl
  unfold gRef
  rw [val_main_v48_apply, val_main_call0_v0_apply, val_main_call0_cst_apply, val_main_v47_apply, val_main_v46_apply,
    v45_apply, val_main_v44_apply, e44, v43_eq_agg x0 x1 x7 hs hsi hdi hws j b]
  simp only [Ideal.maximumf_def, Ideal.addf_def, Ideal.ofBits_def, Ideal.ofBits_zero_f32]
  rfl

end Conv

/-! ## The reference's result is the common value -/

/-- THE REFERENCE'S VALUE: with every edge's two end nodes in range (and so read the same signed or unsigned, and left
    alone by the wrap of negative indices), the reference's result array is the network of `Cert.Spec` over the
    arguments and the edge data. -/
theorem ref_net [Cert.ReferenceIdeal.Facts] [Cert.KernelIdeal.Facts] (x0 : FVec Ideal S256x10000 .f32)
    (x1 x2 : FVec Ideal S1 .f32) (x3 : FVec Ideal S10000x1024 .f32) (x4 : FVec Ideal S1024 .f32)
    (x5 : FVec Ideal S1024x128 .f32) (x6 : FVec Ideal S128 .f32) (x7 : IVec S2x160000 32)
    (hs : ∀ e, Cert.KernelIdeal.Chain.sN x7 e < 10000) (hd : ∀ e, Cert.KernelIdeal.Chain.dN x7 e < 10000)
    (hsi : ∀ e : Fin 170000, (Cert.KernelIdeal.Chain.srcT x7 (ix1 e)).toInt = (Cert.KernelIdeal.Chain.sN x7 e : ℤ))
    (hdi : ∀ e : Fin 170000, (Cert.KernelIdeal.Chain.dstT x7 (ix1 e)).toInt = (Cert.KernelIdeal.Chain.dN x7 e : ℤ))
    (hws : Cert.KernelIdeal.Chain.wrapT (Cert.KernelIdeal.Chain.srcT x7) = Cert.KernelIdeal.Chain.srcT x7)
    (hwd : Cert.KernelIdeal.Chain.wrapT (Cert.KernelIdeal.Chain.dstT x7) = Cert.KernelIdeal.Chain.dstT x7) :
    Cert.ReferenceIdeal.Read.val_main_v58 (F := Ideal) x0 x1 x2 x3 x4 x5 x6 x7
      = Cert.Spec.net x0 (x1 (ix1 0)) (x2 (ix1 0)) x3 x4 x5 x6 (Cert.KernelIdeal.Chain.sN x7)
          (Cert.KernelIdeal.Chain.dN x7) (Cert.KernelIdeal.Chain.nrmN x7) := by
  have hg : gRef x0 x1 x2 x7
      = Cert.Spec.conv x0 (x1 (ix1 (0 : Fin 1))) (x2 (ix1 (0 : Fin 1))) (Cert.KernelIdeal.Chain.sN x7)
          (Cert.KernelIdeal.Chain.dN x7) (Cert.KernelIdeal.Chain.nrmN x7) := by
    funext b j
    exact gRef_eq_conv x0 x1 x2 x7 hs hsi hdi hws b j
  rw [v58_eq_mlp, hg]
  rfl

end Cert.ReferenceIdeal.RefValue

end
-- ==== Proof.Algebraic.lean ====
/- The value claim: from memories that agree on the arguments, the idealized kernel and the idealized reference end with
   the same result array.

   The reference's last stage is the common network of its arguments (the edge data identified with the kernel's, the
   scatter of messages regrouped as the double sum with indicator); the kernel's result is the same network of its own
   arguments; the arguments agree. The precondition is used twice: the finiteness of the float inputs for the law that
   moves the feature and the scalar weight across the sum over edges, and the range of the edge indices so that no index
   is wrapped or dropped on either side. -/
import proofs.«426459_j40699110097621_1_alg».proof.Defs
import proofs.«426459_j40699110097621_1_alg».proof.Proof.NetValue
import proofs.«426459_j40699110097621_1_alg».proof.Proof.RefValue
import proofs.«426459_j40699110097621_1_alg».proof.Proof.Gen.Pre_finite_inputs

noncomputable section

namespace Cert.Proof.Value

open Idealize.ShloMosaic Idealize.ShloMosaic.ValueIdx Idealize.SL.Sem

theorem algebraic : Cert.algebraic_KernelIdeal_ReferenceIdeal := by
  intro m ρ m' ρ' hpre hagree
  refine ⟨fun c => Cert.KernelIdeal.Hand.outsH m 8 Cert.KernelIdeal.main_v55 c, Cert.KernelIdeal.Hand.run_value m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7⟩ := hagree c
  obtain ⟨h0, h1, h2, h3, h4, h5, h6, h7⟩ := Cert.PreFacts.of_pre _ _ _ _ _ _ _ _ (hpre c)
  rw [Cert.ReferenceIdeal.Read.val_main_v58_eq, e0, e1, e2, e3, e4, e5, e6, e7]
  refine (Cert.ReferenceIdeal.RefValue.ref_net _ _ _ _ _ _ _ _ (Cert.KernelIdeal.Chain.sN_lt _ h7) (Cert.KernelIdeal.Chain.dN_lt _ h7)
    (Cert.KernelIdeal.Chain.src_toInt _ h7) (Cert.KernelIdeal.Chain.dst_toInt _ h7) (Cert.KernelIdeal.Chain.wrap_src _ h7)
    (Cert.KernelIdeal.Chain.wrap_dst _ h7)).trans ?_
  exact (Cert.KernelIdeal.Hand.kernel_net m c (hpre c)).symm

end Cert.Proof.Value

end
-- ==== Proof.lean ====
/- The certificate of a graph-convolution kernel against its reference, over the extended reals.

   Both programs compute one graph convolution with a scalar weight over 10000 nodes and 170000 edges (the given edges
   and one self loop per node, each weighted by the inverse square roots of its two end nodes' in-degrees), then two
   dense layers, each followed by a rectifier. The reference gathers a message per edge and sums the messages by
   destination node; the kernel builds the 10240 × 10240 edge-weight matrix once, multiplies the padded features by it
   in one pipelined region (a five-step accumulation per output tile) and runs the dense layers in a second one. Under
   the precondition — finite float inputs, every edge index a node — the two are one function of the arguments: the
   sum over edges regrouped by source node (a distributive law, which is where finiteness is used), the padded columns
   and rows contributing exact zeros, the five block sums making the whole contraction.

   The claims: the three frames (Proof/Frames.lean), the idealization's ledger (empty: the idealized program is the
   printed text read at the extended reals), and the value claim (Proof/Algebraic.lean). -/
import proofs.«426459_j40699110097621_1_alg».proof.Defs
import proofs.«426459_j40699110097621_1_alg».proof.Proof.Gen.Kernel
import proofs.«426459_j40699110097621_1_alg».proof.Proof.Gen.KernelIdeal
import proofs.«426459_j40699110097621_1_alg».proof.Proof.Gen.ReferenceIdeal
import proofs.«426459_j40699110097621_1_alg».proof.Proof.Gen.Pre_finite_inputs
import proofs.«426459_j40699110097621_1_alg».proof.Proof.Frames
import proofs.«426459_j40699110097621_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_K, Frames.frame_KI, Frames.frame_RI, trivial, Value.algebraic⟩

end Cert.Proof

end
